-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg1 : IVec S1600000 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294867296#32
  let main_v39 : IVec S1600000 32 := broadcastInDim S1600000 ![] bcast_S_S1600000 main_c_14
  let main_v40 : IVec S1600000 1 := cmpi .sge main_arg1 main_v39
  let main_c_15 : IVec S_ 32 := constantI S_ 32 100000#32
  let main_v41 : IVec S1600000 32 := broadcastInDim S1600000 ![] bcast_S_S1600000 main_c_15
  let main_v42 : IVec S1600000 1 := cmpi .slt main_arg1 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg1 : IVec S1600000 32) (main_arg6 : FVec F S1 .f32) (main_arg7 : FVec F S128 .f32) (main_arg8 : FVec F S128 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S1 .f32) (main_arg7 : FVec F S128 .f32) (main_arg8 : FVec F S128 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1 : Shape := ⟨1, ![1]⟩
abbrev S2000x128 : Shape := ⟨2, ![2000, 128]⟩
abbrev S_ : Shape := ⟨0, ![]⟩
abbrev S1600000x1 : Shape := ⟨2, ![1600000, 1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 58
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S1, .f32⟩
  | .hbm, ⟨7, _⟩ => ⟨S128, .f32⟩
  | .hbm, ⟨8, _⟩ => ⟨S128, .f32⟩
  | .hbm, ⟨9, _⟩ => ⟨S1, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000x128, .f32⟩
  | .hbm, ⟨30, _⟩ => ⟨S1600000x128, .i1⟩
  | .hbm, ⟨31, _⟩ => ⟨S_, .f32⟩
  | .hbm, ⟨32, _⟩ => ⟨S1600000x128, .f32⟩
  | .hbm, ⟨33, _⟩ => ⟨S1600000x128, .f32⟩
  | .hbm, ⟨34, _⟩ => ⟨S1600000x1, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S1x128, .f32⟩
  | .hbm, ⟨42, _⟩ => ⟨S1x1, .f32⟩
  | .hbm, ⟨43, _⟩ => ⟨S100000x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x1, .f32⟩
  | .hbm, ⟨57, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x1, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x1, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10_0 : Ref sig .tc := ⟨.hbm, 43, rfl⟩
abbrev main_v10_1 : Ref sig .tc := ⟨.hbm, 44, rfl⟩
abbrev main_v10_2 : Ref sig .tc := ⟨.hbm, 45, rfl⟩
abbrev main_cst_0 : Ref sig .tc := ⟨.hbm, 46, rfl⟩
abbrev main_v11 : Ref sig .tc := ⟨.hbm, 47, rfl⟩
abbrev main_v12 : Ref sig .tc := ⟨.hbm, 48, rfl⟩
abbrev main_cst_1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v32 : BitVec 1 := Scalar.cmpi .eq arg0 c49_i32
  let v33 : BitVec 32 := Scalar.extui v32
  let c0_i32_18 : BitVec 32 := 0#32
  let v34 : BitVec 1 := Scalar.cmpi .ne v33 c0_i32_18
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S2000x128_S128 : S2000x128.Reduces [0] S128
  bcast_S_S1x128 : S_.BroadcastsInDim S1x128 (![] : Fin 0 → Fin S1x128.rank)
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v10_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S1, .f32⟩
  | .hbm, ⟨7, _⟩ => ⟨S128, .f32⟩
  | .hbm, ⟨8, _⟩ => ⟨S128, .f32⟩
  | .hbm, ⟨9, _⟩ => ⟨S1, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .i1⟩
  | .hbm, ⟨33, _⟩ => ⟨S1x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .i1⟩
  | .hbm, ⟨84, _⟩ => ⟨S1x1, .f32⟩
  | .hbm, ⟨85, _⟩ => ⟨S100000x128, .f32⟩
  | .hbm, ⟨86, _⟩ => ⟨S100000x128, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_cst_1 : Ref sig .tc := ⟨.hbm, 53, rfl⟩
abbrev main_call1_v8 : Ref sig .tc := ⟨.hbm, 54, rfl⟩
abbrev main_call1_cst_2 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_cst_3 : Ref sig .tc := ⟨.hbm, 59, rfl⟩
abbrev main_call1_v12 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_6 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRects.lean ====
/-
  The whole-buffer rectangles the three kernel bodies load and store through: a 2000×128 block, the 128×128
  matrix, a 1×128 row, the 1×1 cell.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rRows : Rect S2000x128 := Rect.unit (s := S2000x128) ![0, 0] S2000x128.size inb_S2000x128_S2000x128_0_0
abbrev rSq : Rect S128x128 := Rect.unit (s := S128x128) ![0, 0] S128x128.size inb_S128x128_S128x128_0_0
abbrev rRow : Rect S1x128 := Rect.unit (s := S1x128) ![0, 0] S1x128.size inb_S1x128_S1x128_0_0
abbrev rOne : Rect S1x1 := Rect.unit (s := S1x1) ![0, 0] S1x1.size inb_S1x1_S1x1_0_0

end Cert.Kernel.Hand

end
-- ==== Proof.KR0Defs.lean ====
/-
  Region 0 (the projection x = heat · W, one 2000-row block per grid point), stated at the contents V the region is
  entered with: a window's block at a point; what the body leaves in the output block (the matrix product of the
  heat block with the whole W, stored over the whole block); the pipeline's proof data.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.KRects

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, whether the
    pipeline fetched it there or left it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, whether the
    pipeline fetched it there or left it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output block: one store of the product over the whole block. -/
def out0_2 (x0 : Vec F S2000x128 .f32) (x1 : Vec F S128x128 .f32) : Vec F S2000x128 .f32 :=
  View.canon [⟨rRows, k0_pay1 (View.ld x0 rRows) (View.ld x1 rSq)⟩]

theorem cover0_2 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- The proof data of pipeline 0: the arrays as entered; after the body the inputs' buffers at their blocks and the
    output's at the product of the two; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end

end Cert.Kernel.Hand

end
-- ==== Proof.KR1Defs.lean ====
/-
  Region 1 (h = leaky ramp of agg + b, with the column sums of h and of h² accumulated over the 50 row blocks), stated
  at the contents V the region is entered with. The two accumulators live in scratch rows the kernel keeps between grid
  points: zeroed at the first point, then at every point increased by the block's column sums; at the last point they
  are copied into the two 1×128 outputs. The proof data name what the accumulators hold after each point by recursion
  on the point, and the region's invariant holds the two scratch rows at those contents beside the other scoped buffers.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.KRects

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry array at every point, whether the
    pipeline fetched it there or left it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry array at every point, whether the
    pipeline fetched it there or left it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry array at every point, whether the
    pipeline fetched it there or left it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two scratch rows, as whole memrefs. -/
abbrev scM7 : Memref sig .tc .vmem S1x128 .f32 := Memref.whole cc1_scratch0
abbrev scM8 : Memref sig .tc .vmem S1x128 .f32 := Memref.whole cc1_scratch1

/-- The h block the body stores: a pointwise function of the agg block, the bias row and the slope cell. -/
def out1_3 (x0 : Vec F S2000x128 .f32) (x1 : Vec F S1x128 .f32) (x2 : Vec F S1x1 .f32) : Vec F S2000x128 .f32 :=
  View.canon [⟨rRows, k1_pay3 (View.ld x0 rRows) (View.ld x1 rRow) (View.ld x2 rOne)⟩]

theorem cover1_3 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y
theorem coverRow (p0 : Vec F S1x128 .f32) (y : S1x128.Idx) :
    ∃ pc ∈ ([⟨rRow, p0⟩] : List (View.Piece (Elt F) S1x128 .f32)), y ∈ pc.1.set :=
  View.cover_of_tiled [⟨rRow, p0⟩] S1x128.size (by rfl) y

/-- The zeroed accumulators (what the first point stores before it adds). -/
def z7 : Vec F S1x128 .f32 := View.canon [⟨rRow, k1_pay1⟩]
def z8 : Vec F S1x128 .f32 := View.canon [⟨rRow, k1_pay2⟩]
/-- One point's update of the sum accumulator, and of the sum-of-squares accumulator: the row stored back. -/
def step7 (x0 : Vec F S2000x128 .f32) (x1 : Vec F S1x128 .f32) (x2 : Vec F S1x1 .f32) (s : Vec F S1x128 .f32) : Vec F S1x128 .f32 :=
  View.canon [⟨rRow, k1_pay4 (View.ld x0 rRows) (View.ld x1 rRow) (View.ld x2 rOne) (View.ld s rRow)⟩]
def step8 (x0 : Vec F S2000x128 .f32) (x1 : Vec F S1x128 .f32) (x2 : Vec F S1x1 .f32) (s : Vec F S1x128 .f32) : Vec F S1x128 .f32 :=
  View.canon [⟨rRow, k1_pay5 (View.ld x0 rRows) (View.ld x1 rRow) (View.ld x2 rOne) (View.ld s rRow)⟩]
/-- A 1×128 output at the last point: the accumulator row loaded and stored. -/
def out1_s (s : Vec F S1x128 .f32) : Vec F S1x128 .f32 := View.canon [⟨rRow, View.ld s rRow⟩]

/-- What the two accumulators hold after point n: from zero at the first point, each point adding its block's column sums. -/
def scAt1 (c : Dev nD) : (n : ℕ) → n < cfg1.N → Vec F S1x128 .f32 × Vec F S1x128 .f32
  | 0, hn => (step7 (iblk1 V c 0 ⟨0, hn⟩) (iblk1 V c 1 ⟨0, hn⟩) (iblk1 V c 2 ⟨0, hn⟩) z7,
              step8 (iblk1 V c 0 ⟨0, hn⟩) (iblk1 V c 1 ⟨0, hn⟩) (iblk1 V c 2 ⟨0, hn⟩) z8)
  | n + 1, hn => (step7 (iblk1 V c 0 ⟨n + 1, hn⟩) (iblk1 V c 1 ⟨n + 1, hn⟩) (iblk1 V c 2 ⟨n + 1, hn⟩) (scAt1 c n (Nat.lt_of_succ_lt hn)).1,
                  step8 (iblk1 V c 0 ⟨n + 1, hn⟩) (iblk1 V c 1 ⟨n + 1, hn⟩) (iblk1 V c 2 ⟨n + 1, hn⟩) (scAt1 c n (Nat.lt_of_succ_lt hn)).2)

theorem scAt1_zero (c : Dev nD) (hn : 0 < cfg1.N) :
    scAt1 V c 0 hn = (step7 (iblk1 V c 0 ⟨0, hn⟩) (iblk1 V c 1 ⟨0, hn⟩) (iblk1 V c 2 ⟨0, hn⟩) z7,
              step8 (iblk1 V c 0 ⟨0, hn⟩) (iblk1 V c 1 ⟨0, hn⟩) (iblk1 V c 2 ⟨0, hn⟩) z8) := rfl
theorem scAt1_succ (c : Dev nD) (n : ℕ) (hn : n + 1 < cfg1.N) :
    scAt1 V c (n + 1) hn = (step7 (iblk1 V c 0 ⟨n + 1, hn⟩) (iblk1 V c 1 ⟨n + 1, hn⟩) (iblk1 V c 2 ⟨n + 1, hn⟩) (scAt1 V c n (Nat.lt_of_succ_lt hn)).1,
                  step8 (iblk1 V c 0 ⟨n + 1, hn⟩) (iblk1 V c 1 ⟨n + 1, hn⟩) (iblk1 V c 2 ⟨n + 1, hn⟩) (scAt1 V c n (Nat.lt_of_succ_lt hn)).2) := rfl

/-- The core's scoped buffers that are neither a staging buffer of this pipeline nor one of its two scratch rows, each
    whole at some contents (the other two pipelines' staging buffers). -/
def Others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- The region's invariant before position n: before the first point the scoped rest and the generator register (the
    scratch rows at anything); afterwards the two scratch rows at what the point before left in them, the other scoped
    buffers at anything, the generator register at some state. -/
def PhiS1 (c : Dev nD) : (n : ℕ) → n ≤ cfg1.N → sProp 𝕄
  | 0, _ => Pipeline.ΦA spec1 c
  | n + 1, hn => iprop(owns (c : Thread nD τ) scM7 fullShare (scAt1 V c n hn).1 ∗ owns (c : Thread nD τ) scM8 fullShare (scAt1 V c n hn).2
      ∗ Others1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM7 fullShare (scAt1 V c n hn).1 ∗ owns (c : Thread nD τ) scM8 fullShare (scAt1 V c n hn).2
      ∗ Others1 c ∗ (∃ r, prngReg c r)) := rfl
theorem PhiS1_pos (c : Dev nD) (n : ℕ) (h : n ≤ cfg1.N) (hz : n ≠ 0) :
    PhiS1 V c n h = iprop(owns (c : Thread nD τ) scM7 fullShare (scAt1 V c (n - 1) (by omega)).1 ∗ owns (c : Thread nD τ) scM8 fullShare (scAt1 V c (n - 1) (by omega)).2
      ∗ Others1 c ∗ (∃ r, prngReg c r)) := by
  cases n with
  | zero => exact absurd rfl hz
  | succ n => rfl

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_s (scAt1 V c t.val t.isLt).1
    | ⟨5, _⟩ => out1_s (scAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_s (scAt1 V c t.val t.isLt).1 := by dsimp only [dat1]
theorem after1_5 (c : Dev nD) (t : Fin cfg1.N) : (dat1 V c).after 5 t = out1_s (scAt1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.Kernel.Hand

end
-- ==== Proof.KR2Defs.lean ====
/-
  Region 2 (batch normalisation, affine map and the outer leaky ramp, one 2000-row block per grid point), stated at
  the contents V the region is entered with: a window's block at a point; what the body leaves in the output block
  (one store over the whole block of a pointwise function of the h block and the five small operands); the proof data.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.KRects

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry array at every point, whether the
    pipeline fetched it there or left it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the entry array at every point, whether the
    pipeline fetched it there or left it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the entry array at every point, whether the
    pipeline fetched it there or left it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the entry array at every point, whether the
    pipeline fetched it there or left it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the entry array at every point, whether the
    pipeline fetched it there or left it in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the entry array at every point, whether the
    pipeline fetched it there or left it in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output block: one store over the whole block. -/
def out2_6 (x0 : Vec F S2000x128 .f32) (x1 x2 x3 x4 : Vec F S1x128 .f32) (x5 : Vec F S1x1 .f32) : Vec F S2000x128 .f32 :=
  View.canon [⟨rRows, k2_pay1 (View.ld x0 rRows) (View.ld x1 rRow) (View.ld x2 rRow) (View.ld x3 rRow) (View.ld x4 rRow) (View.ld x5 rOne)⟩]

theorem cover2_6 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- The proof data of pipeline 2: the arrays as entered; after the body the inputs' buffers at their blocks and the
    output's at the pointwise function of them; the invariant is the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end

end Cert.Kernel.Hand

end
-- ==== Proof.KR0Body.lean ====
/-
  Region 0: the body obligation of the projection kernel at every grid point.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.KRects
import proofs.«413316_j77618648973416_1_alg».proof.Proof.KR0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 1000000 in
/-- The kernel body on whole staging memrefs: the two inputs at contents `x0`, `x1`, the output at anything. It
    reads both inputs (and the output's old contents, which it drops), and stores the product over the whole output
    block; it hands the inputs back as they were and the output at `out0_2 x0 x1`. The grid coordinate is not read. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-- What the body is called with at point `t`: the invariant, the core's debts, and the three windows' current
    staging buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same invariant and debts, every buffer at the proof data's contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks of the entry arrays, the output's buffer holds
    something; the kernel's triple applies, and the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KR1Body.lean ====
/-
  Region 1: the body obligation of the bias / leaky-ramp / column-sums kernel at every grid point, and the two ends of
  its invariant (the scoped rest in, the scoped rest back).

  The body has two conditionals on the grid point: at the first point it zeroes the two accumulator rows before adding,
  at the last it copies them into the two row outputs. So a point is in one of three cases (first, middle, last), and the
  body is run once per case on any whole memrefs, with what each buffer holds afterwards stated in closed form; the
  obligation at a point picks the case from the point's number.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«413316_j77618648973416_1_alg».proof.Proof.KRects
import proofs.«413316_j77618648973416_1_alg».proof.Proof.KR1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The first conditional's test (is this the first grid point?) and the second's (is it the last?). -/
abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 49 :=
  (by decide +kernel : ∀ t : Fin grid1.N, cond1_1 (grid1.coords t) ↔ t.val = 49)

/-! ## Where the windows are live and where idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- The two row outputs are stored at the last point only: idle, and not written back, everywhere else. -/
theorem idle1_4 : ∀ t : Fin cfg1.N, ¬cond1_1 (grid1.coords t) → cfg1.idle 4 (grid1.coords t) = true := by decide +kernel
theorem idle1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
theorem live1_4 : ∀ t : Fin cfg1.N, cond1_1 (grid1.coords t) → cfg1.idle 4 (grid1.coords t) = false := by decide +kernel
theorem live1_5 : ∀ t : Fin cfg1.N, cond1_1 (grid1.coords t) → cfg1.idle 5 (grid1.coords t) = false := by decide +kernel

/-! ## The staging memrefs at a point -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)

/-! ## Stores and loads through the whole-buffer rectangles -/

theorem hzTwo : (![0, 0] : Fin 2 → Nat) = fun _ => 0 := funext fun a => by fin_cases a <;> rfl

/-- A load of a whole row reads the row. -/
theorem ld_row (X : Vec F S1x128 .f32) : View.ld X rRow = X := View.ld_unit_zero (S := S1x128) hzTwo _ X
/-- One whole-row store leaves its payload; so does a last whole-row store over earlier ones. -/
theorem canon_row (w : Vec F S1x128 .f32) : View.canon [(⟨rRow, w⟩ : View.Piece (Elt F) S1x128 .f32)] = w :=
  View.canon_unit_zero (S := S1x128) hzTwo _ w
theorem canon_row_cons (w : Vec F S1x128 .f32) (L : List (View.Piece (Elt F) S1x128 .f32)) :
    View.canon ((⟨rRow, w⟩ : View.Piece (Elt F) S1x128 .f32) :: L) = w :=
  View.canon_cons_unit_zero (S := S1x128) hzTwo _ w L
/-- A whole-row load right after one whole-row store reads the payload. -/
theorem readCov_row {κ : Kind} {sp : Space} (v : View sig κ sp S1x128 .f32) (w : Vec F S1x128 .f32) :
    v.readCov [(⟨rRow, w⟩ : View.Piece (Elt F) S1x128 .f32)] rRow.toLoadRect = w :=
  View.readCov_unit_zero (S := S1x128) v hzTwo _ w
/-- A last whole-row store covers the row whatever came before. -/
theorem coverRow_cons (w : Vec F S1x128 .f32) (L : List (View.Piece (Elt F) S1x128 .f32)) (y : S1x128.Idx) :
    ∃ pc ∈ ((⟨rRow, w⟩ : View.Piece (Elt F) S1x128 .f32) :: L), y ∈ pc.1.set :=
  ⟨_, List.mem_cons_self, View.mem_set_unit_zero (S := S1x128) hzTwo inb_S1x128_S1x128_0_0 y⟩

/-- The accumulators' closed forms with the whole-row loads and stores read through. -/
theorem z7_eq : (z7 : Vec F S1x128 .f32) = k1_pay1 := canon_row _
theorem z8_eq : (z8 : Vec F S1x128 .f32) = k1_pay2 := canon_row _
theorem step7_eq (x0 : Vec F S2000x128 .f32) (x1 : Vec F S1x128 .f32) (x2 : Vec F S1x1 .f32) (s : Vec F S1x128 .f32) :
    step7 x0 x1 x2 s = k1_pay4 (View.ld x0 rRows) x1 (View.ld x2 rOne) s := by
  unfold step7; rw [canon_row]; simp only [ld_row]
theorem step8_eq (x0 : Vec F S2000x128 .f32) (x1 : Vec F S1x128 .f32) (x2 : Vec F S1x1 .f32) (s : Vec F S1x128 .f32) :
    step8 x0 x1 x2 s = k1_pay5 (View.ld x0 rRows) x1 (View.ld x2 rOne) s := by
  unfold step8; rw [canon_row]; simp only [ld_row]
theorem out1_s_whole (s : Vec F S1x128 .f32) : out1_s s = s := by
  unfold out1_s; rw [canon_row, ld_row]

/-- The stored rows, as the loads and stores spell them, are the accumulators' and outputs' closed forms. -/
theorem bridge7 (x0 : Vec F S2000x128 .f32) (x1 : Vec F S1x128 .f32) (x2 : Vec F S1x1 .f32) (s : Vec F S1x128 .f32) :
    k1_pay4 (View.ld x0 rRows) (View.ld x1 rRow) (View.ld x2 rOne) (View.ld s rRow) = step7 x0 x1 x2 s := by
  unfold step7; rw [canon_row]
theorem bridge8 (x0 : Vec F S2000x128 .f32) (x1 : Vec F S1x128 .f32) (x2 : Vec F S1x1 .f32) (s : Vec F S1x128 .f32) :
    k1_pay5 (View.ld x0 rRows) (View.ld x1 rRow) (View.ld x2 rOne) (View.ld s rRow) = step8 x0 x1 x2 s := by
  unfold step8; rw [canon_row]
/-- At the first point the accumulator read back after the zeroing store is the zero row. -/
theorem bridge7A {κ : Kind} {sp : Space} (v : View sig κ sp S1x128 .f32) (x0 : Vec F S2000x128 .f32) (x1 : Vec F S1x128 .f32) (x2 : Vec F S1x1 .f32) :
    k1_pay4 (View.ld x0 rRows) (View.ld x1 rRow) (View.ld x2 rOne) (v.readCov [(⟨rRow, k1_pay1⟩ : View.Piece (Elt F) S1x128 .f32)] rRow.toLoadRect)
      = step7 x0 x1 x2 z7 := by
  rw [← bridge7, readCov_row, z7_eq, ld_row k1_pay1]
theorem bridge8A {κ : Kind} {sp : Space} (v : View sig κ sp S1x128 .f32) (x0 : Vec F S2000x128 .f32) (x1 : Vec F S1x128 .f32) (x2 : Vec F S1x1 .f32) :
    k1_pay5 (View.ld x0 rRows) (View.ld x1 rRow) (View.ld x2 rOne) (v.readCov [(⟨rRow, k1_pay2⟩ : View.Piece (Elt F) S1x128 .f32)] rRow.toLoadRect)
      = step8 x0 x1 x2 z8 := by
  rw [← bridge8, readCov_row, z8_eq, ld_row k1_pay2]
/-- At the last point the accumulator read back after its update is the updated row. -/
theorem bridge7C {κ : Kind} {sp : Space} (v : View sig κ sp S1x128 .f32) (x0 : Vec F S2000x128 .f32) (x1 : Vec F S1x128 .f32) (x2 : Vec F S1x1 .f32) (s : Vec F S1x128 .f32) :
    v.readCov [(⟨rRow, k1_pay4 (View.ld x0 rRows) (View.ld x1 rRow) (View.ld x2 rOne) (View.ld s rRow)⟩ : View.Piece (Elt F) S1x128 .f32)] rRow.toLoadRect
      = out1_s (step7 x0 x1 x2 s) := by
  rw [readCov_row, out1_s_whole, bridge7]
theorem bridge8C {κ : Kind} {sp : Space} (v : View sig κ sp S1x128 .f32) (x0 : Vec F S2000x128 .f32) (x1 : Vec F S1x128 .f32) (x2 : Vec F S1x1 .f32) (s : Vec F S1x128 .f32) :
    v.readCov [(⟨rRow, k1_pay5 (View.ld x0 rRows) (View.ld x1 rRow) (View.ld x2 rOne) (View.ld s rRow)⟩ : View.Piece (Elt F) S1x128 .f32)] rRow.toLoadRect
      = out1_s (step8 x0 x1 x2 s) := by
  rw [readCov_row, out1_s_whole, bridge8]

/-! ## The body on any whole memrefs, case by case -/

/-- AT THE FIRST POINT (the zeroing taken, the copy-out not): the accumulators, entered at anything, end at one step
    from zero; the block output at its pointwise value; the two row outputs are not touched. -/
theorem run1_A (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond1_0 i) (hc1 : ¬cond1_1 i)
    (x0 : Vec F S2000x128 .f32) (x1 : Vec F S1x128 .f32) (x2 : Vec F S1x1 .f32) (xi4 xi5 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare xi4 ∗ owns (c : Thread nD τ) arg6 fullShare xi5
            ∗ owns (c : Thread nD τ) arg7 fullShare (step7 x0 x1 x2 z7) ∗ owns (c : Thread nD τ) arg8 fullShare (step8 x0 x1 x2 z8)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d7, %f7, -, H7⟩, ⟨%d8, %f8, -, H8⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (cover1_3 _)]
    unfold out1_3
    simp only [View.readAt_eq_ld, harg1.read_unread, harg2.read_unread, harg3.read_unread]
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_run_names
    rw [View.read_writes_eq_canon _ _ _ (coverRow_cons _ _), canon_row_cons]
    simp only [View.readAt_eq_ld, harg1.read_unread, harg2.read_unread, harg3.read_unread]
    exact bridge7A _ x0 x1 x2
  · iexists _; isplitr
    swap; · iexact H8
    ipureintro
    sl_unfold_run_names
    rw [View.read_writes_eq_canon _ _ _ (coverRow_cons _ _), canon_row_cons]
    simp only [View.readAt_eq_ld, harg1.read_unread, harg2.read_unread, harg3.read_unread]
    exact bridge8A _ x0 x1 x2

/-- AT A MIDDLE POINT (neither conditional taken): the accumulators, entered at what the point before left, end one step
    on; the block output at its pointwise value; the two row outputs are not touched. -/
theorem run1_B (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : ¬cond1_1 i)
    (x0 : Vec F S2000x128 .f32) (x1 : Vec F S1x128 .f32) (x2 : Vec F S1x1 .f32) (xi4 xi5 s7 s8 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare xi4 ∗ owns (c : Thread nD τ) arg6 fullShare xi5
            ∗ owns (c : Thread nD τ) arg7 fullShare (step7 x0 x1 x2 s7) ∗ owns (c : Thread nD τ) arg8 fullShare (step8 x0 x1 x2 s8)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f7, %hf7, H7⟩, ⟨%f8, %hf8, H8⟩, Hk⟩
  obtain rfl := harg1.eq_unread hf0; obtain rfl := harg2.eq_unread hf1; obtain rfl := harg3.eq_unread hf2
  obtain rfl := harg5.eq_unread hf4; obtain rfl := harg6.eq_unread hf5
  obtain rfl := harg7.eq_unread hf7; obtain rfl := harg8.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (cover1_3 _)]
    unfold out1_3
    simp only [View.readAt_eq_ld, harg1.read_unread, harg2.read_unread, harg3.read_unread]
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_run_names
    rw [View.read_writes_eq_canon _ _ _ (coverRow_cons _ _), canon_row_cons]
    simp only [View.readAt_eq_ld, harg1.read_unread, harg2.read_unread, harg3.read_unread, harg7.read_unread]
    exact bridge7 x0 x1 x2 s7
  · iexists _; isplitr
    swap; · iexact H8
    ipureintro
    sl_unfold_run_names
    rw [View.read_writes_eq_canon _ _ _ (coverRow_cons _ _), canon_row_cons]
    simp only [View.readAt_eq_ld, harg1.read_unread, harg2.read_unread, harg3.read_unread, harg8.read_unread]
    exact bridge8 x0 x1 x2 s8

/-- AT THE LAST POINT (the copy-out taken): as at a middle point, and the two row outputs, entered at anything, end at
    the accumulators' final rows. -/
theorem run1_C (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : cond1_1 i)
    (x0 : Vec F S2000x128 .f32) (x1 : Vec F S1x128 .f32) (x2 : Vec F S1x1 .f32) (s7 s8 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)
            ∗ owns (c : Thread nD τ) arg5 fullShare (out1_s (step7 x0 x1 x2 s7)) ∗ owns (c : Thread nD τ) arg6 fullShare (out1_s (step8 x0 x1 x2 s8))
            ∗ owns (c : Thread nD τ) arg7 fullShare (step7 x0 x1 x2 s7) ∗ owns (c : Thread nD τ) arg8 fullShare (step8 x0 x1 x2 s8)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f7, %hf7, H7⟩, ⟨%f8, %hf8, H8⟩, Hk⟩
  obtain rfl := harg1.eq_unread hf0; obtain rfl := harg2.eq_unread hf1; obtain rfl := harg3.eq_unread hf2
  obtain rfl := harg7.eq_unread hf7; obtain rfl := harg8.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (cover1_3 _)]
    unfold out1_3
    simp only [View.readAt_eq_ld, harg1.read_unread, harg2.read_unread, harg3.read_unread]
  isplitl [H4]
  · iexists _; isplitr
    swap; · iexact H4
    ipureintro
    sl_unfold_run_names
    rw [View.read_writes_eq_canon _ _ _ (coverRow_cons _ _), canon_row_cons]
    simp only [View.readAt_eq_ld, harg1.read_unread, harg2.read_unread, harg3.read_unread, harg7.read_unread]
    exact bridge7C _ x0 x1 x2 s7
  isplitl [H5]
  · iexists _; isplitr
    swap; · iexact H5
    ipureintro
    sl_unfold_run_names
    rw [View.read_writes_eq_canon _ _ _ (coverRow_cons _ _), canon_row_cons]
    simp only [View.readAt_eq_ld, harg1.read_unread, harg2.read_unread, harg3.read_unread, harg8.read_unread]
    exact bridge8C _ x0 x1 x2 s8
  isplitl [H7]
  · iexists _; isplitr
    swap; · iexact H7
    ipureintro
    sl_unfold_run_names
    rw [View.read_writes_eq_canon _ _ _ (coverRow_cons _ _), canon_row_cons]
    simp only [View.readAt_eq_ld, harg1.read_unread, harg2.read_unread, harg3.read_unread, harg7.read_unread]
    exact bridge7 x0 x1 x2 s7
  · iexists _; isplitr
    swap; · iexact H8
    ipureintro
    sl_unfold_run_names
    rw [View.read_writes_eq_canon _ _ _ (coverRow_cons _ _), canon_row_cons]
    simp only [View.readAt_eq_ld, harg1.read_unread, harg2.read_unread, harg3.read_unread, harg8.read_unread]
    exact bridge8 x0 x1 x2 s8

/-! ## The scoped rest, with the two scratch rows brought to the front -/

/-- What the launch hands the region, opened: the two scratch rows at anything, the other scoped buffers, the generator register. -/
theorem PhiA1_open (c : Dev nD) :
    (Pipeline.ΦA spec1 c : sProp 𝕄) ⊢ iprop((∃ d, owns (c : Thread nD τ) scM7 fullShare d) ∗ (∃ d, owns (c : Thread nD τ) scM8 fullShare d)
      ∗ Others1 c ∗ (∃ r, prngReg c r)) := by
  unfold Pipeline.ΦA Others1; rw [scopedRest1_eq]; simp only [scM7, scM8, owns_whole]
  iintro ⟨⟨A0, A1, A2, A3, A4, S7, S8, B⟩, Hg⟩
  isplitl [S7]; · iexact S7
  isplitl [S8]; · iexact S8
  isplitr [Hg]
  · isplitl [A0]; · iexact A0
    isplitl [A1]; · iexact A1
    isplitl [A2]; · iexact A2
    isplitl [A3]; · iexact A3
    isplitl [A4]; · iexact A4
    iexact B
  iexact Hg

/-- And closed again, the scratch rows' contents forgotten. -/
theorem PhiA1_close (c : Dev nD) :
    iprop((∃ d, owns (c : Thread nD τ) scM7 fullShare d) ∗ (∃ d, owns (c : Thread nD τ) scM8 fullShare d)
      ∗ Others1 c ∗ (∃ r, prngReg c r)) ⊢ (Pipeline.ΦA spec1 c : sProp 𝕄) := by
  unfold Pipeline.ΦA Others1; rw [scopedRest1_eq]; simp only [scM7, scM8, owns_whole]
  iintro ⟨S7, S8, ⟨A0, A1, A2, A3, A4, B⟩, Hg⟩
  isplitr [Hg]
  · isplitl [A0]; · iexact A0
    isplitl [A1]; · iexact A1
    isplitl [A2]; · iexact A2
    isplitl [A3]; · iexact A3
    isplitl [A4]; · iexact A4
    isplitl [S7]; · iexact S7
    isplitl [S8]; · iexact S8
    iexact B
  iexact Hg

section
variable (V : (c : Dev nD) → (b : Ref sig .tc) → Buf (Elt F) ((c : Thread nD τ).loc b))

/-! ## The accumulators point by point -/

/-- At the first point the accumulators are one step from zero; -/
theorem scAt1_first (c : Dev nD) (t : Fin cfg1.N) (h : t.val = 0) :
    scAt1 V c t.val t.isLt = (step7 (iblk1 V c 0 t) (iblk1 V c 1 t) (iblk1 V c 2 t) z7, step8 (iblk1 V c 0 t) (iblk1 V c 1 t) (iblk1 V c 2 t) z8) := by
  obtain ⟨n, hn⟩ := t
  cases n with
  | zero => rfl
  | succ n => exact absurd h (Nat.succ_ne_zero n)

/-- at a later point one step from what the point before left. -/
theorem scAt1_later (c : Dev nD) (t : Fin cfg1.N) (h : t.val ≠ 0) :
    scAt1 V c t.val t.isLt = (step7 (iblk1 V c 0 t) (iblk1 V c 1 t) (iblk1 V c 2 t) (scAt1 V c (t.val - 1) (Nat.lt_of_le_of_lt (Nat.sub_le _ _) t.isLt)).1,
      step8 (iblk1 V c 0 t) (iblk1 V c 1 t) (iblk1 V c 2 t) (scAt1 V c (t.val - 1) (Nat.lt_of_le_of_lt (Nat.sub_le _ _) t.isLt)).2) := by
  obtain ⟨n, hn⟩ := t
  cases n with
  | zero => exact absurd rfl h
  | succ n => rfl

/-! ## The body obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- A window live at `t` is left at the proof data's contents. -/
theorem leaves_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 1600000 in
/-- The body at any point: which of the three cases the point is in is read off its number; the inputs' buffers hold their
    blocks; the invariant hands over the two scratch rows (at anything before the first point, at what the point before
    left afterwards) and takes them back one step on; a row output is handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc]
  rw [leaves_live V c 0 t (live1_0 t), leaves_live V c 1 t (live1_1 t), leaves_live V c 2 t (live1_2 t), leaves_live V c 3 t (live1_3 t),
    after1_0, after1_1, after1_2, after1_3]
  have hN : t.val < 50 := lt_of_lt_of_eq t.isLt (show cfg1.N = 50 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 4 t (idle1_4 t hc1) (noFlush1_4 t hc1), Dat.leavesExact_idle (dat1 V c) 5 t (idle1_5 t hc1) (noFlush1_5 t hc1)]
    rw [scAt1_first V c t h0, PhiS1_zero V c _ _ h0]
    dsimp only
    iintro ⟨HΦ, Ho, ⟨%d0, H0⟩, ⟨%d1, H1⟩, ⟨%d2, H2⟩, ⟨%d3, H3⟩, ⟨%d4, H4⟩, ⟨%d5, H5⟩⟩
    icases (PhiA1_open c) $$ HΦ with ⟨HS7, HS8, HO, Hg⟩
    iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t)
      scM7 (Memref.isWhole_whole _) scM8 (Memref.isWhole_whole _) hc0 hc1 (iblk1 V c 0 t) (iblk1 V c 1 t) (iblk1 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS7]; · iexact HS7
    isplitl [HS8]; · iexact HS8
    iintro ⟨H0, H1, H2, H3, H4, H5, HS7, HS8⟩
    isplitl [HS7 HS8 HO Hg]
    · isplitl [HS7]; · iexact HS7
      isplitl [HS8]; · iexact HS8
      isplitl [HO]; · iexact HO
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond1_0 (grid1.coords t) := fun h => h0 ((hcond1_0 t).mp h)
    rw [scAt1_later V c t h0, PhiS1_pos V c _ _ h0]
    by_cases h1 : t.val = 49
    · have hc1 : cond1_1 (grid1.coords t) := (hcond1_1 t).mpr h1
      rw [leaves_live V c 4 t (live1_4 t hc1), leaves_live V c 5 t (live1_5 t hc1), after1_4, after1_5, scAt1_later V c t h0]
      dsimp only
      iintro ⟨⟨HS7, HS8, HO, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t)
        scM7 (Memref.isWhole_whole _) scM8 (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS7]; · iexact HS7
      isplitl [HS8]; · iexact HS8
      iintro ⟨H0, H1, H2, H3, H4, H5, HS7, HS8⟩
      isplitl [HS7 HS8 HO Hg]
      · isplitl [HS7]; · iexact HS7
        isplitl [HS8]; · iexact HS8
        isplitl [HO]; · iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 4 t (idle1_4 t hc1) (noFlush1_4 t hc1), Dat.leavesExact_idle (dat1 V c) 5 t (idle1_5 t hc1) (noFlush1_5 t hc1)]
      dsimp only
      iintro ⟨⟨HS7, HS8, HO, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t)
        scM7 (Memref.isWhole_whole _) scM8 (Memref.isWhole_whole _) hc0 hc1 (iblk1 V c 0 t) (iblk1 V c 1 t) (iblk1 V c 2 t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS7]; · iexact HS7
      isplitl [HS8]; · iexact HS8
      iintro ⟨H0, H1, H2, H3, H4, H5, HS7, HS8⟩
      isplitl [HS7 HS8 HO Hg]
      · isplitl [HS7]; · iexact HS7
        isplitl [HS8]; · iexact HS8
        isplitl [HO]; · iexact HO
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest and the generator register back. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ hne]
  have hforget (s7 s8 : Vec F S1x128 .f32) :
      iprop(owns (c : Thread nD τ) scM7 fullShare s7 ∗ owns (c : Thread nD τ) scM8 fullShare s8 ∗ Others1 c ∗ (∃ r, prngReg c r))
        ⊢ (iprop((∃ d, owns (c : Thread nD τ) scM7 fullShare d) ∗ (∃ d, owns (c : Thread nD τ) scM8 fullShare d)
          ∗ Others1 c ∗ (∃ r, prngReg c r)) : sProp 𝕄) := by
    iintro ⟨HS7, HS8, HO, Hg⟩
    isplitl [HS7]; · iexists _; iexact HS7
    isplitl [HS8]; · iexists _; iexact HS8
    isplitl [HO]; · iexact HO
    iexact Hg
  exact (hforget _ _).trans (PhiA1_close c)

end

end Cert.Kernel.Hand

end
-- ==== Proof.KR2Body.lean ====
/-
  Region 2: the body obligation of the normalisation kernel at every grid point.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.KRects
import proofs.«413316_j77618648973416_1_alg».proof.Proof.KR2Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 1000000 in
/-- The normalisation kernel on whole staging memrefs, at any grid coordinate: the six inputs hold read contents,
    the output holds anything; it runs to the continuation holding the inputs as they were and the output at the
    one whole-block store of the pointwise payload of the inputs. -/
theorem sound_kernel2 (c : Dev nD) (E : Set ℕ) (i : grid2.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x1 .f32) (harg6 : arg6.IsWhole)
    (arg7 : Memref sig .tc .vmem S2000x128 .f32) (harg7 : arg7.IsWhole)
    (x0 : Vec F S2000x128 .f32) (x1 x2 x3 x4 : Vec F S1x128 .f32) (x5 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__stage3_kernel i arg1 harg1 arg2 harg2 arg3 harg3 arg4 harg4 arg5 harg5 arg6 harg6 arg7 harg7) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- What the body is called with at point t: the invariant, what is owed, and each window's current staging
    memref, the inputs' at the contents the pipeline left there and the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body returns at point t: the same invariant and debt, each staging memref at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' staging memrefs hold their blocks of the entry arrays, so the kernel's
    triple applies; the invariant and the debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.KRun.lean ====
/-
  The whole run of @main — the projection region, the gather stretch, the scale / segment-sum stretch, the
  bias / leaky-ramp / column-sums region, the mean / variance stretch and the normalisation region — composed in
  order from the launch memory. The buffers' contents at each boundary are named by a fold through @main: a host
  stretch leaves what its operations compute, a region leaves its arrays at what its write-backs fold to and every
  other buffer as entered. The run ends with every unscoped buffer at the last of these valuations; the arguments
  are read back through the fold to their launch contents.
-/
import proofs.«413316_j77618648973416_1_alg».proof.Proof.Gen.Kernel.Launch
import proofs.«413316_j77618648973416_1_alg».proof.Proof.Gen.Kernel.Skeleton
import proofs.«413316_j77618648973416_1_alg».proof.Proof.Gen.Kernel.Points
import proofs.«413316_j77618648973416_1_alg».proof.Proof.Gen.Kernel.Regions
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.KRects
import proofs.«413316_j77618648973416_1_alg».proof.Proof.KR0Defs
import proofs.«413316_j77618648973416_1_alg».proof.Proof.KR1Defs
import proofs.«413316_j77618648973416_1_alg».proof.Proof.KR2Defs
import proofs.«413316_j77618648973416_1_alg».proof.Proof.KR0Body
import proofs.«413316_j77618648973416_1_alg».proof.Proof.KR1Body
import proofs.«413316_j77618648973416_1_alg».proof.Proof.KR2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core c's buffers at launch, which is where the first region is entered. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b

/-- At the first region's exit: its arrays at what the pipeline leaves (the inputs as entered, the output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the first region's exit each of its arrays holds what the pipeline leaves, every other buffer what it held. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the gather stretch. -/
abbrev W2 : Dev nD → Valuation τ sig (Elt F) := fun c => StableHlo.after hostOps1 (W1 m ρ c)
/-- After the scale / segment-sum stretch (the second region's entry). -/
abbrev W3 : Dev nD → Valuation τ sig (Elt F) := fun c => StableHlo.after hostOps1_1 (W2 m ρ c)
/-- The same read at the TensorCore's references (what the second region's proof data take). -/
abbrev V3 : (c : Dev nD) → (b : Ref sig .tc) → Buf (Elt F) ((c : Thread nD τ).loc b) := fun c b => W3 m ρ c b

/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the mean / variance stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At the third region's exit: what the launch reads at the end. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## Four rearrangements every region's record is made of

A region's entry, the two ends of its invariant and its exit are, once the arrays have been split out of (put back
into) the unscoped buffers, plain reshufflings of a separating conjunction. They are stated once over arbitrary
assertions. -/

section Shuffles

/-- Entry: the unscoped buffers split into the arrays and the rest, what enters the invariant is handed on as it is,
    what is owed is handed on under the proof data's bound; the kernel's own semaphores and the level facts are not
    needed. -/
theorem entry_sort {Hub Arr Rest Xr Ow Ow' Pf S0 Lv : sProp 𝕄}
    (hsplit : Hub ⊢ iprop(Arr ∗ Rest)) (hpf : (BI.emp : sProp 𝕄) ⊢ Pf) (how : Ow ⊢ Ow') :
    iprop((Hub ∗ Xr ∗ Ow) ∗ S0 ∗ Lv) ⊢ |={Set.univ}=> iprop(Arr ∗ Pf ∗ Ow' ∗ Xr ∗ Rest) := by
  iintro ⟨⟨Hb, Hx, Ho⟩, -, -⟩
  ihave Hs := hsplit $$ Hb
  icases Hs with ⟨Ha, Hr⟩
  imodintro
  isplitl [Ha]; · iexact Ha
  isplitr; · iapply hpf; iempintro
  isplitl [Ho]; · iapply how; iexact Ho
  isplitl [Hx]; · iexact Hx
  iexact Hr

/-- The invariant's first end, for an invariant that is the scoped rest beside what entered. -/
theorem in_sort {Xr Pf Sr : sProp 𝕄} : iprop(Xr ∗ Pf ∗ Sr) ⊢ iprop(Sr ∗ Xr) := by
  iintro ⟨Hx, -, Hs⟩
  isplitl [Hs]; · iexact Hs
  iexact Hx

/-- The invariant's last end, likewise; the kernel has no semaphore of its own. -/
theorem out_sort {Xr Sr S0 : sProp 𝕄} (h0 : (BI.emp : sProp 𝕄) ⊢ S0) : iprop(Sr ∗ Xr) ⊢ iprop(Xr ∗ S0 ∗ Sr) := by
  iintro ⟨Hs, Hx⟩
  isplitl [Hx]; · iexact Hx
  isplitr; · iapply h0; iempintro
  iexact Hs

/-- Exit: the arrays and the rest are put back into the unscoped buffers; what came out of the invariant and what is
    owed ride on. -/
theorem exit_sort {Arr Rest Hub' Ow Ow' Yr : sProp 𝕄} (hjoin : iprop(Arr ∗ Rest) ⊢ Hub') (how : Ow ⊢ Ow') :
    iprop(Arr ∗ Ow ∗ Yr ∗ Rest) ⊢ |={Set.univ}=> iprop(Hub' ∗ Yr ∗ Ow') := by
  iintro ⟨Ha, Ho, Hy, Hr⟩
  imodintro
  isplitl [Ha Hr]
  · iapply hjoin; isplitl [Ha] <;> iassumption
  isplitl [Hy]; · iexact Hy
  iapply how; iexact Ho

end Shuffles

/-- A core that owes nothing owes nothing within a bound that takes every pair, -/
theorem owesAt_of_zero {cfg : Cfg sig Λ₀} {c : Dev nD} (dat : Dat τ (Elt F) Unit ℕ (UR sig nD τ) ℕ cfg c) (t : Fin (cfg.N + 1))
    (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, Ho⟩
  iexists W
  isplitr; · ipureintro; exact fun _ _ => Or.inl trivial
  iexact Ho
/-- and conversely, the bound forgotten. -/
theorem zero_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Ho⟩
  iexists W
  iexact Ho
/-- No pipeline here has a prefetched table: holding them all is holding nothing. -/
theorem prefHeld_none (pre : Pipeline.Prefetch sig) (hK : pre.K = 0) (c : Dev nD) (q : Fin pre.K → PosShare TreeShare) (V : pre.Contents (Elt F)) :
    (BI.emp : sProp 𝕄) ⊢ Pipeline.prefHeld pre c q V := by
  unfold Pipeline.prefHeld
  have : (Finset.univ : Finset (Fin pre.K)) = ∅ := by
    apply Finset.eq_empty_of_forall_notMem; intro k; exact absurd k.isLt (by omega)
  rw [this, BI.bigSep_empty]
/-- A kernel with no semaphore of its own holds none at zero. -/
theorem emp_ownSems0 (c : Dev nD) : (BI.emp : sProp 𝕄) ⊢ Pipeline.ownSems0 (fun k : PEmpty => k.elim) c := by
  rw [Pipeline.ownSems0_none]

/-! ## The regions as segments

Each region is entered from every unscoped buffer at the boundary's contents before it, beside the generator register
and nothing owed, and left at the contents after it beside the same. -/

set_option backward.isDefEq.respectTransparency.types false in
/-- The projection region, from the launch contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    exact entry_sort hsplit (prefHeld_none _ rfl c _ _) (owesAt_of_zero (pdats m ρ 0 c) 0 rfl rfl)
  hin c := in_sort
  hout c := out_sort (emp_ownSems0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    exact exit_sort hjoin (zero_of_owesAt (pdats m ρ 0 c) _ rfl)

set_option backward.isDefEq.respectTransparency.types false in
/-- The bias / leaky-ramp / column-sums region, from the contents the scale / segment-sum stretch leaves. Its invariant
    is its own (the two accumulator rows at named contents between points): the scoped rest and the generator register
    enter it at the first point and come back out of it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    exact entry_sort hsplit (prefHeld_none _ rfl c _ _) (owesAt_of_zero (pdats m ρ 1 c) 0 rfl rfl)
  hin c := (in_sort (Sr := Pipeline.scopedRest spec1 c)).trans (hin1 (V3 m ρ) c)
  hout c := (hout1 (V3 m ρ) c).trans (out_sort (Sr := Pipeline.scopedRest spec1 c) (emp_ownSems0 c))
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    exact exit_sort hjoin (zero_of_owesAt (pdats m ρ 1 c) _ rfl)

set_option backward.isDefEq.respectTransparency.types false in
/-- The normalisation region, from the contents the mean / variance stretch leaves, to the last boundary's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    exact entry_sort hsplit (prefHeld_none _ rfl c _ _) (owesAt_of_zero (pdats m ρ 2 c) 0 rfl rfl)
  hin c := in_sort
  hout c := out_sort (emp_ownSems0 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    exact exit_sort hjoin (zero_of_owesAt (pdats m ρ 2 c) _ rfl)

/-! ## @main as segments -/

/-- @main's six segments in order: a region per custom call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ),
    .host (hseg hostOps2 hostOps2_sub hostOps2_fresh (W4 m ρ)),
    .region (reg2 m ρ) ]
/-- @main is the run of the segments: its chain of items, and the segments' run against that chain by definitional
    unfolding. -/
theorem main_run (c : Dev nD) : main (F := F) c = Pipeline.Seg.run (segs m ρ) := (main_chain c).trans (by chain_rfl)

/-! ## The launch and the end -/

/-- The launch's ghost element is the pipelines' own; no core needs a ghost resource besides. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  refine (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl).trans ?_
  iintro Hu
  imodintro
  isplitl [Hu]; · iexact Hu
  iempintro

/-- What the launch deals a core makes the first thread state: its unscoped buffers at the launch contents, its
    generator register, nothing owed. -/
theorem launch_core (c : Dev nD) {Sm Cr Gc Lv : sProp 𝕄} :
    iprop((unscopedBufs c (fun b => m ((c : Thread nD τ).loc b)) ∗ Sm ∗ owes (c : Thread nD τ) (0 : CellTallies nD τ sig Unit) ∅
        ∗ Cr ∗ prngReg c (ρ c) ∗ Gc) ∗ Lv)
      ⊢ |={Set.univ}=> iprop(StableHlo.held (c : Thread nD τ) (Pipeline.ucRefs τ sig) (W0 m ρ c) ∗ R c) := by
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hh, -, Ho, -, Hp, -⟩, -⟩
  imodintro
  isplitl [Hh]; · iexact Hh
  isplitl [Hp]; · iexists _; iexact Hp
  iexists ∅; iexact Ho

/-- The last thread state read against a final state: every unscoped buffer's contents there. -/
theorem read_end (c : Dev nD) (s' : Phys nD τ sig (Elt F)) :
    iprop(Tₙ m ρ c ∗ SI s')
      ⊢ |={Set.univ}=> iprop(⌜∀ b ∈ Pipeline.ucRefs τ sig, s'.mem.mem (((c : Thread nD τ)).1, b) = W6 m ρ c b⌝ ∗ SI s') := by
  iintro ⟨⟨Hh, -⟩, HSI⟩
  unfold StableHlo.held
  imodintro
  iapply (pointsTo_read_all (Pipeline.ucRefs τ sig) (fun b => (((c : Thread nD τ)).1, b)) (W6 m ρ c) s')
  isplitl [Hh]; · iexact Hh
  iexact HSI

set_option backward.isDefEq.respectTransparency.types false in
/-- THE RUN. From any memory with zero counters every weakly fair execution of @main terminates, nothing faulting,
    and every final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc.2⟩)
    (hinit := Pipeline.initEach L lv fun c => launch_core m ρ c)
    (QY := fun c s => ∀ b ∈ Pipeline.ucRefs τ sig, s.mem (((c : Thread nD τ)).1, b) = W6 m ρ c b)
    (hfin := read_end m ρ)
    (hQ := fun _ h => h)

/-! ## What each stretch and each region leaves unchanged; the arguments end as launched

No host operation writes an argument and no region has one among its output arrays: the fold at an argument's buffer
walks back to the launch memory. -/

/-- A reference the gather stretch does not write keeps its contents across it; -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- likewise across the scale / segment-sum stretch, -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
/-- and across the mean / variance stretch. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- Argument 0 through the fold. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W2_main_arg0 (c : Dev nD) : W2 m ρ c (Proc.devRef .tc main_arg0) = m ((c : Thread nD τ).loc main_arg0) :=
  (W2_of m ρ c main_arg0 (by decide)).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)

/-- Argument 1 through the fold. -/
theorem W1_main_arg1 (c : Dev nD) : W1 m ρ c (Proc.devRef .tc main_arg1) = m ((c : Thread nD τ).loc main_arg1) :=
  W1_of_ne m ρ c main_arg1 (by decide)
theorem W2_main_arg1 (c : Dev nD) : W2 m ρ c (Proc.devRef .tc main_arg1) = m ((c : Thread nD τ).loc main_arg1) :=
  (W2_of m ρ c main_arg1 (by decide)).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)

/-- Argument 2 through the fold. -/
theorem W1_main_arg2 (c : Dev nD) : W1 m ρ c (Proc.devRef .tc main_arg2) = m ((c : Thread nD τ).loc main_arg2) :=
  W1_of_ne m ρ c main_arg2 (by decide)
theorem W2_main_arg2 (c : Dev nD) : W2 m ρ c (Proc.devRef .tc main_arg2) = m ((c : Thread nD τ).loc main_arg2) :=
  (W2_of m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)

/-- Argument 3 through the fold. -/
theorem W1_main_arg3 (c : Dev nD) : W1 m ρ c (Proc.devRef .tc main_arg3) = m ((c : Thread nD τ).loc main_arg3) :=
  W1_of_ne m ρ c main_arg3 (by decide)
theorem W2_main_arg3 (c : Dev nD) : W2 m ρ c (Proc.devRef .tc main_arg3) = m ((c : Thread nD τ).loc main_arg3) :=
  (W2_of m ρ c main_arg3 (by decide)).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)

/-- Argument 4 through the fold. -/
theorem W1_main_arg4 (c : Dev nD) : W1 m ρ c (Proc.devRef .tc main_arg4) = m ((c : Thread nD τ).loc main_arg4) :=
  (W1_arr m ρ c 1).trans (((dat0 (V0 m ρ) c).arrAt_in 1 rfl _).trans (A_eq0 (V0 m ρ) c 1))
theorem W2_main_arg4 (c : Dev nD) : W2 m ρ c (Proc.devRef .tc main_arg4) = m ((c : Thread nD τ).loc main_arg4) :=
  (W2_of m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)

/-- Argument 5 through the fold. -/
theorem W1_main_arg5 (c : Dev nD) : W1 m ρ c (Proc.devRef .tc main_arg5) = m ((c : Thread nD τ).loc main_arg5) :=
  W1_of_ne m ρ c main_arg5 (by decide)
theorem W2_main_arg5 (c : Dev nD) : W2 m ρ c (Proc.devRef .tc main_arg5) = m ((c : Thread nD τ).loc main_arg5) :=
  (W2_of m ρ c main_arg5 (by decide)).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)

/-- Argument 6 through the fold. -/
theorem W1_main_arg6 (c : Dev nD) : W1 m ρ c (Proc.devRef .tc main_arg6) = m ((c : Thread nD τ).loc main_arg6) :=
  W1_of_ne m ρ c main_arg6 (by decide)
theorem W2_main_arg6 (c : Dev nD) : W2 m ρ c (Proc.devRef .tc main_arg6) = m ((c : Thread nD τ).loc main_arg6) :=
  (W2_of m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)

/-- Argument 7 through the fold. -/
theorem W1_main_arg7 (c : Dev nD) : W1 m ρ c (Proc.devRef .tc main_arg7) = m ((c : Thread nD τ).loc main_arg7) :=
  W1_of_ne m ρ c main_arg7 (by decide)
theorem W2_main_arg7 (c : Dev nD) : W2 m ρ c (Proc.devRef .tc main_arg7) = m ((c : Thread nD τ).loc main_arg7) :=
  (W2_of m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_of m ρ c main_arg7 (by decide)).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)

/-- Argument 8 through the fold. -/
theorem W1_main_arg8 (c : Dev nD) : W1 m ρ c (Proc.devRef .tc main_arg8) = m ((c : Thread nD τ).loc main_arg8) :=
  W1_of_ne m ρ c main_arg8 (by decide)
theorem W2_main_arg8 (c : Dev nD) : W2 m ρ c (Proc.devRef .tc main_arg8) = m ((c : Thread nD τ).loc main_arg8) :=
  (W2_of m ρ c main_arg8 (by decide)).trans (W1_main_arg8 m ρ c)
theorem W3_main_arg8 (c : Dev nD) : W3 m ρ c (Proc.devRef .tc main_arg8) = m ((c : Thread nD τ).loc main_arg8) :=
  (W3_of m ρ c main_arg8 (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (W5_of m ρ c main_arg8 (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)

/-- Argument 9 through the fold. -/
theorem W1_main_arg9 (c : Dev nD) : W1 m ρ c (Proc.devRef .tc main_arg9) = m ((c : Thread nD τ).loc main_arg9) :=
  W1_of_ne m ρ c main_arg9 (by decide)
theorem W2_main_arg9 (c : Dev nD) : W2 m ρ c (Proc.devRef .tc main_arg9) = m ((c : Thread nD τ).loc main_arg9) :=
  (W2_of m ρ c main_arg9 (by decide)).trans (W1_main_arg9 m ρ c)
theorem W3_main_arg9 (c : Dev nD) : W3 m ρ c (Proc.devRef .tc main_arg9) = m ((c : Thread nD τ).loc main_arg9) :=
  (W3_of m ρ c main_arg9 (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (W5_of m ρ c main_arg9 (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)

/-! ## The frame -/

/-- THE FRAME: every weakly fair execution of @main terminates, nothing faulting, and every final state has the
    argument arrays as launched: each argument's buffer read off the last boundary's contents, which the fold walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_all m ρ)

end Cert.Kernel.Hand

end
-- ==== Proof.Rects.lean ====
/-
  The whole-buffer rectangles the three kernel bodies load and store through: a 2000×128 block, the 128×128
  matrix, a 1×128 row, the 1×1 cell.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rRows : Rect S2000x128 := Rect.unit (s := S2000x128) ![0, 0] S2000x128.size inb_S2000x128_S2000x128_0_0
abbrev rSq : Rect S128x128 := Rect.unit (s := S128x128) ![0, 0] S128x128.size inb_S128x128_S128x128_0_0
abbrev rRow : Rect S1x128 := Rect.unit (s := S1x128) ![0, 0] S1x128.size inb_S1x128_S1x128_0_0
abbrev rOne : Rect S1x1 := Rect.unit (s := S1x1) ![0, 0] S1x1.size inb_S1x1_S1x1_0_0

end Cert.KernelIdeal.Hand

end
-- ==== Proof.R0Defs.lean ====
/-
  Region 0 (the projection x = heat · W, one 2000-row block per grid point), stated at the contents V the region is
  entered with: a window's block at a point; what the body leaves in the output block (the matrix product of the
  heat block with the whole W, stored over the whole block); the pipeline's proof data.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.Rects

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, whether the
    pipeline fetched it there or left it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, whether the
    pipeline fetched it there or left it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output block: one store of the product over the whole block. -/
def out0_2 (x0 : Vec F S2000x128 .f32) (x1 : Vec F S128x128 .f32) : Vec F S2000x128 .f32 :=
  View.canon [⟨rRows, k0_pay1 (View.ld x0 rRows) (View.ld x1 rSq)⟩]

theorem cover0_2 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- The proof data of pipeline 0: the arrays as entered; after the body the inputs' buffers at their blocks and the
    output's at the product of the two; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end

end Cert.KernelIdeal.Hand

end
-- ==== Proof.R1Defs.lean ====
/-
  Region 1 (h = leaky ramp of agg + b, with the column sums of h and of h² accumulated over the 50 row blocks), stated
  at the contents V the region is entered with. The two accumulators live in scratch rows the kernel keeps between grid
  points: zeroed at the first point, then at every point increased by the block's column sums; at the last point they
  are copied into the two 1×128 outputs. The proof data name what the accumulators hold after each point by recursion
  on the point, and the region's invariant holds the two scratch rows at those contents beside the other scoped buffers.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.Rects

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry array at every point, whether the
    pipeline fetched it there or left it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry array at every point, whether the
    pipeline fetched it there or left it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry array at every point, whether the
    pipeline fetched it there or left it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The two scratch rows, as whole memrefs. -/
abbrev scM7 : Memref sig .tc .vmem S1x128 .f32 := Memref.whole cc1_scratch0
abbrev scM8 : Memref sig .tc .vmem S1x128 .f32 := Memref.whole cc1_scratch1

/-- The h block the body stores: a pointwise function of the agg block, the bias row and the slope cell. -/
def out1_3 (x0 : Vec F S2000x128 .f32) (x1 : Vec F S1x128 .f32) (x2 : Vec F S1x1 .f32) : Vec F S2000x128 .f32 :=
  View.canon [⟨rRows, k1_pay3 (View.ld x0 rRows) (View.ld x1 rRow) (View.ld x2 rOne)⟩]

theorem cover1_3 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y
theorem coverRow (p0 : Vec F S1x128 .f32) (y : S1x128.Idx) :
    ∃ pc ∈ ([⟨rRow, p0⟩] : List (View.Piece (Elt F) S1x128 .f32)), y ∈ pc.1.set :=
  View.cover_of_tiled [⟨rRow, p0⟩] S1x128.size (by rfl) y

/-- The zeroed accumulators (what the first point stores before it adds). -/
def z7 : Vec F S1x128 .f32 := View.canon [⟨rRow, k1_pay1⟩]
def z8 : Vec F S1x128 .f32 := View.canon [⟨rRow, k1_pay2⟩]
/-- One point's update of the sum accumulator, and of the sum-of-squares accumulator: the row stored back. -/
def step7 (x0 : Vec F S2000x128 .f32) (x1 : Vec F S1x128 .f32) (x2 : Vec F S1x1 .f32) (s : Vec F S1x128 .f32) : Vec F S1x128 .f32 :=
  View.canon [⟨rRow, k1_pay4 (View.ld x0 rRows) (View.ld x1 rRow) (View.ld x2 rOne) (View.ld s rRow)⟩]
def step8 (x0 : Vec F S2000x128 .f32) (x1 : Vec F S1x128 .f32) (x2 : Vec F S1x1 .f32) (s : Vec F S1x128 .f32) : Vec F S1x128 .f32 :=
  View.canon [⟨rRow, k1_pay5 (View.ld x0 rRows) (View.ld x1 rRow) (View.ld x2 rOne) (View.ld s rRow)⟩]
/-- A 1×128 output at the last point: the accumulator row loaded and stored. -/
def out1_s (s : Vec F S1x128 .f32) : Vec F S1x128 .f32 := View.canon [⟨rRow, View.ld s rRow⟩]

/-- What the two accumulators hold after point n: from zero at the first point, each point adding its block's column sums. -/
def scAt1 (c : Dev nD) : (n : ℕ) → n < cfg1.N → Vec F S1x128 .f32 × Vec F S1x128 .f32
  | 0, hn => (step7 (iblk1 V c 0 ⟨0, hn⟩) (iblk1 V c 1 ⟨0, hn⟩) (iblk1 V c 2 ⟨0, hn⟩) z7,
              step8 (iblk1 V c 0 ⟨0, hn⟩) (iblk1 V c 1 ⟨0, hn⟩) (iblk1 V c 2 ⟨0, hn⟩) z8)
  | n + 1, hn => (step7 (iblk1 V c 0 ⟨n + 1, hn⟩) (iblk1 V c 1 ⟨n + 1, hn⟩) (iblk1 V c 2 ⟨n + 1, hn⟩) (scAt1 c n (Nat.lt_of_succ_lt hn)).1,
                  step8 (iblk1 V c 0 ⟨n + 1, hn⟩) (iblk1 V c 1 ⟨n + 1, hn⟩) (iblk1 V c 2 ⟨n + 1, hn⟩) (scAt1 c n (Nat.lt_of_succ_lt hn)).2)

theorem scAt1_zero (c : Dev nD) (hn : 0 < cfg1.N) :
    scAt1 V c 0 hn = (step7 (iblk1 V c 0 ⟨0, hn⟩) (iblk1 V c 1 ⟨0, hn⟩) (iblk1 V c 2 ⟨0, hn⟩) z7,
              step8 (iblk1 V c 0 ⟨0, hn⟩) (iblk1 V c 1 ⟨0, hn⟩) (iblk1 V c 2 ⟨0, hn⟩) z8) := rfl
theorem scAt1_succ (c : Dev nD) (n : ℕ) (hn : n + 1 < cfg1.N) :
    scAt1 V c (n + 1) hn = (step7 (iblk1 V c 0 ⟨n + 1, hn⟩) (iblk1 V c 1 ⟨n + 1, hn⟩) (iblk1 V c 2 ⟨n + 1, hn⟩) (scAt1 V c n (Nat.lt_of_succ_lt hn)).1,
                  step8 (iblk1 V c 0 ⟨n + 1, hn⟩) (iblk1 V c 1 ⟨n + 1, hn⟩) (iblk1 V c 2 ⟨n + 1, hn⟩) (scAt1 V c n (Nat.lt_of_succ_lt hn)).2) := rfl

/-- The core's scoped buffers that are neither a staging buffer of this pipeline nor one of its two scratch rows, each
    whole at some contents (the other two pipelines' staging buffers). -/
def Others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- The region's invariant before position n: before the first point the scoped rest and the generator register (the
    scratch rows at anything); afterwards the two scratch rows at what the point before left in them, the other scoped
    buffers at anything, the generator register at some state. -/
def PhiS1 (c : Dev nD) : (n : ℕ) → n ≤ cfg1.N → sProp 𝕄
  | 0, _ => Pipeline.ΦA spec1 c
  | n + 1, hn => iprop(owns (c : Thread nD τ) scM7 fullShare (scAt1 V c n hn).1 ∗ owns (c : Thread nD τ) scM8 fullShare (scAt1 V c n hn).2
      ∗ Others1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM7 fullShare (scAt1 V c n hn).1 ∗ owns (c : Thread nD τ) scM8 fullShare (scAt1 V c n hn).2
      ∗ Others1 c ∗ (∃ r, prngReg c r)) := rfl
theorem PhiS1_pos (c : Dev nD) (n : ℕ) (h : n ≤ cfg1.N) (hz : n ≠ 0) :
    PhiS1 V c n h = iprop(owns (c : Thread nD τ) scM7 fullShare (scAt1 V c (n - 1) (by omega)).1 ∗ owns (c : Thread nD τ) scM8 fullShare (scAt1 V c (n - 1) (by omega)).2
      ∗ Others1 c ∗ (∃ r, prngReg c r)) := by
  cases n with
  | zero => exact absurd rfl hz
  | succ n => rfl

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_s (scAt1 V c t.val t.isLt).1
    | ⟨5, _⟩ => out1_s (scAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_s (scAt1 V c t.val t.isLt).1 := by dsimp only [dat1]
theorem after1_5 (c : Dev nD) (t : Fin cfg1.N) : (dat1 V c).after 5 t = out1_s (scAt1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.KernelIdeal.Hand

end
-- ==== Proof.R2Defs.lean ====
/-
  Region 2 (batch normalisation, affine map and the outer leaky ramp, one 2000-row block per grid point), stated at
  the contents V the region is entered with: a window's block at a point; what the body leaves in the output block
  (one store over the whole block of a pointwise function of the h block and the five small operands); the proof data.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.Rects

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry array at every point, whether the
    pipeline fetched it there or left it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the entry array at every point, whether the
    pipeline fetched it there or left it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the entry array at every point, whether the
    pipeline fetched it there or left it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the entry array at every point, whether the
    pipeline fetched it there or left it in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the entry array at every point, whether the
    pipeline fetched it there or left it in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the entry array at every point, whether the
    pipeline fetched it there or left it in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output block: one store over the whole block. -/
def out2_6 (x0 : Vec F S2000x128 .f32) (x1 x2 x3 x4 : Vec F S1x128 .f32) (x5 : Vec F S1x1 .f32) : Vec F S2000x128 .f32 :=
  View.canon [⟨rRows, k2_pay1 (View.ld x0 rRows) (View.ld x1 rRow) (View.ld x2 rRow) (View.ld x3 rRow) (View.ld x4 rRow) (View.ld x5 rOne)⟩]

theorem cover2_6 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- The proof data of pipeline 2: the arrays as entered; after the body the inputs' buffers at their blocks and the
    output's at the pointwise function of them; the invariant is the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end

end Cert.KernelIdeal.Hand

end
-- ==== Proof.R0Body.lean ====
/-
  Region 0: the body obligation of the projection kernel at every grid point.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.Rects
import proofs.«413316_j77618648973416_1_alg».proof.Proof.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 1000000 in
/-- The kernel body on whole staging memrefs: the two inputs at contents `x0`, `x1`, the output at anything. It
    reads both inputs (and the output's old contents, which it drops), and stores the product over the whole output
    block; it hands the inputs back as they were and the output at `out0_2 x0 x1`. The grid coordinate is not read. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-- What the body is called with at point `t`: the invariant, the core's debts, and the three windows' current
    staging buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same invariant and debts, every buffer at the proof data's contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks of the entry arrays, the output's buffer holds
    something; the kernel's triple applies, and the invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.R1Body.lean ====
/-
  Region 1: the body obligation of the bias / leaky-ramp / column-sums kernel at every grid point, and the two ends of
  its invariant (the scoped rest in, the scoped rest back).

  The body has two conditionals on the grid point: at the first point it zeroes the two accumulator rows before adding,
  at the last it copies them into the two row outputs. So a point is in one of three cases (first, middle, last), and the
  body is run once per case on any whole memrefs, with what each buffer holds afterwards stated in closed form; the
  obligation at a point picks the case from the point's number.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«413316_j77618648973416_1_alg».proof.Proof.Rects
import proofs.«413316_j77618648973416_1_alg».proof.Proof.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The first conditional's test (is this the first grid point?) and the second's (is it the last?). -/
abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 49 :=
  (by decide +kernel : ∀ t : Fin grid1.N, cond1_1 (grid1.coords t) ↔ t.val = 49)

/-! ## Where the windows are live and where idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- The two row outputs are stored at the last point only: idle, and not written back, everywhere else. -/
theorem idle1_4 : ∀ t : Fin cfg1.N, ¬cond1_1 (grid1.coords t) → cfg1.idle 4 (grid1.coords t) = true := by decide +kernel
theorem idle1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
theorem live1_4 : ∀ t : Fin cfg1.N, cond1_1 (grid1.coords t) → cfg1.idle 4 (grid1.coords t) = false := by decide +kernel
theorem live1_5 : ∀ t : Fin cfg1.N, cond1_1 (grid1.coords t) → cfg1.idle 5 (grid1.coords t) = false := by decide +kernel

/-! ## The staging memrefs at a point -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)

/-! ## Stores and loads through the whole-buffer rectangles -/

theorem hzTwo : (![0, 0] : Fin 2 → Nat) = fun _ => 0 := funext fun a => by fin_cases a <;> rfl

/-- A load of a whole row reads the row. -/
theorem ld_row (X : Vec F S1x128 .f32) : View.ld X rRow = X := View.ld_unit_zero (S := S1x128) hzTwo _ X
/-- One whole-row store leaves its payload; so does a last whole-row store over earlier ones. -/
theorem canon_row (w : Vec F S1x128 .f32) : View.canon [(⟨rRow, w⟩ : View.Piece (Elt F) S1x128 .f32)] = w :=
  View.canon_unit_zero (S := S1x128) hzTwo _ w
theorem canon_row_cons (w : Vec F S1x128 .f32) (L : List (View.Piece (Elt F) S1x128 .f32)) :
    View.canon ((⟨rRow, w⟩ : View.Piece (Elt F) S1x128 .f32) :: L) = w :=
  View.canon_cons_unit_zero (S := S1x128) hzTwo _ w L
/-- A whole-row load right after one whole-row store reads the payload. -/
theorem readCov_row {κ : Kind} {sp : Space} (v : View sig κ sp S1x128 .f32) (w : Vec F S1x128 .f32) :
    v.readCov [(⟨rRow, w⟩ : View.Piece (Elt F) S1x128 .f32)] rRow.toLoadRect = w :=
  View.readCov_unit_zero (S := S1x128) v hzTwo _ w
/-- A last whole-row store covers the row whatever came before. -/
theorem coverRow_cons (w : Vec F S1x128 .f32) (L : List (View.Piece (Elt F) S1x128 .f32)) (y : S1x128.Idx) :
    ∃ pc ∈ ((⟨rRow, w⟩ : View.Piece (Elt F) S1x128 .f32) :: L), y ∈ pc.1.set :=
  ⟨_, List.mem_cons_self, View.mem_set_unit_zero (S := S1x128) hzTwo inb_S1x128_S1x128_0_0 y⟩

/-- The accumulators' closed forms with the whole-row loads and stores read through. -/
theorem z7_eq : (z7 : Vec F S1x128 .f32) = k1_pay1 := canon_row _
theorem z8_eq : (z8 : Vec F S1x128 .f32) = k1_pay2 := canon_row _
theorem step7_eq (x0 : Vec F S2000x128 .f32) (x1 : Vec F S1x128 .f32) (x2 : Vec F S1x1 .f32) (s : Vec F S1x128 .f32) :
    step7 x0 x1 x2 s = k1_pay4 (View.ld x0 rRows) x1 (View.ld x2 rOne) s := by
  unfold step7; rw [canon_row]; simp only [ld_row]
theorem step8_eq (x0 : Vec F S2000x128 .f32) (x1 : Vec F S1x128 .f32) (x2 : Vec F S1x1 .f32) (s : Vec F S1x128 .f32) :
    step8 x0 x1 x2 s = k1_pay5 (View.ld x0 rRows) x1 (View.ld x2 rOne) s := by
  unfold step8; rw [canon_row]; simp only [ld_row]
theorem out1_s_whole (s : Vec F S1x128 .f32) : out1_s s = s := by
  unfold out1_s; rw [canon_row, ld_row]

/-- The stored rows, as the loads and stores spell them, are the accumulators' and outputs' closed forms. -/
theorem bridge7 (x0 : Vec F S2000x128 .f32) (x1 : Vec F S1x128 .f32) (x2 : Vec F S1x1 .f32) (s : Vec F S1x128 .f32) :
    k1_pay4 (View.ld x0 rRows) (View.ld x1 rRow) (View.ld x2 rOne) (View.ld s rRow) = step7 x0 x1 x2 s := by
  unfold step7; rw [canon_row]
theorem bridge8 (x0 : Vec F S2000x128 .f32) (x1 : Vec F S1x128 .f32) (x2 : Vec F S1x1 .f32) (s : Vec F S1x128 .f32) :
    k1_pay5 (View.ld x0 rRows) (View.ld x1 rRow) (View.ld x2 rOne) (View.ld s rRow) = step8 x0 x1 x2 s := by
  unfold step8; rw [canon_row]
/-- At the first point the accumulator read back after the zeroing store is the zero row. -/
theorem bridge7A {κ : Kind} {sp : Space} (v : View sig κ sp S1x128 .f32) (x0 : Vec F S2000x128 .f32) (x1 : Vec F S1x128 .f32) (x2 : Vec F S1x1 .f32) :
    k1_pay4 (View.ld x0 rRows) (View.ld x1 rRow) (View.ld x2 rOne) (v.readCov [(⟨rRow, k1_pay1⟩ : View.Piece (Elt F) S1x128 .f32)] rRow.toLoadRect)
      = step7 x0 x1 x2 z7 := by
  rw [← bridge7, readCov_row, z7_eq, ld_row k1_pay1]
theorem bridge8A {κ : Kind} {sp : Space} (v : View sig κ sp S1x128 .f32) (x0 : Vec F S2000x128 .f32) (x1 : Vec F S1x128 .f32) (x2 : Vec F S1x1 .f32) :
    k1_pay5 (View.ld x0 rRows) (View.ld x1 rRow) (View.ld x2 rOne) (v.readCov [(⟨rRow, k1_pay2⟩ : View.Piece (Elt F) S1x128 .f32)] rRow.toLoadRect)
      = step8 x0 x1 x2 z8 := by
  rw [← bridge8, readCov_row, z8_eq, ld_row k1_pay2]
/-- At the last point the accumulator read back after its update is the updated row. -/
theorem bridge7C {κ : Kind} {sp : Space} (v : View sig κ sp S1x128 .f32) (x0 : Vec F S2000x128 .f32) (x1 : Vec F S1x128 .f32) (x2 : Vec F S1x1 .f32) (s : Vec F S1x128 .f32) :
    v.readCov [(⟨rRow, k1_pay4 (View.ld x0 rRows) (View.ld x1 rRow) (View.ld x2 rOne) (View.ld s rRow)⟩ : View.Piece (Elt F) S1x128 .f32)] rRow.toLoadRect
      = out1_s (step7 x0 x1 x2 s) := by
  rw [readCov_row, out1_s_whole, bridge7]
theorem bridge8C {κ : Kind} {sp : Space} (v : View sig κ sp S1x128 .f32) (x0 : Vec F S2000x128 .f32) (x1 : Vec F S1x128 .f32) (x2 : Vec F S1x1 .f32) (s : Vec F S1x128 .f32) :
    v.readCov [(⟨rRow, k1_pay5 (View.ld x0 rRows) (View.ld x1 rRow) (View.ld x2 rOne) (View.ld s rRow)⟩ : View.Piece (Elt F) S1x128 .f32)] rRow.toLoadRect
      = out1_s (step8 x0 x1 x2 s) := by
  rw [readCov_row, out1_s_whole, bridge8]

/-! ## The body on any whole memrefs, case by case -/

/-- AT THE FIRST POINT (the zeroing taken, the copy-out not): the accumulators, entered at anything, end at one step
    from zero; the block output at its pointwise value; the two row outputs are not touched. -/
theorem run1_A (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond1_0 i) (hc1 : ¬cond1_1 i)
    (x0 : Vec F S2000x128 .f32) (x1 : Vec F S1x128 .f32) (x2 : Vec F S1x1 .f32) (xi4 xi5 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare xi4 ∗ owns (c : Thread nD τ) arg6 fullShare xi5
            ∗ owns (c : Thread nD τ) arg7 fullShare (step7 x0 x1 x2 z7) ∗ owns (c : Thread nD τ) arg8 fullShare (step8 x0 x1 x2 z8)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d7, %f7, -, H7⟩, ⟨%d8, %f8, -, H8⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (cover1_3 _)]
    unfold out1_3
    simp only [View.readAt_eq_ld, harg1.read_unread, harg2.read_unread, harg3.read_unread]
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_run_names
    rw [View.read_writes_eq_canon _ _ _ (coverRow_cons _ _), canon_row_cons]
    simp only [View.readAt_eq_ld, harg1.read_unread, harg2.read_unread, harg3.read_unread]
    exact bridge7A _ x0 x1 x2
  · iexists _; isplitr
    swap; · iexact H8
    ipureintro
    sl_unfold_run_names
    rw [View.read_writes_eq_canon _ _ _ (coverRow_cons _ _), canon_row_cons]
    simp only [View.readAt_eq_ld, harg1.read_unread, harg2.read_unread, harg3.read_unread]
    exact bridge8A _ x0 x1 x2

/-- AT A MIDDLE POINT (neither conditional taken): the accumulators, entered at what the point before left, end one step
    on; the block output at its pointwise value; the two row outputs are not touched. -/
theorem run1_B (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : ¬cond1_1 i)
    (x0 : Vec F S2000x128 .f32) (x1 : Vec F S1x128 .f32) (x2 : Vec F S1x1 .f32) (xi4 xi5 s7 s8 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare xi4 ∗ owns (c : Thread nD τ) arg6 fullShare xi5
            ∗ owns (c : Thread nD τ) arg7 fullShare (step7 x0 x1 x2 s7) ∗ owns (c : Thread nD τ) arg8 fullShare (step8 x0 x1 x2 s8)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f7, %hf7, H7⟩, ⟨%f8, %hf8, H8⟩, Hk⟩
  obtain rfl := harg1.eq_unread hf0; obtain rfl := harg2.eq_unread hf1; obtain rfl := harg3.eq_unread hf2
  obtain rfl := harg5.eq_unread hf4; obtain rfl := harg6.eq_unread hf5
  obtain rfl := harg7.eq_unread hf7; obtain rfl := harg8.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (cover1_3 _)]
    unfold out1_3
    simp only [View.readAt_eq_ld, harg1.read_unread, harg2.read_unread, harg3.read_unread]
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_run_names
    rw [View.read_writes_eq_canon _ _ _ (coverRow_cons _ _), canon_row_cons]
    simp only [View.readAt_eq_ld, harg1.read_unread, harg2.read_unread, harg3.read_unread, harg7.read_unread]
    exact bridge7 x0 x1 x2 s7
  · iexists _; isplitr
    swap; · iexact H8
    ipureintro
    sl_unfold_run_names
    rw [View.read_writes_eq_canon _ _ _ (coverRow_cons _ _), canon_row_cons]
    simp only [View.readAt_eq_ld, harg1.read_unread, harg2.read_unread, harg3.read_unread, harg8.read_unread]
    exact bridge8 x0 x1 x2 s8

/-- AT THE LAST POINT (the copy-out taken): as at a middle point, and the two row outputs, entered at anything, end at
    the accumulators' final rows. -/
theorem run1_C (c : Dev nD) (i : grid1.Coords)
    (arg1 : Memref sig .tc .vmem S2000x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : cond1_1 i)
    (x0 : Vec F S2000x128 .f32) (x1 : Vec F S1x128 .f32) (x2 : Vec F S1x1 .f32) (s7 s8 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)
            ∗ owns (c : Thread nD τ) arg5 fullShare (out1_s (step7 x0 x1 x2 s7)) ∗ owns (c : Thread nD τ) arg6 fullShare (out1_s (step8 x0 x1 x2 s8))
            ∗ owns (c : Thread nD τ) arg7 fullShare (step7 x0 x1 x2 s7) ∗ owns (c : Thread nD τ) arg8 fullShare (step8 x0 x1 x2 s8)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f7, %hf7, H7⟩, ⟨%f8, %hf8, H8⟩, Hk⟩
  obtain rfl := harg1.eq_unread hf0; obtain rfl := harg2.eq_unread hf1; obtain rfl := harg3.eq_unread hf2
  obtain rfl := harg7.eq_unread hf7; obtain rfl := harg8.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (cover1_3 _)]
    unfold out1_3
    simp only [View.readAt_eq_ld, harg1.read_unread, harg2.read_unread, harg3.read_unread]
  isplitl [H4]
  · iexists _; isplitr
    swap; · iexact H4
    ipureintro
    sl_unfold_run_names
    rw [View.read_writes_eq_canon _ _ _ (coverRow_cons _ _), canon_row_cons]
    simp only [View.readAt_eq_ld, harg1.read_unread, harg2.read_unread, harg3.read_unread, harg7.read_unread]
    exact bridge7C _ x0 x1 x2 s7
  isplitl [H5]
  · iexists _; isplitr
    swap; · iexact H5
    ipureintro
    sl_unfold_run_names
    rw [View.read_writes_eq_canon _ _ _ (coverRow_cons _ _), canon_row_cons]
    simp only [View.readAt_eq_ld, harg1.read_unread, harg2.read_unread, harg3.read_unread, harg8.read_unread]
    exact bridge8C _ x0 x1 x2 s8
  isplitl [H7]
  · iexists _; isplitr
    swap; · iexact H7
    ipureintro
    sl_unfold_run_names
    rw [View.read_writes_eq_canon _ _ _ (coverRow_cons _ _), canon_row_cons]
    simp only [View.readAt_eq_ld, harg1.read_unread, harg2.read_unread, harg3.read_unread, harg7.read_unread]
    exact bridge7 x0 x1 x2 s7
  · iexists _; isplitr
    swap; · iexact H8
    ipureintro
    sl_unfold_run_names
    rw [View.read_writes_eq_canon _ _ _ (coverRow_cons _ _), canon_row_cons]
    simp only [View.readAt_eq_ld, harg1.read_unread, harg2.read_unread, harg3.read_unread, harg8.read_unread]
    exact bridge8 x0 x1 x2 s8

/-! ## The scoped rest, with the two scratch rows brought to the front -/

/-- What the launch hands the region, opened: the two scratch rows at anything, the other scoped buffers, the generator register. -/
theorem PhiA1_open (c : Dev nD) :
    (Pipeline.ΦA spec1 c : sProp 𝕄) ⊢ iprop((∃ d, owns (c : Thread nD τ) scM7 fullShare d) ∗ (∃ d, owns (c : Thread nD τ) scM8 fullShare d)
      ∗ Others1 c ∗ (∃ r, prngReg c r)) := by
  unfold Pipeline.ΦA Others1; rw [scopedRest1_eq]; simp only [scM7, scM8, owns_whole]
  iintro ⟨⟨A0, A1, A2, A3, A4, S7, S8, B⟩, Hg⟩
  isplitl [S7]; · iexact S7
  isplitl [S8]; · iexact S8
  isplitr [Hg]
  · isplitl [A0]; · iexact A0
    isplitl [A1]; · iexact A1
    isplitl [A2]; · iexact A2
    isplitl [A3]; · iexact A3
    isplitl [A4]; · iexact A4
    iexact B
  iexact Hg

/-- And closed again, the scratch rows' contents forgotten. -/
theorem PhiA1_close (c : Dev nD) :
    iprop((∃ d, owns (c : Thread nD τ) scM7 fullShare d) ∗ (∃ d, owns (c : Thread nD τ) scM8 fullShare d)
      ∗ Others1 c ∗ (∃ r, prngReg c r)) ⊢ (Pipeline.ΦA spec1 c : sProp 𝕄) := by
  unfold Pipeline.ΦA Others1; rw [scopedRest1_eq]; simp only [scM7, scM8, owns_whole]
  iintro ⟨S7, S8, ⟨A0, A1, A2, A3, A4, B⟩, Hg⟩
  isplitr [Hg]
  · isplitl [A0]; · iexact A0
    isplitl [A1]; · iexact A1
    isplitl [A2]; · iexact A2
    isplitl [A3]; · iexact A3
    isplitl [A4]; · iexact A4
    isplitl [S7]; · iexact S7
    isplitl [S8]; · iexact S8
    iexact B
  iexact Hg

section
variable (V : (c : Dev nD) → (b : Ref sig .tc) → Buf (Elt F) ((c : Thread nD τ).loc b))

/-! ## The accumulators point by point -/

/-- At the first point the accumulators are one step from zero; -/
theorem scAt1_first (c : Dev nD) (t : Fin cfg1.N) (h : t.val = 0) :
    scAt1 V c t.val t.isLt = (step7 (iblk1 V c 0 t) (iblk1 V c 1 t) (iblk1 V c 2 t) z7, step8 (iblk1 V c 0 t) (iblk1 V c 1 t) (iblk1 V c 2 t) z8) := by
  obtain ⟨n, hn⟩ := t
  cases n with
  | zero => rfl
  | succ n => exact absurd h (Nat.succ_ne_zero n)

/-- at a later point one step from what the point before left. -/
theorem scAt1_later (c : Dev nD) (t : Fin cfg1.N) (h : t.val ≠ 0) :
    scAt1 V c t.val t.isLt = (step7 (iblk1 V c 0 t) (iblk1 V c 1 t) (iblk1 V c 2 t) (scAt1 V c (t.val - 1) (Nat.lt_of_le_of_lt (Nat.sub_le _ _) t.isLt)).1,
      step8 (iblk1 V c 0 t) (iblk1 V c 1 t) (iblk1 V c 2 t) (scAt1 V c (t.val - 1) (Nat.lt_of_le_of_lt (Nat.sub_le _ _) t.isLt)).2) := by
  obtain ⟨n, hn⟩ := t
  cases n with
  | zero => exact absurd rfl h
  | succ n => rfl

/-! ## The body obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- A window live at `t` is left at the proof data's contents. -/
theorem leaves_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 1600000 in
/-- The body at any point: which of the three cases the point is in is read off its number; the inputs' buffers hold their
    blocks; the invariant hands over the two scratch rows (at anything before the first point, at what the point before
    left afterwards) and takes them back one step on; a row output is handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc]
  rw [leaves_live V c 0 t (live1_0 t), leaves_live V c 1 t (live1_1 t), leaves_live V c 2 t (live1_2 t), leaves_live V c 3 t (live1_3 t),
    after1_0, after1_1, after1_2, after1_3]
  have hN : t.val < 50 := lt_of_lt_of_eq t.isLt (show cfg1.N = 50 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 4 t (idle1_4 t hc1) (noFlush1_4 t hc1), Dat.leavesExact_idle (dat1 V c) 5 t (idle1_5 t hc1) (noFlush1_5 t hc1)]
    rw [scAt1_first V c t h0, PhiS1_zero V c _ _ h0]
    dsimp only
    iintro ⟨HΦ, Ho, ⟨%d0, H0⟩, ⟨%d1, H1⟩, ⟨%d2, H2⟩, ⟨%d3, H3⟩, ⟨%d4, H4⟩, ⟨%d5, H5⟩⟩
    icases (PhiA1_open c) $$ HΦ with ⟨HS7, HS8, HO, Hg⟩
    iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t)
      scM7 (Memref.isWhole_whole _) scM8 (Memref.isWhole_whole _) hc0 hc1 (iblk1 V c 0 t) (iblk1 V c 1 t) (iblk1 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS7]; · iexact HS7
    isplitl [HS8]; · iexact HS8
    iintro ⟨H0, H1, H2, H3, H4, H5, HS7, HS8⟩
    isplitl [HS7 HS8 HO Hg]
    · isplitl [HS7]; · iexact HS7
      isplitl [HS8]; · iexact HS8
      isplitl [HO]; · iexact HO
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond1_0 (grid1.coords t) := fun h => h0 ((hcond1_0 t).mp h)
    rw [scAt1_later V c t h0, PhiS1_pos V c _ _ h0]
    by_cases h1 : t.val = 49
    · have hc1 : cond1_1 (grid1.coords t) := (hcond1_1 t).mpr h1
      rw [leaves_live V c 4 t (live1_4 t hc1), leaves_live V c 5 t (live1_5 t hc1), after1_4, after1_5, scAt1_later V c t h0]
      dsimp only
      iintro ⟨⟨HS7, HS8, HO, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t)
        scM7 (Memref.isWhole_whole _) scM8 (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS7]; · iexact HS7
      isplitl [HS8]; · iexact HS8
      iintro ⟨H0, H1, H2, H3, H4, H5, HS7, HS8⟩
      isplitl [HS7 HS8 HO Hg]
      · isplitl [HS7]; · iexact HS7
        isplitl [HS8]; · iexact HS8
        isplitl [HO]; · iexact HO
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 4 t (idle1_4 t hc1) (noFlush1_4 t hc1), Dat.leavesExact_idle (dat1 V c) 5 t (idle1_5 t hc1) (noFlush1_5 t hc1)]
      dsimp only
      iintro ⟨⟨HS7, HS8, HO, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t)
        scM7 (Memref.isWhole_whole _) scM8 (Memref.isWhole_whole _) hc0 hc1 (iblk1 V c 0 t) (iblk1 V c 1 t) (iblk1 V c 2 t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS7]; · iexact HS7
      isplitl [HS8]; · iexact HS8
      iintro ⟨H0, H1, H2, H3, H4, H5, HS7, HS8⟩
      isplitl [HS7 HS8 HO Hg]
      · isplitl [HS7]; · iexact HS7
        isplitl [HS8]; · iexact HS8
        isplitl [HO]; · iexact HO
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest and the generator register back. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ hne]
  have hforget (s7 s8 : Vec F S1x128 .f32) :
      iprop(owns (c : Thread nD τ) scM7 fullShare s7 ∗ owns (c : Thread nD τ) scM8 fullShare s8 ∗ Others1 c ∗ (∃ r, prngReg c r))
        ⊢ (iprop((∃ d, owns (c : Thread nD τ) scM7 fullShare d) ∗ (∃ d, owns (c : Thread nD τ) scM8 fullShare d)
          ∗ Others1 c ∗ (∃ r, prngReg c r)) : sProp 𝕄) := by
    iintro ⟨HS7, HS8, HO, Hg⟩
    isplitl [HS7]; · iexists _; iexact HS7
    isplitl [HS8]; · iexists _; iexact HS8
    isplitl [HO]; · iexact HO
    iexact Hg
  exact (hforget _ _).trans (PhiA1_close c)

end

end Cert.KernelIdeal.Hand

end
-- ==== Proof.R2Body.lean ====
/-
  Region 2: the body obligation of the normalisation kernel at every grid point.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.Rects
import proofs.«413316_j77618648973416_1_alg».proof.Proof.R2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 1000000 in
/-- The normalisation kernel on whole staging memrefs, at any grid coordinate: the six inputs hold read contents,
    the output holds anything; it runs to the continuation holding the inputs as they were and the output at the
    one whole-block store of the pointwise payload of the inputs. -/
theorem sound_kernel2 (c : Dev nD) (E : Set ℕ) (i : grid2.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x1 .f32) (harg6 : arg6.IsWhole)
    (arg7 : Memref sig .tc .vmem S2000x128 .f32) (harg7 : arg7.IsWhole)
    (x0 : Vec F S2000x128 .f32) (x1 x2 x3 x4 : Vec F S1x128 .f32) (x5 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__stage3_kernel i arg1 harg1 arg2 harg2 arg3 harg3 arg4 harg4 arg5 harg5 arg6 harg6 arg7 harg7) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- What the body is called with at point t: the invariant, what is owed, and each window's current staging
    memref, the inputs' at the contents the pipeline left there and the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body returns at point t: the same invariant and debt, each staging memref at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' staging memrefs hold their blocks of the entry arrays, so the kernel's
    triple applies; the invariant and the debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.Run.lean ====
/-
  The whole run of @main — the projection region, the gather stretch, the scale / segment-sum stretch, the
  bias / leaky-ramp / column-sums region, the mean / variance stretch and the normalisation region — composed in
  order from the launch memory. The buffers' contents at each boundary are named by a fold through @main: a host
  stretch leaves what its operations compute, a region leaves its arrays at what its write-backs fold to and every
  other buffer as entered. The run ends with every unscoped buffer at the last of these valuations; the arguments
  are read back through the fold to their launch contents.
-/
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import proofs.«413316_j77618648973416_1_alg».proof.Proof.Gen.KernelIdeal.Regions
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.Rects
import proofs.«413316_j77618648973416_1_alg».proof.Proof.R0Defs
import proofs.«413316_j77618648973416_1_alg».proof.Proof.R1Defs
import proofs.«413316_j77618648973416_1_alg».proof.Proof.R2Defs
import proofs.«413316_j77618648973416_1_alg».proof.Proof.R0Body
import proofs.«413316_j77618648973416_1_alg».proof.Proof.R1Body
import proofs.«413316_j77618648973416_1_alg».proof.Proof.R2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core c's buffers at launch, which is where the first region is entered. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b

/-- At the first region's exit: its arrays at what the pipeline leaves (the inputs as entered, the output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the first region's exit each of its arrays holds what the pipeline leaves, every other buffer what it held. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the gather stretch. -/
abbrev W2 : Dev nD → Valuation τ sig (Elt F) := fun c => StableHlo.after hostOps1 (W1 m ρ c)
/-- After the scale / segment-sum stretch (the second region's entry). -/
abbrev W3 : Dev nD → Valuation τ sig (Elt F) := fun c => StableHlo.after hostOps1_1 (W2 m ρ c)
/-- The same read at the TensorCore's references (what the second region's proof data take). -/
abbrev V3 : (c : Dev nD) → (b : Ref sig .tc) → Buf (Elt F) ((c : Thread nD τ).loc b) := fun c b => W3 m ρ c b

/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the mean / variance stretch (the third region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At the third region's exit: what the launch reads at the end. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## Four rearrangements every region's record is made of

A region's entry, the two ends of its invariant and its exit are, once the arrays have been split out of (put back
into) the unscoped buffers, plain reshufflings of a separating conjunction. They are stated once over arbitrary
assertions. -/

section Shuffles

/-- Entry: the unscoped buffers split into the arrays and the rest, what enters the invariant is handed on as it is,
    what is owed is handed on under the proof data's bound; the kernel's own semaphores and the level facts are not
    needed. -/
theorem entry_sort {Hub Arr Rest Xr Ow Ow' Pf S0 Lv : sProp 𝕄}
    (hsplit : Hub ⊢ iprop(Arr ∗ Rest)) (hpf : (BI.emp : sProp 𝕄) ⊢ Pf) (how : Ow ⊢ Ow') :
    iprop((Hub ∗ Xr ∗ Ow) ∗ S0 ∗ Lv) ⊢ |={Set.univ}=> iprop(Arr ∗ Pf ∗ Ow' ∗ Xr ∗ Rest) := by
  iintro ⟨⟨Hb, Hx, Ho⟩, -, -⟩
  ihave Hs := hsplit $$ Hb
  icases Hs with ⟨Ha, Hr⟩
  imodintro
  isplitl [Ha]; · iexact Ha
  isplitr; · iapply hpf; iempintro
  isplitl [Ho]; · iapply how; iexact Ho
  isplitl [Hx]; · iexact Hx
  iexact Hr

/-- The invariant's first end, for an invariant that is the scoped rest beside what entered. -/
theorem in_sort {Xr Pf Sr : sProp 𝕄} : iprop(Xr ∗ Pf ∗ Sr) ⊢ iprop(Sr ∗ Xr) := by
  iintro ⟨Hx, -, Hs⟩
  isplitl [Hs]; · iexact Hs
  iexact Hx

/-- The invariant's last end, likewise; the kernel has no semaphore of its own. -/
theorem out_sort {Xr Sr S0 : sProp 𝕄} (h0 : (BI.emp : sProp 𝕄) ⊢ S0) : iprop(Sr ∗ Xr) ⊢ iprop(Xr ∗ S0 ∗ Sr) := by
  iintro ⟨Hs, Hx⟩
  isplitl [Hx]; · iexact Hx
  isplitr; · iapply h0; iempintro
  iexact Hs

/-- Exit: the arrays and the rest are put back into the unscoped buffers; what came out of the invariant and what is
    owed ride on. -/
theorem exit_sort {Arr Rest Hub' Ow Ow' Yr : sProp 𝕄} (hjoin : iprop(Arr ∗ Rest) ⊢ Hub') (how : Ow ⊢ Ow') :
    iprop(Arr ∗ Ow ∗ Yr ∗ Rest) ⊢ |={Set.univ}=> iprop(Hub' ∗ Yr ∗ Ow') := by
  iintro ⟨Ha, Ho, Hy, Hr⟩
  imodintro
  isplitl [Ha Hr]
  · iapply hjoin; isplitl [Ha] <;> iassumption
  isplitl [Hy]; · iexact Hy
  iapply how; iexact Ho

end Shuffles

/-- A core that owes nothing owes nothing within a bound that takes every pair, -/
theorem owesAt_of_zero {cfg : Cfg sig Λ₀} {c : Dev nD} (dat : Dat τ (Elt F) Unit ℕ (UR sig nD τ) ℕ cfg c) (t : Fin (cfg.N + 1))
    (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, Ho⟩
  iexists W
  isplitr; · ipureintro; exact fun _ _ => Or.inl trivial
  iexact Ho
/-- and conversely, the bound forgotten. -/
theorem zero_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Ho⟩
  iexists W
  iexact Ho
/-- No pipeline here has a prefetched table: holding them all is holding nothing. -/
theorem prefHeld_none (pre : Pipeline.Prefetch sig) (hK : pre.K = 0) (c : Dev nD) (q : Fin pre.K → PosShare TreeShare) (V : pre.Contents (Elt F)) :
    (BI.emp : sProp 𝕄) ⊢ Pipeline.prefHeld pre c q V := by
  unfold Pipeline.prefHeld
  have : (Finset.univ : Finset (Fin pre.K)) = ∅ := by
    apply Finset.eq_empty_of_forall_notMem; intro k; exact absurd k.isLt (by omega)
  rw [this, BI.bigSep_empty]
/-- A kernel with no semaphore of its own holds none at zero. -/
theorem emp_ownSems0 (c : Dev nD) : (BI.emp : sProp 𝕄) ⊢ Pipeline.ownSems0 (fun k : PEmpty => k.elim) c := by
  rw [Pipeline.ownSems0_none]

/-! ## The regions as segments

Each region is entered from every unscoped buffer at the boundary's contents before it, beside the generator register
and nothing owed, and left at the contents after it beside the same. -/

set_option backward.isDefEq.respectTransparency.types false in
/-- The projection region, from the launch contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    exact entry_sort hsplit (prefHeld_none _ rfl c _ _) (owesAt_of_zero (pdats m ρ 0 c) 0 rfl rfl)
  hin c := in_sort
  hout c := out_sort (emp_ownSems0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    exact exit_sort hjoin (zero_of_owesAt (pdats m ρ 0 c) _ rfl)

set_option backward.isDefEq.respectTransparency.types false in
/-- The bias / leaky-ramp / column-sums region, from the contents the scale / segment-sum stretch leaves. Its invariant
    is its own (the two accumulator rows at named contents between points): the scoped rest and the generator register
    enter it at the first point and come back out of it after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    exact entry_sort hsplit (prefHeld_none _ rfl c _ _) (owesAt_of_zero (pdats m ρ 1 c) 0 rfl rfl)
  hin c := (in_sort (Sr := Pipeline.scopedRest spec1 c)).trans (hin1 (V3 m ρ) c)
  hout c := (hout1 (V3 m ρ) c).trans (out_sort (Sr := Pipeline.scopedRest spec1 c) (emp_ownSems0 c))
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    exact exit_sort hjoin (zero_of_owesAt (pdats m ρ 1 c) _ rfl)

set_option backward.isDefEq.respectTransparency.types false in
/-- The normalisation region, from the contents the mean / variance stretch leaves, to the last boundary's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    exact entry_sort hsplit (prefHeld_none _ rfl c _ _) (owesAt_of_zero (pdats m ρ 2 c) 0 rfl rfl)
  hin c := in_sort
  hout c := out_sort (emp_ownSems0 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    exact exit_sort hjoin (zero_of_owesAt (pdats m ρ 2 c) _ rfl)

/-! ## @main as segments -/

/-- @main's six segments in order: a region per custom call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ),
    .host (hseg hostOps2 hostOps2_sub hostOps2_fresh (W4 m ρ)),
    .region (reg2 m ρ) ]
/-- @main is the run of the segments: its chain of items, and the segments' run against that chain by definitional
    unfolding. -/
theorem main_run (c : Dev nD) : main (F := F) c = Pipeline.Seg.run (segs m ρ) := (main_chain c).trans (by chain_rfl)

/-! ## The launch and the end -/

/-- The launch's ghost element is the pipelines' own; no core needs a ghost resource besides. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  refine (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl).trans ?_
  iintro Hu
  imodintro
  isplitl [Hu]; · iexact Hu
  iempintro

/-- What the launch deals a core makes the first thread state: its unscoped buffers at the launch contents, its
    generator register, nothing owed. -/
theorem launch_core (c : Dev nD) {Sm Cr Gc Lv : sProp 𝕄} :
    iprop((unscopedBufs c (fun b => m ((c : Thread nD τ).loc b)) ∗ Sm ∗ owes (c : Thread nD τ) (0 : CellTallies nD τ sig Unit) ∅
        ∗ Cr ∗ prngReg c (ρ c) ∗ Gc) ∗ Lv)
      ⊢ |={Set.univ}=> iprop(StableHlo.held (c : Thread nD τ) (Pipeline.ucRefs τ sig) (W0 m ρ c) ∗ R c) := by
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hh, -, Ho, -, Hp, -⟩, -⟩
  imodintro
  isplitl [Hh]; · iexact Hh
  isplitl [Hp]; · iexists _; iexact Hp
  iexists ∅; iexact Ho

/-- The last thread state read against a final state: every unscoped buffer's contents there. -/
theorem read_end (c : Dev nD) (s' : Phys nD τ sig (Elt F)) :
    iprop(Tₙ m ρ c ∗ SI s')
      ⊢ |={Set.univ}=> iprop(⌜∀ b ∈ Pipeline.ucRefs τ sig, s'.mem.mem (((c : Thread nD τ)).1, b) = W6 m ρ c b⌝ ∗ SI s') := by
  iintro ⟨⟨Hh, -⟩, HSI⟩
  unfold StableHlo.held
  imodintro
  iapply (pointsTo_read_all (Pipeline.ucRefs τ sig) (fun b => (((c : Thread nD τ)).1, b)) (W6 m ρ c) s')
  isplitl [Hh]; · iexact Hh
  iexact HSI

set_option backward.isDefEq.respectTransparency.types false in
/-- THE RUN. From any memory with zero counters every weakly fair execution of @main terminates, nothing faulting,
    and every final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc.2⟩)
    (hinit := Pipeline.initEach L lv fun c => launch_core m ρ c)
    (QY := fun c s => ∀ b ∈ Pipeline.ucRefs τ sig, s.mem (((c : Thread nD τ)).1, b) = W6 m ρ c b)
    (hfin := read_end m ρ)
    (hQ := fun _ h => h)

/-! ## What each stretch and each region leaves unchanged; the arguments end as launched

No host operation writes an argument and no region has one among its output arrays: the fold at an argument's buffer
walks back to the launch memory. -/

/-- A reference the gather stretch does not write keeps its contents across it; -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- likewise across the scale / segment-sum stretch, -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
/-- and across the mean / variance stretch. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- Argument 0 through the fold. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W2_main_arg0 (c : Dev nD) : W2 m ρ c (Proc.devRef .tc main_arg0) = m ((c : Thread nD τ).loc main_arg0) :=
  (W2_of m ρ c main_arg0 (by decide)).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)

/-- Argument 1 through the fold. -/
theorem W1_main_arg1 (c : Dev nD) : W1 m ρ c (Proc.devRef .tc main_arg1) = m ((c : Thread nD τ).loc main_arg1) :=
  W1_of_ne m ρ c main_arg1 (by decide)
theorem W2_main_arg1 (c : Dev nD) : W2 m ρ c (Proc.devRef .tc main_arg1) = m ((c : Thread nD τ).loc main_arg1) :=
  (W2_of m ρ c main_arg1 (by decide)).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)

/-- Argument 2 through the fold. -/
theorem W1_main_arg2 (c : Dev nD) : W1 m ρ c (Proc.devRef .tc main_arg2) = m ((c : Thread nD τ).loc main_arg2) :=
  W1_of_ne m ρ c main_arg2 (by decide)
theorem W2_main_arg2 (c : Dev nD) : W2 m ρ c (Proc.devRef .tc main_arg2) = m ((c : Thread nD τ).loc main_arg2) :=
  (W2_of m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)

/-- Argument 3 through the fold. -/
theorem W1_main_arg3 (c : Dev nD) : W1 m ρ c (Proc.devRef .tc main_arg3) = m ((c : Thread nD τ).loc main_arg3) :=
  W1_of_ne m ρ c main_arg3 (by decide)
theorem W2_main_arg3 (c : Dev nD) : W2 m ρ c (Proc.devRef .tc main_arg3) = m ((c : Thread nD τ).loc main_arg3) :=
  (W2_of m ρ c main_arg3 (by decide)).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)

/-- Argument 4 through the fold. -/
theorem W1_main_arg4 (c : Dev nD) : W1 m ρ c (Proc.devRef .tc main_arg4) = m ((c : Thread nD τ).loc main_arg4) :=
  (W1_arr m ρ c 1).trans (((dat0 (V0 m ρ) c).arrAt_in 1 rfl _).trans (A_eq0 (V0 m ρ) c 1))
theorem W2_main_arg4 (c : Dev nD) : W2 m ρ c (Proc.devRef .tc main_arg4) = m ((c : Thread nD τ).loc main_arg4) :=
  (W2_of m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)

/-- Argument 5 through the fold. -/
theorem W1_main_arg5 (c : Dev nD) : W1 m ρ c (Proc.devRef .tc main_arg5) = m ((c : Thread nD τ).loc main_arg5) :=
  W1_of_ne m ρ c main_arg5 (by decide)
theorem W2_main_arg5 (c : Dev nD) : W2 m ρ c (Proc.devRef .tc main_arg5) = m ((c : Thread nD τ).loc main_arg5) :=
  (W2_of m ρ c main_arg5 (by decide)).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)

/-- Argument 6 through the fold. -/
theorem W1_main_arg6 (c : Dev nD) : W1 m ρ c (Proc.devRef .tc main_arg6) = m ((c : Thread nD τ).loc main_arg6) :=
  W1_of_ne m ρ c main_arg6 (by decide)
theorem W2_main_arg6 (c : Dev nD) : W2 m ρ c (Proc.devRef .tc main_arg6) = m ((c : Thread nD τ).loc main_arg6) :=
  (W2_of m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)

/-- Argument 7 through the fold. -/
theorem W1_main_arg7 (c : Dev nD) : W1 m ρ c (Proc.devRef .tc main_arg7) = m ((c : Thread nD τ).loc main_arg7) :=
  W1_of_ne m ρ c main_arg7 (by decide)
theorem W2_main_arg7 (c : Dev nD) : W2 m ρ c (Proc.devRef .tc main_arg7) = m ((c : Thread nD τ).loc main_arg7) :=
  (W2_of m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_of m ρ c main_arg7 (by decide)).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)

/-- Argument 8 through the fold. -/
theorem W1_main_arg8 (c : Dev nD) : W1 m ρ c (Proc.devRef .tc main_arg8) = m ((c : Thread nD τ).loc main_arg8) :=
  W1_of_ne m ρ c main_arg8 (by decide)
theorem W2_main_arg8 (c : Dev nD) : W2 m ρ c (Proc.devRef .tc main_arg8) = m ((c : Thread nD τ).loc main_arg8) :=
  (W2_of m ρ c main_arg8 (by decide)).trans (W1_main_arg8 m ρ c)
theorem W3_main_arg8 (c : Dev nD) : W3 m ρ c (Proc.devRef .tc main_arg8) = m ((c : Thread nD τ).loc main_arg8) :=
  (W3_of m ρ c main_arg8 (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (W5_of m ρ c main_arg8 (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)

/-- Argument 9 through the fold. -/
theorem W1_main_arg9 (c : Dev nD) : W1 m ρ c (Proc.devRef .tc main_arg9) = m ((c : Thread nD τ).loc main_arg9) :=
  W1_of_ne m ρ c main_arg9 (by decide)
theorem W2_main_arg9 (c : Dev nD) : W2 m ρ c (Proc.devRef .tc main_arg9) = m ((c : Thread nD τ).loc main_arg9) :=
  (W2_of m ρ c main_arg9 (by decide)).trans (W1_main_arg9 m ρ c)
theorem W3_main_arg9 (c : Dev nD) : W3 m ρ c (Proc.devRef .tc main_arg9) = m ((c : Thread nD τ).loc main_arg9) :=
  (W3_of m ρ c main_arg9 (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (W5_of m ρ c main_arg9 (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)

/-! ## The frame -/

/-- THE FRAME: every weakly fair execution of @main terminates, nothing faulting, and every final state has the
    argument arrays as launched: each argument's buffer read off the last boundary's contents, which the fold walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_all m ρ)

end Cert.KernelIdeal.Hand

end
-- ==== Proof.Spec.lean ====
/-
  The mathematics both programs compute, on the extended reals, entry by entry.

  x = heat · W; agg is the edge-weighted segment sum of x's gathered rows (kept abstract: both programs apply the
  same gather, scale and scatter to x); h = ramp_a1 (agg + b) where ramp_a z is z for z ≥ 0 and a · z otherwise;
  mean and var are the column mean of h and its biased column variance; the result is
  ramp_a2 (((h − mean) · rsqrt (var + ε)) · γ + β).
-/
import Idealize.ShloMosaic.PureOps.Ideal
import Idealize.ShloMosaic.Lib.ValueIdx

noncomputable section

namespace Cert.Spec

open Idealize.ShloMosaic Idealize.ShloMosaic.ValueIdx

/-- The leaky ramp with slope a on the negative side, as both programs compute it: a comparison against zero selecting
    between z and a · z. -/
def ramp (a z : EReal) : EReal := if Ideal.cmp .oge z 0 = 1 then z else a * z

/-- x = heat · W at row r, column q. -/
def xmat (heat : (⟨2, ![100000, 128]⟩ : Shape).Idx → EReal) (w : (⟨2, ![128, 128]⟩ : Shape).Idx → EReal)
    (r : Fin 100000) (q : Fin 128) : EReal :=
  ∑ k : Fin 128, heat (ix2 r k) * w (ix2 k q)

/-- h at row r, column q, from the aggregate, the bias row and the slope. -/
def hval (agg : (⟨2, ![100000, 128]⟩ : Shape).Idx → EReal) (b : Fin 128 → EReal) (a1 : EReal)
    (r : Fin 100000) (q : Fin 128) : EReal :=
  ramp a1 (agg (ix2 r q) + b q)

/-- The column sum of h and of h². -/
def colSum (h : Fin 100000 → Fin 128 → EReal) (q : Fin 128) : EReal := ∑ r : Fin 100000, h r q
def colSumSq (h : Fin 100000 → Fin 128 → EReal) (q : Fin 128) : EReal := ∑ r : Fin 100000, h r q * h r q

/-- The normalised, scaled, shifted and ramped entry. -/
def outv (h : Fin 100000 → Fin 128 → EReal) (mean var gam bet : Fin 128 → EReal) (eps a2 : EReal)
    (r : Fin 100000) (q : Fin 128) : EReal :=
  ramp a2 (((h r q - mean q) * Ideal.rsqrt (var q + eps)) * gam q + bet q)

end Cert.Spec

end
-- ==== Proof.Val0.lean ====
/-
  Region 0's output array, read at an index: x = heat · W.

  The body stores, over the whole 2000×128 output block, the matrix product of the heat block with W; at the
  extended reals that is, entry by entry, the sum over the contracted coordinate. Point t's blocks are rows
  2000·t … 2000·t + 1999 of the heat array and of the output, and all of W; the fifty output blocks tile the
  100000×128 array, so after the region it holds the product everywhere.
-/
import proofs.«413316_j77618648973416_1_alg».proof.Proof.R0Defs
import proofs.«413316_j77618648973416_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Val0

/-- The product's dimension numbers, axis by axis: the left operand is read at (the output's row, the contraction
    position), the right operand at (the contraction position, the output's column). -/
theorem lhs_ax0 (j : S2000x128.Idx) (k : dot_S2000x128_S128x128_S2000x128_1_0_0_1_n_n.contr.Idx) :
    (dot_S2000x128_S128x128_S2000x128_1_0_0_1_n_n.lhsIdx j k (0 : Fin 2)).val = (j (0 : Fin 2)).val := by
  simp [DotDims.lhsIdx, dot_S2000x128_S128x128_S2000x128_1_0_0_1_n_n]; rfl

theorem lhs_ax1 (j : S2000x128.Idx) (k : dot_S2000x128_S128x128_S2000x128_1_0_0_1_n_n.contr.Idx) :
    (dot_S2000x128_S128x128_S2000x128_1_0_0_1_n_n.lhsIdx j k (1 : Fin 2)).val = (k ⟨0, by decide⟩).val :=
  dot_S2000x128_S128x128_S2000x128_1_0_0_1_n_n.lhsIdx_val_of_single (cl := (1 : Fin 2)) rfl j k

theorem rhs_ax0 (j : S2000x128.Idx) (k : dot_S2000x128_S128x128_S2000x128_1_0_0_1_n_n.contr.Idx) :
    (dot_S2000x128_S128x128_S2000x128_1_0_0_1_n_n.rhsIdx j k (0 : Fin 2)).val = (k ⟨0, by decide⟩).val :=
  dot_S2000x128_S128x128_S2000x128_1_0_0_1_n_n.rhsIdx_val_of_single (cr := (0 : Fin 2)) rfl j k

theorem rhs_ax1 (j : S2000x128.Idx) (k : dot_S2000x128_S128x128_S2000x128_1_0_0_1_n_n.contr.Idx) :
    (dot_S2000x128_S128x128_S2000x128_1_0_0_1_n_n.rhsIdx j k (1 : Fin 2)).val = (j (1 : Fin 2)).val := by
  simp [DotDims.rhsIdx, dot_S2000x128_S128x128_S2000x128_1_0_0_1_n_n]; rfl

/-- The body's stored value at row p, column q of the block: the sum over the contracted coordinate of the
    products of the row block's entries with the matrix's. Narrowing the operands is the identity on the
    extended reals, and the accumulator is the zero splat, so nothing but the sum is left. -/
theorem pay1_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact lhs_ax0 _ _
    | ⟨1, _⟩ => exact (lhs_ax1 _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (rhs_ax0 _ _).trans hk
    | ⟨1, _⟩ => exact rhs_ax1 _ _
  rw [hl, hr]
  rfl

/-- So, when the row block's row p is the array's row r and the matrix block is the matrix, the stored value at
    (p, q) is the product's entry (r, q). -/
theorem pay1_of_rows (x0 : Vec Ideal S2000x128 .f32) (x1 : Vec Ideal S128x128 .f32)
    (heat : (⟨2, ![100000, 128]⟩ : Shape).Idx → EReal) (w : (⟨2, ![128, 128]⟩ : Shape).Idx → EReal)
    (p : Fin 2000) (q : Fin 128) (r : Fin 100000)
    (h0 : ∀ k : Fin 128, x0 (ix2 p k) = heat (ix2 r k)) (h1 : ∀ k : Fin 128, x1 (ix2 k q) = w (ix2 k q)) :
    k0_pay1 x0 x1 (ix2 p q) = Cert.Spec.xmat heat w r q := by
  rw [pay1_apply]
  unfold Cert.Spec.xmat
  exact Finset.sum_congr rfl fun k _ => by rw [h0 k, h1 k]

section
variable (V : (c : Dev nD) → (b : Ref sig .tc) → Buf (Elt Ideal) ((c : Thread nD τ).loc b))

theorem zero_off : (![0, 0] : Fin 2 → Nat) = fun _ => 0 := funext fun a => by fin_cases a <;> rfl

/-- The windows' index maps over the grid: at point t the row-block windows (the heat input, the output) are at
    block (t, 0), the matrix's window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The heat window's block at point t is rows 2000·t … 2000·t + 1999 of the heat array. -/
theorem heat_block (c : Dev nD) (t : Fin cfg0.N) (p : Fin 2000) (k : Fin 128) (r : Fin 100000)
    (hr : r.val = t.val * 2000 + p.val) :
    iblk0 V c 0 t (ix2 p k) = V c main_arg0 (ix2 r k) := by
  obtain ⟨e0, e1, -⟩ := idx0 t
  unfold iblk0
  rw [View.read_apply]
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The matrix's window holds the whole matrix at every point. -/
theorem w_block (c : Dev nD) (t : Fin cfg0.N) (k q : Fin 128) :
    iblk0 V c 1 t (ix2 k q) = V c main_arg4 (ix2 k q) := by
  obtain ⟨-, -, e2, e3, -⟩ := idx0 t
  unfold iblk0
  rw [View.read_apply]
  show V c main_arg4 (((cfg0.win 1).blk t).view.emb (ix2 k q)) = V c main_arg4 (ix2 k q)
  refine congrArg (V c main_arg4) ?_
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- x = heat · W as one function of the output array's index. -/
def xArr (c : Dev nD) : S100000x128.Idx → EReal := fun i =>
  Cert.Spec.xmat (V c main_arg0) (V c main_arg4) ⟨(i 0).val, idx2_lt0 i⟩ ⟨(i 1).val, idx2_lt1 i⟩

/-- What point t writes back is block t of x: rows 2000·t … 2000·t + 1999 of the product. -/
theorem flushed0_2_eq (c : Dev nD) (t : Fin cfg0.N) :
    (dat0 V c).flushed 2 t = ((cfg0.win 2).blk t).view.read (Elt Ideal) (xArr V c) := by
  obtain ⟨-, -, -, -, e4, e5⟩ := idx0 t
  have hN : cfg0.N = 50 := N_0
  have ht : t.val < 50 := hN ▸ t.isLt
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x128) zero_off]
  funext j
  have hp : (j 0).val < 2000 := (j 0).isLt
  have hq : (j 1).val < 128 := (j 1).isLt
  show k0_pay1 (iblk0 V c 0 t) (iblk0 V c 1 t) ((cfg0.win 2).xinj (grid0.coords t) j)
    = xArr V c (((cfg0.win 2).blk t).view.emb j)
  have hj : (cfg0.win 2).xinj (grid0.coords t) j = ix2 (⟨(j 0).val, hp⟩ : Fin 2000) (⟨(j 1).val, hq⟩ : Fin 128) :=
    funext fun a => by match a with | ⟨0, _⟩ => rfl | ⟨1, _⟩ => rfl
  have hi : ((cfg0.win 2).blk t).view.emb j
      = ix2 (⟨t.val * 2000 + (j 0).val, by omega⟩ : Fin 100000) (⟨(j 1).val, hq⟩ : Fin 128) := by
    funext a; apply Fin.ext
    match a with
    | ⟨0, _⟩ => show win0_2.index t (0 : Fin 2) * 2000 + 1 * (j 0).val = t.val * 2000 + (j 0).val; rw [e4]; omega
    | ⟨1, _⟩ => show win0_2.index t (1 : Fin 2) * 128 + 1 * (j 1).val = (j 1).val; rw [e5]; omega
  rw [hj, hi]
  exact pay1_of_rows (iblk0 V c 0 t) (iblk0 V c 1 t) (V c main_arg0) (V c main_arg4) ⟨(j 0).val, hp⟩ ⟨(j 1).val, hq⟩
    ⟨t.val * 2000 + (j 0).val, by omega⟩ (fun k => heat_block V c t _ k _ rfl) (fun k => w_block V c t k _)

/-- An index of the output array is in point t's block iff each coordinate is in the block's range on its axis. -/
theorem mem_rows (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- The fifty row blocks tile the array: row r is in the block of point r / 2000, and every point writes back. -/
theorem rows_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e4, e5⟩ := idx0 t
  refine ⟨t, flush0_2 t, ?_⟩
  rw [mem_rows]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-- The output array after the region is x, everywhere. -/
theorem arr0_2_eq (c : Dev nD) : (dat0 V c).arrAt 2 cfg0.N = xArr V c :=
  (dat0 V c).arrAt_eq_of_cover 2 (xArr V c) (fun t _ => flushed0_2_eq V c t) rows_cover

end

end Val0

/-- Region 0's output array read at (r, q): the entry (r, q) of heat · W. -/
theorem arr0_2 (V : (c : Dev nD) → (b : Ref sig .tc) → Buf (Elt Ideal) ((c : Thread nD τ).loc b)) (c : Dev nD) (r : Fin 100000) (q : Fin 128) :
    (dat0 (F := Ideal) V c).arrAt 2 cfg0.N (ValueIdx.ix2 r q) = Cert.Spec.xmat (V c main_arg0) (V c main_arg4) r q :=
  (congrFun (Val0.arr0_2_eq V c) (ix2 r q)).trans rfl

end Cert.KernelIdeal.Hand

end
-- ==== Proof.Val1.lean ====
/-
  Region 1's three output arrays, read at an index.

  At every grid point t (0 ≤ t < 50) the region reads rows 2000·t … 2000·t + 1999 of agg, the bias row b and the
  slope a, and writes the same rows of h, where h (r, q) = ramp_a (agg (r, q) + b q). Beside that it keeps two
  1×128 rows between the points: zeroed at the first point, each point adds to them, column by column, the sum over
  the block's 2000 rows of h and of h². So after point n the rows hold the sums of h and of h² over rows
  0 … 2000·(n + 1) − 1 (by induction on n), and after the last point, n = 49, the sums over all 100000 rows. Only the
  last point copies the two rows out, each into a 1×128 array whose one block is the whole array.

  Sums here are sums in the commutative monoid of the extended reals: splitting a sum over rows into consecutive
  stretches needs no finiteness.
-/
import proofs.«413316_j77618648973416_1_alg».proof.Proof.R1Defs
import proofs.«413316_j77618648973416_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's arithmetic at an index -/

/-- The zero offsets, however spelt. -/
theorem hz2 : (![0, 0] : Fin 2 → Nat) = fun _ => 0 := funext fun a => by fin_cases a <;> rfl

/-- The slope cell's one entry. -/
theorem extract00 (x2 : Vec Ideal S1x1 .f32) : extractAt ![0, 0] x2 inpos_S1x1_p0_0 = x2 (ix2 (0 : Fin 1) (0 : Fin 1)) := by
  unfold extractAt
  congr 1
  funext a
  match a with
  | ⟨0, _⟩ => rfl
  | ⟨1, _⟩ => rfl

/-- h at an index of a block. -/
theorem pay3_apply (x0 : Vec Ideal S2000x128 .f32) (x1 : Vec Ideal S1x128 .f32) (x2 : Vec Ideal S1x1 .f32)
    (j : Fin 2000) (q : Fin 128) :
    k1_pay3 x0 x1 x2 (ix2 j q) = Cert.Spec.ramp (x2 (ix2 (0 : Fin 1) (0 : Fin 1))) (x0 (ix2 j q) + x1 (ix2 (0 : Fin 1) q)) := by
  unfold k1_pay3
  simp only [select_apply, cmpf_apply, mulf_apply, addf_apply, broadcast_apply, shapeCast_self]
  rw [broadcastTo_1b_ab_apply, extract00]
  unfold Cert.Spec.ramp Scalar.select
  rw [Ideal.cmpf_def, Ideal.ofBits_def, Ideal.ofBits_zero_f32]

/-- A column sum of a 2000×128 block, read at a column. -/
theorem colsum_apply (v : FVec Ideal S2000x128 .f32) (hφ : FKind.Formats .f32)
    (hacc : (0x00000000#32 : BitVec 32) = FKind.add.neutral .f32 hφ) (q : Fin 128) :
    multiReduction .add [0] S128 v 0x00000000#32 reduces_S2000x128_S128 hφ hacc (ix1 q) = ∑ j : Fin 2000, v (ix2 j q) := by
  refine (Ideal.multiReduction_add_single v 0x00000000#32 reduces_S2000x128_S128 hφ hacc (ix1 q)).trans ?_
  refine Finset.sum_congr rfl fun k _ => congrArg v ?_
  funext a
  match a with
  | ⟨0, _⟩ => rfl
  | ⟨1, _⟩ => rfl

/-- The sum row a point stores, at a column: the row it loaded plus the block's column sum of h. -/
theorem pay4_apply (x0 : Vec Ideal S2000x128 .f32) (x1 : Vec Ideal S1x128 .f32) (x2 : Vec Ideal S1x1 .f32)
    (s : Vec Ideal S1x128 .f32) (q : Fin 128) :
    k1_pay4 x0 x1 x2 s (ix2 (0 : Fin 1) q) = s (ix2 (0 : Fin 1) q)
      + ∑ j : Fin 2000, Cert.Spec.ramp (x2 (ix2 (0 : Fin 1) (0 : Fin 1))) (x0 (ix2 j q) + x1 (ix2 (0 : Fin 1) q)) := by
  unfold k1_pay4
  simp only [shapeCast_self, addf_apply]
  rw [shapeCast_a_1a_apply]
  refine congrArg (s (ix2 (0 : Fin 1) q) + ·) ?_
  refine (colsum_apply _ _ _ q).trans ?_
  exact Finset.sum_congr rfl fun j _ => pay3_apply x0 x1 x2 j q

/-- The sum-of-squares row a point stores, at a column: the row it loaded plus the block's column sum of h². -/
theorem pay5_apply (x0 : Vec Ideal S2000x128 .f32) (x1 : Vec Ideal S1x128 .f32) (x2 : Vec Ideal S1x1 .f32)
    (s : Vec Ideal S1x128 .f32) (q : Fin 128) :
    k1_pay5 x0 x1 x2 s (ix2 (0 : Fin 1) q) = s (ix2 (0 : Fin 1) q)
      + ∑ j : Fin 2000, Cert.Spec.ramp (x2 (ix2 (0 : Fin 1) (0 : Fin 1))) (x0 (ix2 j q) + x1 (ix2 (0 : Fin 1) q))
          * Cert.Spec.ramp (x2 (ix2 (0 : Fin 1) (0 : Fin 1))) (x0 (ix2 j q) + x1 (ix2 (0 : Fin 1) q)) := by
  unfold k1_pay5
  simp only [shapeCast_self, addf_apply]
  rw [shapeCast_a_1a_apply]
  refine congrArg (s (ix2 (0 : Fin 1) q) + ·) ?_
  refine (colsum_apply _ _ _ q).trans ?_
  refine Finset.sum_congr rfl fun j _ => ?_
  rw [mulf_apply, pay3_apply]

/-! ## The blocks a point reads -/

section
variable (V : (c : Dev nD) → (b : Ref sig .tc) → Buf (Elt Ideal) ((c : Thread nD τ).loc b))

/-- h as region 1 computes it from the arrays it is entered with. -/
abbrev hK (c : Dev nD) : Fin 100000 → Fin 128 → EReal :=
  Cert.Spec.hval (V c main_v7) (fun q => V c main_v8 (ValueIdx.ix2 (0 : Fin 1) q)) (V c main_v9 (ValueIdx.ix2 (0 : Fin 1) (0 : Fin 1)))

/-- The three input blocks at a point, at their literal types. -/
abbrev aggBlk (c : Dev nD) (t : Fin cfg1.N) : Vec Ideal S2000x128 .f32 := iblk1 V c 0 t
abbrev biasBlk (c : Dev nD) (t : Fin cfg1.N) : Vec Ideal S1x128 .f32 := iblk1 V c 1 t
abbrev slopeBlk (c : Dev nD) (t : Fin cfg1.N) : Vec Ideal S1x1 .f32 := iblk1 V c 2 t

/-- The index maps of region 1, decided over its grid: the two row-block windows sit at block t, the others at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row j of the agg block at point t is row 2000·t + j of the array. -/
theorem aggBlk_apply (c : Dev nD) (t : Fin cfg1.N) (j : Fin 2000) (q : Fin 128) (r : Fin 100000)
    (hr : r.val = 2000 * t.val + j.val) :
    aggBlk V c t (ix2 j q) = V c main_v7 (ix2 r q) := by
  obtain ⟨e0, e1, -⟩ := idx_facts1 t
  unfold aggBlk iblk1
  rw [View.read_apply]
  show V c main_v7 _ = V c main_v7 _
  congr 1
  funext a
  apply Fin.ext
  match a with
  | ⟨0, _⟩ => show win1_0.index t (0 : Fin 2) * 2000 + 1 * j.val = r.val; rw [e0, hr]; omega
  | ⟨1, _⟩ => show win1_0.index t (1 : Fin 2) * 128 + 1 * q.val = q.val; rw [e1]; omega

/-- The bias block at any point is the bias row. -/
theorem biasBlk_apply (c : Dev nD) (t : Fin cfg1.N) (q : Fin 128) :
    biasBlk V c t (ix2 (0 : Fin 1) q) = V c main_v8 (ix2 (0 : Fin 1) q) := by
  obtain ⟨-, -, e0, e1, -⟩ := idx_facts1 t
  unfold biasBlk iblk1
  rw [View.read_apply]
  show V c main_v8 _ = V c main_v8 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The slope block at any point is the slope cell. -/
theorem slopeBlk_apply (c : Dev nD) (t : Fin cfg1.N) :
    slopeBlk V c t (ix2 (0 : Fin 1) (0 : Fin 1)) = V c main_v9 (ix2 (0 : Fin 1) (0 : Fin 1)) := by
  obtain ⟨-, -, -, -, e0, e1, -⟩ := idx_facts1 t
  unfold slopeBlk iblk1
  rw [View.read_apply]
  show V c main_v9 _ = V c main_v9 _
  congr 1
  funext a
  apply Fin.ext
  match a with
  | ⟨0, _⟩ => show win1_2.index t (0 : Fin 2) * 1 + 1 * 0 = 0; rw [e0]
  | ⟨1, _⟩ => show win1_2.index t (1 : Fin 2) * 1 + 1 * 0 = 0; rw [e1]

end

/-! ## One point's update of the two rows -/

/-- One point's update of the sum row, at a column: what it held plus the block's column sum of h. -/
theorem step7_apply (x0 : Vec Ideal S2000x128 .f32) (x1 : Vec Ideal S1x128 .f32) (x2 : Vec Ideal S1x1 .f32)
    (s : Vec Ideal S1x128 .f32) (q : Fin 128) :
    step7 x0 x1 x2 s (ix2 (0 : Fin 1) q) = s (ix2 (0 : Fin 1) q)
      + ∑ j : Fin 2000, Cert.Spec.ramp (x2 (ix2 (0 : Fin 1) (0 : Fin 1))) (x0 (ix2 j q) + x1 (ix2 (0 : Fin 1) q)) := by
  unfold step7
  rw [View.canon_unit_zero hz2]
  simp only [View.ld_unit_zero (S := S2000x128) hz2, View.ld_unit_zero (S := S1x128) hz2, View.ld_unit_zero (S := S1x1) hz2]
  exact pay4_apply x0 x1 x2 s q

/-- One point's update of the sum-of-squares row, at a column. -/
theorem step8_apply (x0 : Vec Ideal S2000x128 .f32) (x1 : Vec Ideal S1x128 .f32) (x2 : Vec Ideal S1x1 .f32)
    (s : Vec Ideal S1x128 .f32) (q : Fin 128) :
    step8 x0 x1 x2 s (ix2 (0 : Fin 1) q) = s (ix2 (0 : Fin 1) q)
      + ∑ j : Fin 2000, Cert.Spec.ramp (x2 (ix2 (0 : Fin 1) (0 : Fin 1))) (x0 (ix2 j q) + x1 (ix2 (0 : Fin 1) q))
          * Cert.Spec.ramp (x2 (ix2 (0 : Fin 1) (0 : Fin 1))) (x0 (ix2 j q) + x1 (ix2 (0 : Fin 1) q)) := by
  unfold step8
  rw [View.canon_unit_zero hz2]
  simp only [View.ld_unit_zero (S := S2000x128) hz2, View.ld_unit_zero (S := S1x128) hz2, View.ld_unit_zero (S := S1x1) hz2]
  exact pay5_apply x0 x1 x2 s q

/-- The zeroed rows hold zero. -/
theorem z7_apply (q : Fin 128) : (z7 (F := Ideal)) (ix2 (0 : Fin 1) q) = 0 := by
  unfold z7
  rw [View.canon_unit_zero hz2]
  unfold k1_pay1
  simp only [shapeCast_self, broadcast_apply]
  exact Ideal.ofBits_zero_f32
/-- Likewise the zeroed sum-of-squares row. -/
theorem z8_apply (q : Fin 128) : (z8 (F := Ideal)) (ix2 (0 : Fin 1) q) = 0 := by
  unfold z8
  rw [View.canon_unit_zero hz2]
  unfold k1_pay2
  simp only [shapeCast_self, broadcast_apply]
  exact Ideal.ofBits_zero_f32

/-- A 1×128 output at the last point is the accumulator row. -/
theorem out1_s_eq (s : Vec Ideal S1x128 .f32) : out1_s s = s := by
  unfold out1_s
  rw [View.canon_unit_zero hz2, View.ld_unit_zero (S := S1x128) hz2]

/-! ## The two rows after point n -/

section
variable (V : (c : Dev nD) → (b : Ref sig .tc) → Buf (Elt Ideal) ((c : Thread nD τ).loc b))

/-- Column q of h, continued by zero past the last row: the summand of the running sums. -/
def hcol (c : Dev nD) (q : Fin 128) (r : ℕ) : EReal := if h : r < 100000 then hK V c ⟨r, h⟩ q else 0

/-- h at row 2000·t + j, read off the blocks at point t. -/
theorem hblk_apply (c : Dev nD) (t : Fin cfg1.N) (j : Fin 2000) (q : Fin 128) :
    Cert.Spec.ramp (slopeBlk V c t (ix2 (0 : Fin 1) (0 : Fin 1))) (aggBlk V c t (ix2 j q) + biasBlk V c t (ix2 (0 : Fin 1) q))
      = hcol V c q (2000 * t.val + j.val) := by
  have hN : cfg1.N = 50 := N_1
  have ht : t.val < 50 := hN ▸ t.isLt
  have hj : j.val < 2000 := j.isLt
  have hlt : 2000 * t.val + j.val < 100000 := by omega
  unfold hcol
  rw [dif_pos hlt, aggBlk_apply V c t j q ⟨2000 * t.val + j.val, hlt⟩ rfl, biasBlk_apply V c t q, slopeBlk_apply V c t]
  rfl

/-- The block's column sum of h at point t is the sum of the column over rows 2000·t … 2000·t + 1999. -/
theorem blocksum (c : Dev nD) (t : Fin cfg1.N) (q : Fin 128) :
    ∑ j : Fin 2000, Cert.Spec.ramp (slopeBlk V c t (ix2 (0 : Fin 1) (0 : Fin 1))) (aggBlk V c t (ix2 j q) + biasBlk V c t (ix2 (0 : Fin 1) q))
      = ∑ j ∈ Finset.range 2000, hcol V c q (2000 * t.val + j) := by
  rw [Finset.sum_range]
  exact Finset.sum_congr rfl fun j _ => hblk_apply V c t j q

/-- Likewise for the squares. -/
theorem blocksumSq (c : Dev nD) (t : Fin cfg1.N) (q : Fin 128) :
    ∑ j : Fin 2000, Cert.Spec.ramp (slopeBlk V c t (ix2 (0 : Fin 1) (0 : Fin 1))) (aggBlk V c t (ix2 j q) + biasBlk V c t (ix2 (0 : Fin 1) q))
       * Cert.Spec.ramp (slopeBlk V c t (ix2 (0 : Fin 1) (0 : Fin 1))) (aggBlk V c t (ix2 j q) + biasBlk V c t (ix2 (0 : Fin 1) q))
      = ∑ j ∈ Finset.range 2000, hcol V c q (2000 * t.val + j) * hcol V c q (2000 * t.val + j) := by
  rw [Finset.sum_range]
  exact Finset.sum_congr rfl fun j _ => by rw [hblk_apply V c t j q]

/-- After point n the sum row holds, at column q, the sum of h's column over the rows of blocks 0 … n. -/
theorem acc7 (c : Dev nD) (q : Fin 128) : ∀ (n : ℕ) (hn : n < cfg1.N),
    (scAt1 V c n hn).1 (ix2 (0 : Fin 1) q) = ∑ r ∈ Finset.range (2000 * (n + 1)), hcol V c q r
  | 0, hn => by
    rw [scAt1_zero]
    show step7 (aggBlk V c ⟨0, hn⟩) (biasBlk V c ⟨0, hn⟩) (slopeBlk V c ⟨0, hn⟩) z7 (ix2 (0 : Fin 1) q) = _
    rw [step7_apply, z7_apply, zero_add, blocksum V c ⟨0, hn⟩ q]
    refine Finset.sum_congr rfl fun j _ => ?_
    show hcol V c q (2000 * 0 + j) = _
    rw [Nat.mul_zero, Nat.zero_add]
  | n + 1, hn => by
    rw [scAt1_succ]
    show step7 (aggBlk V c ⟨n + 1, hn⟩) (biasBlk V c ⟨n + 1, hn⟩) (slopeBlk V c ⟨n + 1, hn⟩) (scAt1 V c n (Nat.lt_of_succ_lt hn)).1 (ix2 (0 : Fin 1) q) = _
    rw [step7_apply, acc7 c q n (Nat.lt_of_succ_lt hn), blocksum V c ⟨n + 1, hn⟩ q,
      show 2000 * (n + 1 + 1) = 2000 * (n + 1) + 2000 from by omega, Finset.sum_range_add]

/-- And the sum-of-squares row the sum of the squares. -/
theorem acc8 (c : Dev nD) (q : Fin 128) : ∀ (n : ℕ) (hn : n < cfg1.N),
    (scAt1 V c n hn).2 (ix2 (0 : Fin 1) q) = ∑ r ∈ Finset.range (2000 * (n + 1)), hcol V c q r * hcol V c q r
  | 0, hn => by
    rw [scAt1_zero]
    show step8 (aggBlk V c ⟨0, hn⟩) (biasBlk V c ⟨0, hn⟩) (slopeBlk V c ⟨0, hn⟩) z8 (ix2 (0 : Fin 1) q) = _
    rw [step8_apply, z8_apply, zero_add, blocksumSq V c ⟨0, hn⟩ q]
    refine Finset.sum_congr rfl fun j _ => ?_
    show hcol V c q (2000 * 0 + j) * hcol V c q (2000 * 0 + j) = _
    rw [Nat.mul_zero, Nat.zero_add]
  | n + 1, hn => by
    rw [scAt1_succ]
    show step8 (aggBlk V c ⟨n + 1, hn⟩) (biasBlk V c ⟨n + 1, hn⟩) (slopeBlk V c ⟨n + 1, hn⟩) (scAt1 V c n (Nat.lt_of_succ_lt hn)).2 (ix2 (0 : Fin 1) q) = _
    rw [step8_apply, acc8 c q n (Nat.lt_of_succ_lt hn), blocksumSq V c ⟨n + 1, hn⟩ q,
      show 2000 * (n + 1 + 1) = 2000 * (n + 1) + 2000 from by omega, Finset.sum_range_add]

end

/-! ## The h array -/

section
variable (V : (c : Dev nD) → (b : Ref sig .tc) → Buf (Elt Ideal) ((c : Thread nD τ).loc b))

/-- The h block a point stores, at an index. -/
theorem out1_3_apply (x0 : Vec Ideal S2000x128 .f32) (x1 : Vec Ideal S1x128 .f32) (x2 : Vec Ideal S1x1 .f32)
    (j : Fin 2000) (q : Fin 128) :
    out1_3 x0 x1 x2 (ix2 j q) = Cert.Spec.ramp (x2 (ix2 (0 : Fin 1) (0 : Fin 1))) (x0 (ix2 j q) + x1 (ix2 (0 : Fin 1) q)) := by
  unfold out1_3
  rw [View.canon_unit_zero hz2]
  simp only [View.ld_unit_zero (S := S2000x128) hz2, View.ld_unit_zero (S := S1x128) hz2, View.ld_unit_zero (S := S1x1) hz2]
  exact pay3_apply x0 x1 x2 j q

/-- h as one array. -/
def hArr (c : Dev nD) : S100000x128.Idx → EReal := fun i => hK V c (i 0) (i 1)

/-- What point t writes back of the h window is block t of h. -/
theorem flushed1_3 (c : Dev nD) (t : Fin cfg1.N) :
    (dat1 V c).flushed 3 t = ((cfg1.win 3).blk t).view.read (Elt Ideal) (hArr V c) := by
  have hN : cfg1.N = 50 := N_1
  have ht : t.val < 50 := hN ▸ t.isLt
  obtain ⟨-, -, -, -, -, -, e0, e1, -⟩ := idx_facts1 t
  show (cfg1.win 3).cut (grid1.coords t) ((dat1 V c).after 3 t) = _
  rw [after1_3]
  funext y
  have hy0 : (y 0).val < 2000 := (y 0).isLt
  have hy1 : (y 1).val < 128 := (y 1).isLt
  have hlt : 2000 * t.val + (y 0).val < 100000 := by omega
  have hx : (cfg1.win 3).xinj (grid1.coords t) y = ix2 (⟨(y 0).val, hy0⟩ : Fin 2000) (⟨(y 1).val, hy1⟩ : Fin 128) := by
    funext a
    match a with
    | ⟨0, _⟩ => rfl
    | ⟨1, _⟩ => rfl
  have he : ((cfg1.win 3).blk t).view.emb y = ix2 (⟨2000 * t.val + (y 0).val, hlt⟩ : Fin 100000) (⟨(y 1).val, hy1⟩ : Fin 128) := by
    funext a
    apply Fin.ext
    match a with
    | ⟨0, _⟩ => show win1_3.index t (0 : Fin 2) * 2000 + 1 * (y 0).val = 2000 * t.val + (y 0).val; rw [e0]; omega
    | ⟨1, _⟩ => show win1_3.index t (1 : Fin 2) * 128 + 1 * (y 1).val = (y 1).val; rw [e1]; omega
  show out1_3 (aggBlk V c t) (biasBlk V c t) (slopeBlk V c t) ((cfg1.win 3).xinj (grid1.coords t) y)
    = hArr V c (((cfg1.win 3).blk t).view.emb y)
  rw [hx, he, out1_3_apply, aggBlk_apply V c t ⟨(y 0).val, hy0⟩ ⟨(y 1).val, hy1⟩ ⟨2000 * t.val + (y 0).val, hlt⟩ rfl, biasBlk_apply, slopeBlk_apply]
  rfl

/-- An index of the h array is in point t's block iff its row is among the block's rows. -/
theorem mem_blk1_3 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v10_0).slice (win1_3.rect t)).set ↔ _
  rw [View.set_slice_whole, Rect.mem_set_unit]
  exact Iff.rfl

/-- Row r is in the block of point r / 2000. -/
theorem covered1_3 (i : S100000x128.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, e0, e1, -⟩ := idx_facts1 t
  refine ⟨t, flush1_3 t, ?_⟩
  rw [mem_blk1_3]
  intro a
  match a with
  | ⟨0, _⟩ => show win1_3.index t (0 : Fin 2) * 2000 ≤ (i 0).val ∧ (i 0).val < win1_3.index t (0 : Fin 2) * 2000 + 2000; rw [e0, ht]; omega
  | ⟨1, _⟩ => show win1_3.index t (1 : Fin 2) * 128 ≤ (i 1).val ∧ (i 1).val < win1_3.index t (1 : Fin 2) * 128 + 128; rw [e1]; omega

/-- The h array after region 1. -/
theorem arr1_3 (c : Dev nD) (r : Fin 100000) (q : Fin 128) :
    (dat1 (F := Ideal) V c).arrAt 3 cfg1.N (ValueIdx.ix2 r q) = hK V c r q :=
  congrFun ((dat1 V c).arrAt_eq_of_cover 3 (hArr V c) (fun t _ => flushed1_3 V c t) covered1_3) (ix2 r q)

end

/-! ## The two column-sum arrays -/

section
variable (V : (c : Dev nD) → (b : Ref sig .tc) → Buf (Elt Ideal) ((c : Thread nD τ).loc b))

/-- The last point. -/
theorem last_lt : 49 < cfg1.N := by rw [show cfg1.N = 50 from N_1]; omega

/-- The two accumulator rows after the last point. -/
abbrev sumRow (c : Dev nD) : Vec Ideal S1x128 .f32 := (scAt1 V c 49 last_lt).1
abbrev sqRow (c : Dev nD) : Vec Ideal S1x128 .f32 := (scAt1 V c 49 last_lt).2

/-- The one write-back of the column-sum window, at the last point, writes the sum row: its one block is the array. -/
theorem flushed1_4 (c : Dev nD) (t : Fin cfg1.N) (hf : (cfg1.win 4).flush t = true) :
    (dat1 V c).flushed 4 t = ((cfg1.win 4).blk t).view.read (Elt Ideal) (sumRow V c) := by
  have hN : cfg1.N = 50 := N_1
  have h49 : t.val = 49 := by have := (flush1_4 t).mp hf; have := t.isLt; omega
  obtain rfl : t = ⟨49, last_lt⟩ := Fin.ext h49
  obtain ⟨-, -, -, -, -, -, -, -, e0, e1, -⟩ := idx_facts1 ⟨49, last_lt⟩
  show (cfg1.win 4).cut (grid1.coords ⟨49, last_lt⟩) ((dat1 V c).after 4 ⟨49, last_lt⟩) = _
  rw [after1_4, out1_s_eq]
  funext y
  show sumRow V c ((cfg1.win 4).xinj (grid1.coords ⟨49, last_lt⟩) y) = sumRow V c (((cfg1.win 4).blk ⟨49, last_lt⟩).view.emb y)
  congr 1
  funext a
  apply Fin.ext
  match a with
  | ⟨0, _⟩ => show (y 0).val = win1_4.index ⟨49, last_lt⟩ (0 : Fin 2) * 1 + 1 * (y 0).val; rw [e0]; omega
  | ⟨1, _⟩ => show (y 1).val = win1_4.index ⟨49, last_lt⟩ (1 : Fin 2) * 128 + 1 * (y 1).val; rw [e1]; omega

/-- Likewise the sum-of-squares window. -/
theorem flushed1_5 (c : Dev nD) (t : Fin cfg1.N) (hf : (cfg1.win 5).flush t = true) :
    (dat1 V c).flushed 5 t = ((cfg1.win 5).blk t).view.read (Elt Ideal) (sqRow V c) := by
  have hN : cfg1.N = 50 := N_1
  have h49 : t.val = 49 := by have := (flush1_5 t).mp hf; have := t.isLt; omega
  obtain rfl : t = ⟨49, last_lt⟩ := Fin.ext h49
  obtain ⟨-, -, -, -, -, -, -, -, -, -, e0, e1⟩ := idx_facts1 ⟨49, last_lt⟩
  show (cfg1.win 5).cut (grid1.coords ⟨49, last_lt⟩) ((dat1 V c).after 5 ⟨49, last_lt⟩) = _
  rw [after1_5, out1_s_eq]
  funext y
  show sqRow V c ((cfg1.win 5).xinj (grid1.coords ⟨49, last_lt⟩) y) = sqRow V c (((cfg1.win 5).blk ⟨49, last_lt⟩).view.emb y)
  congr 1
  funext a
  apply Fin.ext
  match a with
  | ⟨0, _⟩ => show (y 0).val = win1_5.index ⟨49, last_lt⟩ (0 : Fin 2) * 1 + 1 * (y 0).val; rw [e0]; omega
  | ⟨1, _⟩ => show (y 1).val = win1_5.index ⟨49, last_lt⟩ (1 : Fin 2) * 128 + 1 * (y 1).val; rw [e1]; omega

/-- The last point's block of either 1×128 output is the whole array. -/
theorem covered1_4 (i : S1x128.Idx) :
    ∃ t : Fin cfg1.N, (cfg1.win 4).flush t = true ∧ i ∈ ((cfg1.win 4).blk t).view.set := by
  have hi0 : (i 0).val < 1 := (i 0).isLt
  have hi1 : (i 1).val < 128 := (i 1).isLt
  obtain ⟨-, -, -, -, -, -, -, -, e0, e1, -⟩ := idx_facts1 ⟨49, last_lt⟩
  refine ⟨⟨49, last_lt⟩, (flush1_4 _).mpr rfl, ?_⟩
  show i ∈ ((View.whole main_v10_1).slice (win1_4.rect ⟨49, last_lt⟩)).set
  rw [View.set_slice_whole, Rect.mem_set_unit]
  intro a
  match a with
  | ⟨0, _⟩ => show win1_4.index ⟨49, last_lt⟩ (0 : Fin 2) * 1 ≤ (i 0).val ∧ (i 0).val < win1_4.index ⟨49, last_lt⟩ (0 : Fin 2) * 1 + 1; rw [e0]; omega
  | ⟨1, _⟩ => show win1_4.index ⟨49, last_lt⟩ (1 : Fin 2) * 128 ≤ (i 1).val ∧ (i 1).val < win1_4.index ⟨49, last_lt⟩ (1 : Fin 2) * 128 + 128; rw [e1]; omega

/-- Likewise. -/
theorem covered1_5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  obtain ⟨-, -, -, -, -, -, -, -, -, -, e0, e1⟩ := idx_facts1 ⟨49, last_lt⟩
  refine ⟨⟨49, last_lt⟩, (flush1_5 _).mpr rfl, ?_⟩
  show i ∈ ((View.whole main_v10_2).slice (win1_5.rect ⟨49, last_lt⟩)).set
  rw [View.set_slice_whole, Rect.mem_set_unit]
  intro a
  match a with
  | ⟨0, _⟩ => show win1_5.index ⟨49, last_lt⟩ (0 : Fin 2) * 1 ≤ (i 0).val ∧ (i 0).val < win1_5.index ⟨49, last_lt⟩ (0 : Fin 2) * 1 + 1; rw [e0]; omega
  | ⟨1, _⟩ => show win1_5.index ⟨49, last_lt⟩ (1 : Fin 2) * 128 ≤ (i 1).val ∧ (i 1).val < win1_5.index ⟨49, last_lt⟩ (1 : Fin 2) * 128 + 128; rw [e1]; omega

/-- The sum over all rows below 100000 of the continued column is the column sum. -/
theorem sum_hcol (c : Dev nD) (q : Fin 128) :
    ∑ r ∈ Finset.range (2000 * (49 + 1)), hcol V c q r = Cert.Spec.colSum (hK V c) q := by
  unfold Cert.Spec.colSum
  rw [show 2000 * (49 + 1) = 100000 from rfl, Finset.sum_range]
  refine Finset.sum_congr rfl fun r _ => ?_
  unfold hcol
  rw [dif_pos r.isLt]
/-- Likewise for the squares. -/
theorem sum_hcol_sq (c : Dev nD) (q : Fin 128) :
    ∑ r ∈ Finset.range (2000 * (49 + 1)), hcol V c q r * hcol V c q r = Cert.Spec.colSumSq (hK V c) q := by
  unfold Cert.Spec.colSumSq
  rw [show 2000 * (49 + 1) = 100000 from rfl, Finset.sum_range]
  refine Finset.sum_congr rfl fun r _ => ?_
  unfold hcol
  rw [dif_pos r.isLt]

/-- The column sums of h after region 1. -/
theorem arr1_4 (c : Dev nD) (q : Fin 128) :
    (dat1 (F := Ideal) V c).arrAt 4 cfg1.N (ValueIdx.ix2 (0 : Fin 1) q) = Cert.Spec.colSum (hK V c) q :=
  (congrFun ((dat1 V c).arrAt_eq_of_cover 4 (sumRow V c) (flushed1_4 V c) covered1_4) (ix2 (0 : Fin 1) q)).trans
    ((acc7 V c q 49 last_lt).trans (sum_hcol V c q))

/-- The column sums of h² after region 1. -/
theorem arr1_5 (c : Dev nD) (q : Fin 128) :
    (dat1 (F := Ideal) V c).arrAt 5 cfg1.N (ValueIdx.ix2 (0 : Fin 1) q) = Cert.Spec.colSumSq (hK V c) q :=
  (congrFun ((dat1 V c).arrAt_eq_of_cover 5 (sqRow V c) (flushed1_5 V c) covered1_5) (ix2 (0 : Fin 1) q)).trans
    ((acc8 V c q 49 last_lt).trans (sum_hcol_sq V c q))

end

end Cert.KernelIdeal.Hand

end
-- ==== Proof.Val2.lean ====
/-
  Region 2's output array read at an index.

  At grid point t the body stores, over its whole 2000-row block, a pointwise function of the h block and of the five
  small operands (the mean, variance, scale and shift rows and the slope cell): at row p, column q of the block,
    ramp_a (((h − mean q) · rsqrt (var q + ε)) · γ q + β q),   ramp_a z = z if z ≥ 0, a · z otherwise.
  The h block and the output block at point t are rows 2000·t … 2000·t + 1999 of their arrays; each small operand's
  block is its whole array at every point. So what point t writes back is block t of ONE function of the arrays the
  region is entered with, and the 50 blocks tile the 100000 rows (row r lies in the block of point r / 2000): after the
  region the output array is that function, entry by entry.
-/
import proofs.«413316_j77618648973416_1_alg».proof.Proof.R2Defs
import proofs.«413316_j77618648973416_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Val2

/-- A reciprocal square root read at an index is the element's. -/
theorem rsqrt_apply' {s : Shape} {φ : FTy} (a : FVec Ideal s φ) (i : s.Idx) : rsqrt a i = Ideal.rsqrt (a i) := rfl

/-- The one cell of a 1×1 block. -/
theorem extract_cell (x5 : Vec Ideal S1x1 .f32) : extractAt ![0, 0] x5 inpos_S1x1_p0_0 = x5 (ix2 (0 : Fin 1) (0 : Fin 1)) := by
  unfold extractAt
  exact congrArg x5 (funext fun a => Fin.ext (by match a with | ⟨0, _⟩ => rfl | ⟨1, _⟩ => rfl))

/-- One entry of the result from the h entry hv and the five small operands read at column q:
    ramp_a (((hv − mean q) · rsqrt (var q + ε)) · γ q + β q). -/
def entry (hv : EReal) (mean var gam bet : S1x128.Idx → EReal) (a : S1x1.Idx → EReal) (q : Fin 128) : EReal :=
  Cert.Spec.ramp (a (ix2 (0 : Fin 1) (0 : Fin 1)))
    (((hv - mean (ix2 (0 : Fin 1) q)) * Ideal.rsqrt (var (ix2 (0 : Fin 1) q) + Ideal.ofBits .f32 0x3727C5AC#32))
      * gam (ix2 (0 : Fin 1) q) + bet (ix2 (0 : Fin 1) q))

/-- The body's arithmetic at an index of the block: every operation is pointwise, the row operands broadcast along the
    rows and the slope along both axes; the comparison against the splat of zero and the select are the ramp. -/
theorem pay2_apply (x0 : Vec Ideal S2000x128 .f32) (x1 x2 x3 x4 : Vec Ideal S1x128 .f32) (x5 : Vec Ideal S1x1 .f32)
    (p : Fin 2000) (q : Fin 128) :
    k2_pay1 x0 x1 x2 x3 x4 x5 (ix2 p q) = entry (x0 (ix2 p q)) x1 x2 x3 x4 x5 q := by
  unfold k2_pay1 entry
  simp only [shapeCast_self]
  simp only [select_apply, cmpf_apply, mulf_apply, addf_apply, subf_apply, broadcast_apply, broadcastTo_1b_ab_apply, rsqrt_apply']
  simp only [Cert.Spec.ramp, Scalar.select, Ideal.cmpf_def, Ideal.ofBits_def, Ideal.ofBits_zero_f32]
  rw [extract_cell x5]

/-- The zero offsets of a whole-buffer rectangle, as the constant function. -/
theorem hz2 : (![0, 0] : Fin 2 → Nat) = fun _ => 0 := funext fun a => by fin_cases a <;> rfl

/-- The stored block at an index: the one store covers the block, its loads read the whole buffers. -/
theorem out2_6_apply (x0 : Vec Ideal S2000x128 .f32) (x1 x2 x3 x4 : Vec Ideal S1x128 .f32) (x5 : Vec Ideal S1x1 .f32)
    (p : Fin 2000) (q : Fin 128) :
    out2_6 x0 x1 x2 x3 x4 x5 (ix2 p q) = entry (x0 (ix2 p q)) x1 x2 x3 x4 x5 q := by
  unfold out2_6
  rw [View.canon_unit_zero hz2]
  simp only [View.ld_unit_zero (S := S2000x128) hz2, View.ld_unit_zero (S := S1x128) hz2, View.ld_unit_zero (S := S1x1) hz2]
  exact pay2_apply x0 x1 x2 x3 x4 x5 p q

section
variable (V : (c : Dev nD) → (b : Ref sig .tc) → Buf (Elt Ideal) ((c : Thread nD τ).loc b))

/-- The index maps over the grid: the two row-block windows sit at block t, the five small windows at block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The h block at point t is rows 2000·t … 2000·t + 1999 of the h array. -/
theorem iblk2_0_apply (c : Dev nD) (t : Fin cfg2.N) (y : S2000x128.Idx) (k : S100000x128.Idx)
    (hk0 : (k 0).val = 2000 * t.val + (y 0).val) (hk1 : (k 1).val = (y 1).val) :
    (iblk2 V c 0 t : Vec Ideal S2000x128 .f32) y = (V c main_v10_0 : S100000x128.Idx → EReal) k := by
  obtain ⟨e0, e1, -⟩ := idx_facts2 t
  unfold iblk2
  rw [View.read_apply]
  show V c main_v10_0 _ = V c main_v10_0 _
  congr 1
  funext a
  apply Fin.ext
  match a with
  | ⟨0, _⟩ => show win2_0.index t 0 * 2000 + 1 * (y 0).val = (k 0).val; rw [e0, hk0]; omega
  | ⟨1, _⟩ => show win2_0.index t 1 * 128 + 1 * (y 1).val = (k 1).val; rw [e1, hk1]; omega

/-- Window 1's block is its whole array at every point. -/
theorem iblk2_1_eq (c : Dev nD) (t : Fin cfg2.N) :
    (iblk2 V c 1 t : Vec Ideal S1x128 .f32) = (V c main_v12 : S1x128.Idx → EReal) := by
  have e0 : win2_1.index t (0 : Fin 2) = 0 := (idx_facts2 t).2.2.1
  have e1 : win2_1.index t (1 : Fin 2) = 0 := (idx_facts2 t).2.2.2.1
  funext y
  unfold iblk2
  rw [View.read_apply]
  show V c main_v12 _ = V c main_v12 _
  congr 1
  funext a
  apply Fin.ext
  match a with
  | ⟨0, _⟩ => show win2_1.index t 0 * 1 + 1 * (y 0).val = (y 0).val; rw [e0]; omega
  | ⟨1, _⟩ => show win2_1.index t 1 * 128 + 1 * (y 1).val = (y 1).val; rw [e1]; omega

/-- Window 2's block is its whole array at every point. -/
theorem iblk2_2_eq (c : Dev nD) (t : Fin cfg2.N) :
    (iblk2 V c 2 t : Vec Ideal S1x128 .f32) = (V c main_v16 : S1x128.Idx → EReal) := by
  have e0 : win2_2.index t (0 : Fin 2) = 0 := (idx_facts2 t).2.2.2.2.1
  have e1 : win2_2.index t (1 : Fin 2) = 0 := (idx_facts2 t).2.2.2.2.2.1
  funext y
  unfold iblk2
  rw [View.read_apply]
  show V c main_v16 _ = V c main_v16 _
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- Window 3's block is its whole array at every point. -/
theorem iblk2_3_eq (c : Dev nD) (t : Fin cfg2.N) :
    (iblk2 V c 3 t : Vec Ideal S1x128 .f32) = (V c main_v17 : S1x128.Idx → EReal) := by
  have e0 : win2_3.index t (0 : Fin 2) = 0 := (idx_facts2 t).2.2.2.2.2.2.1
  have e1 : win2_3.index t (1 : Fin 2) = 0 := (idx_facts2 t).2.2.2.2.2.2.2.1
  funext y
  unfold iblk2
  rw [View.read_apply]
  show V c main_v17 _ = V c main_v17 _
  congr 1
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- Window 4's block is its whole array at every point. -/
theorem iblk2_4_eq (c : Dev nD) (t : Fin cfg2.N) :
    (iblk2 V c 4 t : Vec Ideal S1x128 .f32) = (V c main_v18 : S1x128.Idx → EReal) := by
  have e0 : win2_4.index t (0 : Fin 2) = 0 := (idx_facts2 t).2.2.2.2.2.2.2.2.1
  have e1 : win2_4.index t (1 : Fin 2) = 0 := (idx_facts2 t).2.2.2.2.2.2.2.2.2.1
  funext y
  unfold iblk2
  rw [View.read_apply]
  show V c main_v18 _ = V c main_v18 _
  congr 1
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- Window 5's block is its whole array at every point. -/
theorem iblk2_5_eq (c : Dev nD) (t : Fin cfg2.N) :
    (iblk2 V c 5 t : Vec Ideal S1x1 .f32) = (V c main_v19 : S1x1.Idx → EReal) := by
  have e0 : win2_5.index t (0 : Fin 2) = 0 := (idx_facts2 t).2.2.2.2.2.2.2.2.2.2.1
  have e1 : win2_5.index t (1 : Fin 2) = 0 := (idx_facts2 t).2.2.2.2.2.2.2.2.2.2.2.1
  funext y
  unfold iblk2
  rw [View.read_apply]
  show V c main_v19 _ = V c main_v19 _
  congr 1
  funext a
  apply Fin.ext
  match a with
  | ⟨0, _⟩ => show win2_5.index t 0 * 1 + 1 * (y 0).val = (y 0).val; rw [e0]; omega
  | ⟨1, _⟩ => show win2_5.index t 1 * 1 + 1 * (y 1).val = (y 1).val; rw [e1]; omega

/-- The normalised, scaled, shifted and ramped entry as a function of the output array's index. -/
def G2 (c : Dev nD) : S100000x128.Idx → EReal := fun i =>
  Cert.Spec.outv (fun r q => V c main_v10_0 (ix2 r q)) (fun q => V c main_v12 (ix2 (0 : Fin 1) q))
    (fun q => V c main_v16 (ix2 (0 : Fin 1) q)) (fun q => V c main_v17 (ix2 (0 : Fin 1) q))
    (fun q => V c main_v18 (ix2 (0 : Fin 1) q)) (Ideal.ofBits .f32 0x3727C5AC#32)
    (V c main_v19 (ix2 (0 : Fin 1) (0 : Fin 1))) (i 0) (i 1)

/-- That function at an index whose column is q. -/
theorem G2_apply (c : Dev nD) (k : S100000x128.Idx) (q : Fin 128) (hq : (k 1).val = q.val) :
    G2 V c k = entry (V c main_v10_0 k) (V c main_v12) (V c main_v16) (V c main_v17) (V c main_v18) (V c main_v19) q := by
  obtain ⟨r, q', rfl⟩ : ∃ (r : Fin 100000) (q' : Fin 128), k = ix2 r q' := ⟨k 0, k 1, eq_ix2 k⟩
  obtain rfl : q' = q := Fin.ext hq
  rfl

/-- What point t writes back is block t of that function. -/
theorem flushed2_6_eq (c : Dev nD) (t : Fin cfg2.N) :
    (dat2 V c).flushed 6 t = ((cfg2.win 6).blk t).view.read (Elt Ideal) (G2 V c) := by
  have e0 : win2_6.index t (0 : Fin 2) = t.val := (idx_facts2 t).2.2.2.2.2.2.2.2.2.2.2.2.1
  have e1 : win2_6.index t (1 : Fin 2) = 0 := (idx_facts2 t).2.2.2.2.2.2.2.2.2.2.2.2.2
  show (cfg2.win 6).cut (grid2.coords t) ((dat2 V c).after 6 t) = _
  rw [after2_6]
  funext j
  obtain ⟨p, q, rfl⟩ : ∃ (p : Fin 2000) (q : Fin 128), j = ix2 p q := ⟨j 0, j 1, eq_ix2 j⟩
  show out2_6 (iblk2 V c 0 t) (iblk2 V c 1 t) (iblk2 V c 2 t) (iblk2 V c 3 t) (iblk2 V c 4 t) (iblk2 V c 5 t) (ix2 p q)
    = G2 V c (((cfg2.win 6).blk t).view.emb (ix2 p q))
  have hk0 : ((((cfg2.win 6).blk t).view.emb (ix2 p q) : S100000x128.Idx) 0).val = 2000 * t.val + p.val := by
    show win2_6.index t 0 * 2000 + 1 * p.val = _; rw [e0]; omega
  have hk1 : ((((cfg2.win 6).blk t).view.emb (ix2 p q) : S100000x128.Idx) 1).val = q.val := by
    show win2_6.index t 1 * 128 + 1 * q.val = _; rw [e1]; omega
  rw [out2_6_apply, iblk2_1_eq, iblk2_2_eq, iblk2_3_eq, iblk2_4_eq, iblk2_5_eq,
    iblk2_0_apply V c t (ix2 p q) (((cfg2.win 6).blk t).view.emb (ix2 p q)) hk0 hk1]
  exact (G2_apply V c (((cfg2.win 6).blk t).view.emb (ix2 p q)) q hk1).symm

/-- An index of the output array is in point t's block iff each coordinate is in the block's range on its axis. -/
theorem mem_blk2_6 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v20).slice (win2_6.rect t)).set ↔ _
  rw [View.set_slice_whole, Rect.mem_set_unit]
  exact Iff.rfl

/-- Every row lies in the block of the point r / 2000. -/
theorem cover2_6_arr (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_6 _, ?_⟩
  rw [mem_blk2_6]
  have e0 := (idx_facts2 ⟨(i 0).val / 2000, by rw [hN]; omega⟩).2.2.2.2.2.2.2.2.2.2.2.2.1
  have e1 := (idx_facts2 ⟨(i 0).val / 2000, by rw [hN]; omega⟩).2.2.2.2.2.2.2.2.2.2.2.2.2
  intro a
  match a with
  | ⟨0, _⟩ =>
    show win2_6.index _ (0 : Fin 2) * 2000 ≤ (i 0).val ∧ (i 0).val < win2_6.index _ (0 : Fin 2) * 2000 + 2000
    rw [e0]; show (i 0).val / 2000 * 2000 ≤ (i 0).val ∧ (i 0).val < (i 0).val / 2000 * 2000 + 2000; omega
  | ⟨1, _⟩ =>
    show win2_6.index _ (1 : Fin 2) * 128 ≤ (i 1).val ∧ (i 1).val < win2_6.index _ (1 : Fin 2) * 128 + 128
    rw [e1]; omega

/-- The output array after the region is that function. -/
theorem final2_6 (c : Dev nD) : (dat2 V c).arrAt 6 cfg2.N = G2 V c :=
  (dat2 V c).arrAt_eq_of_cover 6 (G2 V c) (fun t _ => flushed2_6_eq V c t) cover2_6_arr

end

end Val2

/-- Region 2's output array at an index: the normalised, scaled, shifted, ramped h. -/
theorem arr2_6 (V : (c : Dev nD) → (b : Ref sig .tc) → Buf (Elt Ideal) ((c : Thread nD τ).loc b)) (c : Dev nD) (r : Fin 100000) (q : Fin 128) :
    (dat2 (F := Ideal) V c).arrAt 6 cfg2.N (ValueIdx.ix2 r q)
      = Cert.Spec.outv (fun r q => V c main_v10_0 (ValueIdx.ix2 r q)) (fun q => V c main_v12 (ValueIdx.ix2 (0 : Fin 1) q)) (fun q => V c main_v16 (ValueIdx.ix2 (0 : Fin 1) q))
          (fun q => V c main_v17 (ValueIdx.ix2 (0 : Fin 1) q)) (fun q => V c main_v18 (ValueIdx.ix2 (0 : Fin 1) q)) (Ideal.ofBits .f32 0x3727C5AC#32) (V c main_v19 (ValueIdx.ix2 (0 : Fin 1) (0 : Fin 1))) r q := by
  rw [Val2.final2_6 V c]
  rfl

end Cert.KernelIdeal.Hand

end
-- ==== Proof.HostK.lean ====
/-
  The kernel program's first two host stretches, read as values from ANY contents W of the buffers they start from.

  Between the first and the second kernel region the program takes rows of x = main_v0 at the edge sources (a negative
  index moved up by the table's height, an in-range mask, a row gather, a select against a row of NaN), scales them by
  the edge weights, and adds them up at the edge targets into zeros (main_v7); and it reshapes the bias and the first
  ramp's slope to a row (main_v8, main_v9). Under the range  -100000 ≤ src < 100000  every wrapped index lies in
  [0, 99999], so the mask is 1 everywhere and the select returns the gathered rows: main_v7 is aggK, the program's own
  operations with the gather unmasked.
-/
import proofs.«413316_j77618648973416_1_alg».proof.Proof.Gen.KernelIdeal.Launch
import Idealize.ShloMosaic.Lib.StableHlo.Run
import Idealize.ShloMosaic.Lib.ValueIdx
import Idealize.ShloMosaic.Lib.ValueLayout
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.ValueIdx

-- a reduction, a gather and a scatter are compared by their arguments, never unfolded: their unfoldings enumerate
-- the 1600000 positions
attribute [local irreducible] Host.reduce Host.gather Host.scatterAdd

variable (W : Valuation τ sig (Elt Ideal))

namespace HostK

/-! ## The first stretch, operation by operation

The program states this stretch through a module-local function, whose operations carry each buffer's type beside the
buffer; stated at the buffers themselves they are the same operations. -/

/-- The index wrap, the mask, the gather and the select of the first host stretch, each operation at its own buffers. -/
abbrev takeOps : List (HloOp τ sig (Elt Ideal)) :=
  [ StableHlo.nullary main_call0_c (constantI S_ 32 0#32),
    StableHlo.unary main_call0_c main_call0_v0 (broadcastInDim S1600000 ![] bcast_S_S1600000 : (⟨S_, .i32⟩ : BufTy).Contents (Elt Ideal) → (⟨S1600000, .i32⟩ : BufTy).Contents (Elt Ideal)),
    StableHlo.binary main_arg1 main_call0_v0 main_call0_v1 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_call0_c_0 (constantI S_ 32 100000#32),
    StableHlo.unary main_call0_c_0 main_call0_v2 (broadcastInDim S1600000 ![] bcast_S_S1600000 : (⟨S_, .i32⟩ : BufTy).Contents (Elt Ideal) → (⟨S1600000, .i32⟩ : BufTy).Contents (Elt Ideal)),
    StableHlo.binary main_arg1 main_call0_v2 main_call0_v3 (addi : (⟨S1600000, .i32⟩ : BufTy).Contents (Elt Ideal) → (⟨S1600000, .i32⟩ : BufTy).Contents (Elt Ideal) → (⟨S1600000, .i32⟩ : BufTy).Contents (Elt Ideal)),
    StableHlo.ternary main_call0_v1 main_call0_v3 main_arg1 main_call0_v4 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_call0_v4 main_call0_v5 (broadcastInDim S1600000x1 ![0] bcast_S1600000_S1600000x1_0 : (⟨S1600000, .i32⟩ : BufTy).Contents (Elt Ideal) → (⟨S1600000x1, .i32⟩ : BufTy).Contents (Elt Ideal)),
    StableHlo.nullary main_call0_c_1 (constantI S1 32 99999#32),
    StableHlo.nullary main_call0_c_2 (constantI S_ 32 0#32),
    StableHlo.unary main_call0_c_2 main_call0_v6 (broadcastInDim S1600000x1 ![] bcast_S_S1600000x1 : (⟨S_, .i32⟩ : BufTy).Contents (Elt Ideal) → (⟨S1600000x1, .i32⟩ : BufTy).Contents (Elt Ideal)),
    StableHlo.binary main_call0_v5 main_call0_v6 main_call0_v7 (cmpi .sge : (⟨S1600000x1, .i32⟩ : BufTy).Contents (Elt Ideal) → (⟨S1600000x1, .i32⟩ : BufTy).Contents (Elt Ideal) → (⟨S1600000x1, .i1⟩ : BufTy).Contents (Elt Ideal)),
    StableHlo.unary main_call0_c_1 main_call0_v8 (broadcastInDim S1x1 ![1] bcast_S1_S1x1_1 : (⟨S1, .i32⟩ : BufTy).Contents (Elt Ideal) → (⟨S1x1, .i32⟩ : BufTy).Contents (Elt Ideal)),
    StableHlo.unary main_call0_v8 main_call0_v9 (broadcastInDim S1600000x1 ![0, 1] bcast_S1x1_S1600000x1_0_1 : (⟨S1x1, .i32⟩ : BufTy).Contents (Elt Ideal) → (⟨S1600000x1, .i32⟩ : BufTy).Contents (Elt Ideal)),
    StableHlo.binary main_call0_v5 main_call0_v9 main_call0_v10 (cmpi .sle : (⟨S1600000x1, .i32⟩ : BufTy).Contents (Elt Ideal) → (⟨S1600000x1, .i32⟩ : BufTy).Contents (Elt Ideal) → (⟨S1600000x1, .i1⟩ : BufTy).Contents (Elt Ideal)),
    StableHlo.binary main_call0_v7 main_call0_v10 main_call0_v11 (andi : (⟨S1600000x1, .i1⟩ : BufTy).Contents (Elt Ideal) → (⟨S1600000x1, .i1⟩ : BufTy).Contents (Elt Ideal) → (⟨S1600000x1, .i1⟩ : BufTy).Contents (Elt Ideal)),
    StableHlo.nullary main_call0_c_3 (constantI S_ 1 1#1),
    StableHlo.binary main_call0_v11 main_call0_c_3 main_call0_v12 ((fun x v => Host.reduce IntOp.andi x v reducesTo_S1600000x1_S1600000_d1 h_S_) : (⟨S1600000x1, .i1⟩ : BufTy).Contents (Elt Ideal) → (⟨S_, .i1⟩ : BufTy).Contents (Elt Ideal) → (⟨S1600000, .i1⟩ : BufTy).Contents (Elt Ideal)),
    StableHlo.binary main_v0 main_call0_v5 main_call0_v13 ((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal)),
    StableHlo.unary main_call0_v12 main_call0_v14 (broadcastInDim S1600000x128 ![0] bcast_S1600000_S1600000x128_0 : (⟨S1600000, .i1⟩ : BufTy).Contents (Elt Ideal) → (⟨S1600000x128, .i1⟩ : BufTy).Contents (Elt Ideal)),
    StableHlo.nullary main_call0_cst (constant (F := Ideal) S_ .f32 0x7FC00000#32),
    StableHlo.unary main_call0_cst main_call0_v15 (broadcastInDim S1600000x128 ![] bcast_S_S1600000x128 : (⟨S_, .f32⟩ : BufTy).Contents (Elt Ideal) → (⟨S1600000x128, .f32⟩ : BufTy).Contents (Elt Ideal)),
    StableHlo.ternary main_call0_v14 main_call0_v13 main_call0_v15 main_v1 (select : (⟨S1600000x128, .i1⟩ : BufTy).Contents (Elt Ideal) → (⟨S1600000x128, .f32⟩ : BufTy).Contents (Elt Ideal) → (⟨S1600000x128, .f32⟩ : BufTy).Contents (Elt Ideal) → (⟨S1600000x128, .f32⟩ : BufTy).Contents (Elt Ideal)) ]

/-- The first stretch is that list. -/
theorem hostOps1_eq : hostOps1 (F := Ideal) = takeOps := rfl

/-- The index array as the program wraps it: a negative entry is moved up by the table's height, 100000. -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped indices as a column of start indices. -/
def idxCol (src : IVec S1600000 32) : IVec S1600000x1 32 :=
  broadcastInDim S1600000x1 ![0] bcast_S1600000_S1600000x1_0 (wrapIdx src)

/-- The in-range mask: at each position, the conjunction over the column's one entry of 0 ≤ index ≤ 99999. -/
def inRange (src : IVec S1600000 32) : IVec S1600000 1 :=
  Host.reduce IntOp.andi
    (andi (cmpi .sge (idxCol src) (broadcastInDim S1600000x1 ![] bcast_S_S1600000x1 (constantI S_ 32 0#32)))
      (cmpi .sle (idxCol src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of x the wrapped indices name. -/
def gathered (x : S100000x128.Idx → EReal) (src : IVec S1600000 32) : S1600000x128.Idx → EReal :=
  Host.gather gather_S100000x128_S1600000x1_S1600000x128_1_0_n_n_0_1_1128 x (idxCol src)

/-- The rows taken: the gathered row where the mask is set, a row of NaN where it is not. -/
def taken (x : S100000x128.Idx → EReal) (src : IVec S1600000 32) : S1600000x128.Idx → EReal :=
  select (broadcastInDim S1600000x128 ![0] bcast_S1600000_S1600000x128_0 (inRange src)) (gathered x src)
    (broadcastInDim S1600000x128 ![] bcast_S_S1600000x128 (constant (F := Ideal) S_ .f32 0x7FC00000#32))

end HostK

open HostK
/-- The aggregate as a function of x and the three edge arrays: the operations the program applies — the wrap of a
    negative index, the row gather, the scaling by the edge weight, the scatter-add into zeros — with the gather
    unmasked. -/
def aggK (x : S100000x128.Idx → EReal) (src dst : IVec S1600000 32) (ew : S1600000.Idx → EReal) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

namespace HostK
/-- With the gathered rows named, the aggregate is their scaled scatter-add. -/
theorem aggK_eq (x : S100000x128.Idx → EReal) (src dst : IVec S1600000 32) (ew : S1600000.Idx → EReal) :
    aggK x src dst ew = Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf (gathered x src)
        (broadcastInDim S1600000x128 ![0, 1] bcast_S1600000x1_S1600000x128_0_1
          (broadcastInDim S1600000x1 ![0] bcast_S1600000_S1600000x1_0 ew))) := by
  unfold aggK gathered idxCol wrapIdx
  rfl

/-! ## The stretches read as values -/

/-- The first stretch leaves the taken rows in main_v1. -/
theorem host1_v1 : (StableHlo.after (hostOps1 (F := Ideal)) W (Proc.devRef .tc main_v1) : S1600000x128.Idx → EReal)
    = taken (W (Proc.devRef .tc main_v0)) (W (Proc.devRef .tc main_arg1)) := by
  rw [hostOps1_eq]
  after_results_simp
  simp only [taken, inRange, gathered, idxCol, wrapIdx]

/-- The first stretch writes none of the arguments the second reads. -/
theorem host1_arg2 : (StableHlo.after (hostOps1 (F := Ideal)) W (Proc.devRef .tc main_arg2) : IVec S1600000 32)
    = W (Proc.devRef .tc main_arg2) := by
  after_results
theorem host1_arg3 : (StableHlo.after (hostOps1 (F := Ideal)) W (Proc.devRef .tc main_arg3) : S1600000.Idx → EReal)
    = W (Proc.devRef .tc main_arg3) := by
  after_results
theorem host1_arg5 : (StableHlo.after (hostOps1 (F := Ideal)) W (Proc.devRef .tc main_arg5) : S128.Idx → EReal)
    = W (Proc.devRef .tc main_arg5) := by
  after_results
theorem host1_arg6 : (StableHlo.after (hostOps1 (F := Ideal)) W (Proc.devRef .tc main_arg6) : S1.Idx → EReal)
    = W (Proc.devRef .tc main_arg6) := by
  after_results

/-- The second stretch, from any contents V: the scaled rows of main_v1 added up at the targets, into zeros. -/
theorem host11_v7 (V : Valuation τ sig (Elt Ideal)) :
    (StableHlo.after (hostOps1_1 (F := Ideal)) V (Proc.devRef .tc main_v7) : S100000x128.Idx → EReal)
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (V (Proc.devRef .tc main_arg2) : IVec S1600000 32))
          (mulf (V (Proc.devRef .tc main_v1) : S1600000x128.Idx → EReal)
            (broadcastInDim S1600000x128 ![0, 1] bcast_S1600000x1_S1600000x128_0_1
              (broadcastInDim S1600000x1 ![0] bcast_S1600000_S1600000x1_0 (V (Proc.devRef .tc main_arg3) : S1600000.Idx → EReal)))) := by
  after_results

/-- The second stretch, from any contents V: the bias as a row. -/
theorem host11_v8 (V : Valuation τ sig (Elt Ideal)) :
    (StableHlo.after (hostOps1_1 (F := Ideal)) V (Proc.devRef .tc main_v8) : S1x128.Idx → EReal)
      = shapeCast S1x128 (V (Proc.devRef .tc main_arg5) : S128.Idx → EReal) shapeCasts_S128_S1x128 := by
  after_results
  rfl

/-- The second stretch, from any contents V: the first ramp's slope as a 1 × 1 array. -/
theorem host11_v9 (V : Valuation τ sig (Elt Ideal)) :
    (StableHlo.after (hostOps1_1 (F := Ideal)) V (Proc.devRef .tc main_v9) : S1x1.Idx → EReal)
      = shapeCast S1x1 (V (Proc.devRef .tc main_arg6) : S1.Idx → EReal) shapeCasts_S1_S1x1 := by
  after_results
  rfl

/-! ## Words -/

/-- A left fold by `and` over one-bit words, started at 1 and meeting only 1s, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, hf => by
    have h11 : IntOp.andi (1#1) (1#1) = 1#1 := by decide
    rw [List.foldl_cons, hf a List.mem_cons_self, h11]
    exact foldl_andi_one f l fun n hn => hf n (List.mem_cons_of_mem _ hn)

/-- A reduction by `and`, from 1, of an array of one-bit words that are all 1 is 1 everywhere. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ fun n _ => hx n

/-- A broadcast read at an index is the operand at some index. -/
theorem bcast_at {α : Type} {s t : Shape} (dims : Fin s.rank → Fin t.rank) (h : s.BroadcastsInDim t dims) (v : s.Idx → α)
    (j : t.Idx) : ∃ k, broadcastInDim t dims h v j = v k := ⟨_, rfl⟩

/-- A 32-bit word in [-100000, 0) moved up by 100000 lands in [0, 100000): the sum does not wrap. -/
theorem toInt_add_height (w : BitVec 32) (h0 : -100000 ≤ w.toInt) (h1 : w.toInt < 0) :
    (IntOp.addi w 100000#32).toInt = w.toInt + 100000 := by
  have hc : (100000#32 : BitVec 32).toInt = 100000 := by decide
  show (w + 100000#32).toInt = _
  rw [BitVec.toInt_add, hc]
  exact Int.bmod_eq_of_le_mul_two (by omega) (by omega)

/-- The wrapped index of an entry in [-100000, 100000) is in [0, 99999]. -/
theorem wrapIdx_range (src : IVec S1600000 32)
    (hsrc : ∀ e : Fin 1600000, -100000 ≤ (src (ix1 e)).toInt ∧ (src (ix1 e)).toInt < 100000) (k : S1600000.Idx) :
    0 ≤ (wrapIdx src k).toInt ∧ (wrapIdx src k).toInt ≤ 99999 := by
  have hk : -100000 ≤ (src k).toInt ∧ (src k).toInt < 100000 :=
    (congrArg (fun z : S1600000.Idx => -100000 ≤ (src z).toInt ∧ (src z).toInt < 100000) (eq_ix1 k)).mpr (hsrc (k 0))
  have h0 : (0#32 : BitVec 32).toInt = 0 := by decide
  show 0 ≤ (Scalar.select (IntOp.cmpi .slt (src k) 0#32) (IntOp.addi (src k) 100000#32) (src k)).toInt
    ∧ (Scalar.select (IntOp.cmpi .slt (src k) 0#32) (IntOp.addi (src k) 100000#32) (src k)).toInt ≤ 99999
  by_cases hneg : (src k).toInt < 0
  · rw [IntOp.cmpi_slt.2 (by rw [h0]; exact hneg), select_one, toInt_add_height _ hk.1 hneg]
    omega
  · have hc : IntOp.cmpi .slt (src k) 0#32 = 0#1 :=
      eq_zero_of_ne_one fun h => hneg (by have := IntOp.cmpi_slt.1 h; rwa [h0] at this)
    rw [hc, select_zero]
    omega

/-- Under that range the in-range mask is 1 at every position. -/
theorem inRange_one (src : IVec S1600000 32)
    (hsrc : ∀ e : Fin 1600000, -100000 ≤ (src (ix1 e)).toInt ∧ (src (ix1 e)).toInt < 100000) (j : S1600000.Idx) :
    inRange src j = 1#1 := by
  unfold inRange
  refine reduce_andi_of_all _ _ _ _ j rfl fun i => ?_
  have hz : (0#32 : BitVec 32).toInt = 0 := by decide
  have hc : (99999#32 : BitVec 32).toInt = 99999 := by decide
  obtain ⟨k, hk⟩ : ∃ k : S1600000.Idx, idxCol src i = wrapIdx src k := bcast_at _ _ _ i
  have hr := wrapIdx_range src hsrc k
  show IntOp.andi (IntOp.cmpi .sge (idxCol src i) 0#32) (IntOp.cmpi .sle (idxCol src i) 99999#32) = 1#1
  rw [hk]
  exact IntOp.andi_eq_one.2 ⟨IntOp.cmpi_sge.2 (by rw [hz]; exact hr.1), IntOp.cmpi_sle.2 (by rw [hc]; exact hr.2)⟩

/-- So the masked rows are the gathered rows. -/
theorem taken_eq_gathered (x : S100000x128.Idx → EReal) (src : IVec S1600000 32)
    (hsrc : ∀ e : Fin 1600000, -100000 ≤ (src (ix1 e)).toInt ∧ (src (ix1 e)).toInt < 100000) :
    taken x src = gathered x src := by
  funext j
  unfold taken
  rw [select_apply]
  obtain ⟨k, hk⟩ := bcast_at ![0] bcast_S1600000_S1600000x128_0 (inRange src) j
  rw [hk, inRange_one src hsrc k, select_one]

end HostK

/-! ## The two stretches in a row -/

/-- Under the index range, the two stretches leave the aggregate in main_v7. -/
theorem host1_v7
    (hsrc : ∀ e : Fin 1600000, -100000 ≤ ((W (Proc.devRef .tc main_arg1) : IVec S1600000 32) (ix1 e)).toInt
      ∧ ((W (Proc.devRef .tc main_arg1) : IVec S1600000 32) (ix1 e)).toInt < 100000) :
    (StableHlo.after (hostOps1_1 (F := Ideal)) (StableHlo.after (hostOps1 (F := Ideal)) W) (Proc.devRef .tc main_v7) : S100000x128.Idx → EReal)
      = aggK (W (Proc.devRef .tc main_v0)) (W (Proc.devRef .tc main_arg1)) (W (Proc.devRef .tc main_arg2)) (W (Proc.devRef .tc main_arg3)) := by
  rw [host11_v7, host1_arg2, host1_arg3, host1_v1, taken_eq_gathered _ _ hsrc, aggK_eq]

/-- They leave the bias, as a row, in main_v8. -/
theorem host1_v8 (q : Fin 128) :
    (StableHlo.after (hostOps1_1 (F := Ideal)) (StableHlo.after (hostOps1 (F := Ideal)) W) (Proc.devRef .tc main_v8) : S1x128.Idx → EReal) (ix2 (0 : Fin 1) q)
      = (W (Proc.devRef .tc main_arg5) : S128.Idx → EReal) (ix1 q) := by
  rw [host11_v8, host1_arg5]
  exact shapeCast_a_1a_apply _ _ (0 : Fin 1) q

/-- They leave the first ramp's slope in main_v9. -/
theorem host1_v9 :
    (StableHlo.after (hostOps1_1 (F := Ideal)) (StableHlo.after (hostOps1 (F := Ideal)) W) (Proc.devRef .tc main_v9) : S1x1.Idx → EReal) (ix2 (0 : Fin 1) (0 : Fin 1))
      = (W (Proc.devRef .tc main_arg6) : S1.Idx → EReal) (ix1 (0 : Fin 1)) := by
  rw [host11_v9, host1_arg6]
  exact shapeCast_a_1a_apply _ _ (0 : Fin 1) (0 : Fin 1)

end Cert.KernelIdeal.Hand

end
-- ==== Proof.HostK2.lean ====
/-
  The last host stretch of the program, read as values. From any contents W the stretch is entered with, it writes
  the column means  v12 = v10_1 / 1e5, the column variances  v16 = v10_2 / 1e5 − v12 · v12  (both one row of 128),
  and three re-shapings of arguments: two vectors of 128 as one row of 128, and a vector of one entry as a 1×1 array.
  Each is stated first as an equation between whole arrays (the operations applied to W's arrays), then read at one
  index.
-/
import proofs.«413316_j77618648973416_1_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.ValueIdx

namespace HostK2

/-- The constant 1e5 (a scalar) laid along one row of 128. -/
def cRow : FVec Ideal S1x128 .f32 :=
  broadcastInDim S1x128 ![] bcast_S_S1x128 (constant S_ .f32 0x47C35000#32 : FVec Ideal S_ .f32)

/-- Every entry of that row is the constant. -/
theorem cRow_apply (j : S1x128.Idx) : cRow j = Ideal.ofBits .f32 0x47C35000#32 := by
  unfold cRow
  rw [broadcastInDim_scalar_apply, constant_apply]

variable (W : Valuation τ sig (Elt Ideal))

/-! ## The stretch's results as whole arrays -/

/-- The mean row: the first column-sum row divided entrywise by the constant row. -/
theorem arr_v12 : (StableHlo.after (hostOps2 (F := Ideal)) W (Proc.devRef .tc main_v12) : FVec Ideal S1x128 .f32)
    = Host.divf (W (Proc.devRef .tc main_v10_1) : FVec Ideal S1x128 .f32) cRow := by
  unfold cRow
  show StableHlo.after hostOps2 _ (Proc.devRef .tc main_v12) = _
  after_results

/-- The variance row: the second column-sum row over the constant row, less the square of the mean row. -/
theorem arr_v16 : (StableHlo.after (hostOps2 (F := Ideal)) W (Proc.devRef .tc main_v16) : FVec Ideal S1x128 .f32)
    = subf (Host.divf (W (Proc.devRef .tc main_v10_2) : FVec Ideal S1x128 .f32) cRow)
        (mulf (Host.divf (W (Proc.devRef .tc main_v10_1) : FVec Ideal S1x128 .f32) cRow)
          (Host.divf (W (Proc.devRef .tc main_v10_1) : FVec Ideal S1x128 .f32) cRow)) := by
  unfold cRow
  show StableHlo.after hostOps2 _ (Proc.devRef .tc main_v16) = _
  after_results

/-- Argument 7, a vector of 128, as one row of 128. -/
theorem arr_v17 : (StableHlo.after (hostOps2 (F := Ideal)) W (Proc.devRef .tc main_v17) : FVec Ideal S1x128 .f32)
    = shapeCast S1x128 (W (Proc.devRef .tc main_arg7) : FVec Ideal S128 .f32) shapeCasts_S128_S1x128 := by
  show StableHlo.after hostOps2 _ (Proc.devRef .tc main_v17) = _
  after_results
  rfl

/-- Argument 8, a vector of 128, as one row of 128. -/
theorem arr_v18 : (StableHlo.after (hostOps2 (F := Ideal)) W (Proc.devRef .tc main_v18) : FVec Ideal S1x128 .f32)
    = shapeCast S1x128 (W (Proc.devRef .tc main_arg8) : FVec Ideal S128 .f32) shapeCasts_S128_S1x128 := by
  show StableHlo.after hostOps2 _ (Proc.devRef .tc main_v18) = _
  after_results
  rfl

/-- Argument 9, a vector of one entry, as a 1×1 array. -/
theorem arr_v19 : (StableHlo.after (hostOps2 (F := Ideal)) W (Proc.devRef .tc main_v19) : FVec Ideal S1x1 .f32)
    = shapeCast S1x1 (W (Proc.devRef .tc main_arg9) : FVec Ideal S1 .f32) shapeCasts_S1_S1x1 := by
  show StableHlo.after hostOps2 _ (Proc.devRef .tc main_v19) = _
  after_results
  rfl

/-! ## A vector re-shaped to one row, read at an index -/

/-- Entry (0, q) of a vector of 128 re-shaped to one row of 128 is the vector's entry q: both sit at row-major
    position q. -/
theorem row_of_vec_apply (x : FVec Ideal S128 .f32) (q : Fin 128) :
    shapeCast S1x128 x shapeCasts_S128_S1x128 (ix2 (0 : Fin 1) q) = x (ix1 q) :=
  shapeCast_apply x shapeCasts_S128_S1x128 (ix2 (0 : Fin 1) q) (ix1 q) (by
    rw [Shape.rowMajor_val_two, Shape.rowMajor_val_one]; show q.val = 0 * 128 + q.val; omega)

/-- The one entry of a one-entry vector re-shaped to a 1×1 array is the vector's entry. -/
theorem one_of_vec_apply (x : FVec Ideal S1 .f32) :
    shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1)) (by
    rw [Shape.rowMajor_val_two, Shape.rowMajor_val_one]; rfl)

end HostK2

open HostK2

variable (W : Valuation τ sig (Elt Ideal))

/-! ## The stretch's results at an index -/

/-- The mean row at column q: the first column-sum row's entry over 1e5. -/
theorem host2_v12 (q : Fin 128) :
    (StableHlo.after (hostOps2 (F := Ideal)) W (Proc.devRef .tc main_v12) : S1x128.Idx → EReal) (ix2 (0 : Fin 1) q)
      = Ideal.div ((W (Proc.devRef .tc main_v10_1) : S1x128.Idx → EReal) (ix2 (0 : Fin 1) q)) (Ideal.ofBits .f32 0x47C35000#32) := by
  have h := congrFun (arr_v12 W) (ix2 (0 : Fin 1) q)
  rw [hostDivf_apply, cRow_apply] at h
  exact h

/-- The variance row at column q: the second column-sum row's entry over 1e5, less the square of the mean. -/
theorem host2_v16 (q : Fin 128) :
    (StableHlo.after (hostOps2 (F := Ideal)) W (Proc.devRef .tc main_v16) : S1x128.Idx → EReal) (ix2 (0 : Fin 1) q)
      = Ideal.div ((W (Proc.devRef .tc main_v10_2) : S1x128.Idx → EReal) (ix2 (0 : Fin 1) q)) (Ideal.ofBits .f32 0x47C35000#32)
        - Ideal.div ((W (Proc.devRef .tc main_v10_1) : S1x128.Idx → EReal) (ix2 (0 : Fin 1) q)) (Ideal.ofBits .f32 0x47C35000#32)
          * Ideal.div ((W (Proc.devRef .tc main_v10_1) : S1x128.Idx → EReal) (ix2 (0 : Fin 1) q)) (Ideal.ofBits .f32 0x47C35000#32) := by
  have h := congrFun (arr_v16 W) (ix2 (0 : Fin 1) q)
  rw [subf_apply, mulf_apply, hostDivf_apply, hostDivf_apply, cRow_apply] at h
  exact h

/-- Argument 7 as a row, at column q: the argument's entry q. -/
theorem host2_v17 (q : Fin 128) :
    (StableHlo.after (hostOps2 (F := Ideal)) W (Proc.devRef .tc main_v17) : S1x128.Idx → EReal) (ix2 (0 : Fin 1) q)
      = (W (Proc.devRef .tc main_arg7) : S128.Idx → EReal) (ix1 q) :=
  (congrFun (arr_v17 W) (ix2 (0 : Fin 1) q)).trans (row_of_vec_apply _ q)

/-- Argument 8 as a row, at column q: the argument's entry q. -/
theorem host2_v18 (q : Fin 128) :
    (StableHlo.after (hostOps2 (F := Ideal)) W (Proc.devRef .tc main_v18) : S1x128.Idx → EReal) (ix2 (0 : Fin 1) q)
      = (W (Proc.devRef .tc main_arg8) : S128.Idx → EReal) (ix1 q) :=
  (congrFun (arr_v18 W) (ix2 (0 : Fin 1) q)).trans (row_of_vec_apply _ q)

/-- Argument 9 as a 1×1 array: the argument's one entry. -/
theorem host2_v19 :
    (StableHlo.after (hostOps2 (F := Ideal)) W (Proc.devRef .tc main_v19) : S1x1.Idx → EReal) (ix2 (0 : Fin 1) (0 : Fin 1))
      = (W (Proc.devRef .tc main_arg9) : S1.Idx → EReal) (ix1 (0 : Fin 1)) :=
  (congrFun (arr_v19 W) (ix2 (0 : Fin 1) (0 : Fin 1))).trans (one_of_vec_apply _)

end Cert.KernelIdeal.Hand
-- ==== Proof.PreDecode.lean ====
/-
  The precondition decoded. The printed predicate is one conjunction of nine "for all" statements: for each float
  input a0, a3, a4, a5, a6, a7, a8, a9, "every entry's absolute value is below +∞", and for the int32 input a1,
  "every entry is ≥ -100000 and < 100000" read signed. Each "for all" is a reduction by "and" of an array of one-bit
  comparison words down to one word; the predicate holding says that the conjunction's word is 1.

  A conjunction word is 1 exactly when both conjuncts are; a reduction by "and" into a one-index result that is 1 met
  a 1 at every operand index. At an element, |x| = max x (-x) on the extended reals and the bound is the pattern of
  +∞: max x (-x) < ⊤ rules out x = ⊤ (the max is ⊤) and x = ⊥ (then -x = ⊤), so x is a real. For the integers, the
  signed comparisons read the words signed, and the bound words 4294867296 and 100000 read signed are -100000 and
  100000.
-/
import proofs.«413316_j77618648973416_1_alg».proof.Pre_finite_inputs
import proofs.«413316_j77618648973416_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Pre_finite_inputs.Hand

open Cert.Pre_finite_inputs Cert.Pre_finite_inputs.Gen
open Idealize.ShloMosaic Idealize.ShloMosaic.ValueIdx

/-- The scalar shape has one index. -/
instance : Subsingleton S_.Idx := ⟨fun a b => funext fun d => d.elim0⟩

/-- An extended real whose absolute value max x (-x) compares below the f32 pattern of +∞ is a real:
    at ⊤ the max is ⊤, at ⊥ the negation is ⊤, so neither is below ⊤. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | coe r => exact ⟨r, rfl⟩
  | top => simp at h

/-- One float conjunct, at any shape: "all |x| < +∞" reduced to one word that is 1 makes every entry a real. -/
theorem all_fin {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
        (constantI S_ 1 1#1) hr h0 ix0 = 1#1) (i : s.Idx) : ∃ r : ℝ, x i = (r : EReal) :=
  real_of_abs_lt (x i) (Host.reduce_andi_all _ _ hr h0 ix0 e i)

/-- The bound words read signed. -/
theorem lo_toInt : (4294867296#32 : BitVec 32).toInt = -100000 := by decide
theorem hi_toInt : (100000#32 : BitVec 32).toInt = 100000 := by decide

/-- The integer conjunct, at any extent: "all (lo ≤ w and w < hi)" reduced to one word that is 1 puts every word,
    read signed, in [-100000, 100000). -/
theorem all_range {s : Shape} {axes : List (Fin s.rank)} (w : IVec s 32)
    (hb : S_.BroadcastsInDim s (![] : Fin 0 → Fin s.rank)) (hr : s.ReducesTo axes S_) (h0 : 0 < S_.numel)
    (e : Host.reduce IntOp.andi
        (andi (cmpi .sge w (broadcastInDim s ![] hb (constantI S_ 32 4294867296#32)))
          (cmpi .slt w (broadcastInDim s ![] hb (constantI S_ 32 100000#32))))
        (constantI S_ 1 1#1) hr h0 ix0 = 1#1) (i : s.Idx) : -100000 ≤ (w i).toInt ∧ (w i).toInt < 100000 := by
  have h := Host.reduce_andi_all _ _ hr h0 ix0 e i
  change IntOp.andi (IntOp.cmpi .sge (w i) 4294867296#32) (IntOp.cmpi .slt (w i) 100000#32) = 1#1 at h
  rw [IntOp.andi_eq_one, IntOp.cmpi_sge, IntOp.cmpi_slt, lo_toInt, hi_toInt] at h
  exact h

section
variable (a0 : FVec Ideal S100000x128 .f32) (a1 a2 : IVec S1600000 32) (a3 : FVec Ideal S1600000 .f32)
  (a4 : FVec Ideal S128x128 .f32) (a5 : FVec Ideal S128 .f32) (a6 : FVec Ideal S1 .f32) (a7 a8 : FVec Ideal S128 .f32)
  (a9 : FVec Ideal S1 .f32)
  (hpre : Cert.Pre_finite_inputs.fn (F := Ideal) a0 a1 a2 a3 a4 a5 a6 a7 a8 a9 = fun _ => 1#1)

include hpre

/-- The predicate's one word, unfolded, is the conjunction of the nine reductions' words; it is 1, so each is. -/
theorem conjuncts :
    (((((((Host.reduce IntOp.andi
        (cmpf .olt (Host.absf a0) (broadcastInDim S100000x128 ![] bcast_S_S100000x128 (constant S_ .f32 0x7F800000#32)))
        (constantI S_ 1 1#1) reducesTo_S100000x128_S_d0_1 h_S_ ix0 = 1#1
      ∧ Host.reduce IntOp.andi
        (cmpf .olt (Host.absf a3) (broadcastInDim S1600000 ![] bcast_S_S1600000 (constant S_ .f32 0x7F800000#32)))
        (constantI S_ 1 1#1) reducesTo_S1600000_S_d0 h_S_ ix0 = 1#1)
      ∧ Host.reduce IntOp.andi
        (cmpf .olt (Host.absf a4) (broadcastInDim S128x128 ![] bcast_S_S128x128 (constant S_ .f32 0x7F800000#32)))
        (constantI S_ 1 1#1) reducesTo_S128x128_S_d0_1 h_S_ ix0 = 1#1)
      ∧ Host.reduce IntOp.andi
        (cmpf .olt (Host.absf a5) (broadcastInDim S128 ![] bcast_S_S128 (constant S_ .f32 0x7F800000#32)))
        (constantI S_ 1 1#1) reducesTo_S128_S_d0 h_S_ ix0 = 1#1)
      ∧ Host.reduce IntOp.andi
        (cmpf .olt (Host.absf a6) (broadcastInDim S1 ![] bcast_S_S1 (constant S_ .f32 0x7F800000#32)))
        (constantI S_ 1 1#1) reducesTo_S1_S_d0 h_S_ ix0 = 1#1)
      ∧ Host.reduce IntOp.andi
        (cmpf .olt (Host.absf a7) (broadcastInDim S128 ![] bcast_S_S128 (constant S_ .f32 0x7F800000#32)))
        (constantI S_ 1 1#1) reducesTo_S128_S_d0 h_S_ ix0 = 1#1)
      ∧ Host.reduce IntOp.andi
        (cmpf .olt (Host.absf a8) (broadcastInDim S128 ![] bcast_S_S128 (constant S_ .f32 0x7F800000#32)))
        (constantI S_ 1 1#1) reducesTo_S128_S_d0 h_S_ ix0 = 1#1)
      ∧ Host.reduce IntOp.andi
        (cmpf .olt (Host.absf a9) (broadcastInDim S1 ![] bcast_S_S1 (constant S_ .f32 0x7F800000#32)))
        (constantI S_ 1 1#1) reducesTo_S1_S_d0 h_S_ ix0 = 1#1)
      ∧ Host.reduce IntOp.andi
        (andi (cmpi .sge a1 (broadcastInDim S1600000 ![] bcast_S_S1600000 (constantI S_ 32 4294867296#32)))
          (cmpi .slt a1 (broadcastInDim S1600000 ![] bcast_S_S1600000 (constantI S_ 32 100000#32))))
        (constantI S_ 1 1#1) reducesTo_S1600000_S_d0 h_S_ ix0 = 1#1 := by
  have e := congrFun hpre ix0
  dsimp only [fn, fn_part1, fn_part2] at e
  simp only [andi, IntOp.andi_eq_one] at e
  exact e

theorem fin0 : ∀ i, ∃ x : ℝ, a0 i = (x : EReal) :=
  all_fin a0 _ _ _ (conjuncts a0 a1 a2 a3 a4 a5 a6 a7 a8 a9 hpre).1.1.1.1.1.1.1.1
theorem fin3 : ∀ i, ∃ x : ℝ, a3 i = (x : EReal) :=
  all_fin a3 _ _ _ (conjuncts a0 a1 a2 a3 a4 a5 a6 a7 a8 a9 hpre).1.1.1.1.1.1.1.2
theorem fin4 : ∀ i, ∃ x : ℝ, a4 i = (x : EReal) :=
  all_fin a4 _ _ _ (conjuncts a0 a1 a2 a3 a4 a5 a6 a7 a8 a9 hpre).1.1.1.1.1.1.2
theorem fin5 : ∀ i, ∃ x : ℝ, a5 i = (x : EReal) :=
  all_fin a5 _ _ _ (conjuncts a0 a1 a2 a3 a4 a5 a6 a7 a8 a9 hpre).1.1.1.1.1.2
theorem fin6 : ∀ i, ∃ x : ℝ, a6 i = (x : EReal) :=
  all_fin a6 _ _ _ (conjuncts a0 a1 a2 a3 a4 a5 a6 a7 a8 a9 hpre).1.1.1.1.2
theorem fin7 : ∀ i, ∃ x : ℝ, a7 i = (x : EReal) :=
  all_fin a7 _ _ _ (conjuncts a0 a1 a2 a3 a4 a5 a6 a7 a8 a9 hpre).1.1.1.2
theorem fin8 : ∀ i, ∃ x : ℝ, a8 i = (x : EReal) :=
  all_fin a8 _ _ _ (conjuncts a0 a1 a2 a3 a4 a5 a6 a7 a8 a9 hpre).1.1.2
theorem fin9 : ∀ i, ∃ x : ℝ, a9 i = (x : EReal) :=
  all_fin a9 _ _ _ (conjuncts a0 a1 a2 a3 a4 a5 a6 a7 a8 a9 hpre).1.2

/-- Every src word, read signed, lies in [-100000, 100000). -/
theorem src_range : ∀ e : Fin 1600000, -100000 ≤ (a1 (ValueIdx.ix1 e)).toInt ∧ (a1 (ValueIdx.ix1 e)).toInt < 100000 :=
  fun e => all_range a1 _ _ _ (conjuncts a0 a1 a2 a3 a4 a5 a6 a7 a8 a9 hpre).2 (ix1 e)

end

end Cert.Pre_finite_inputs.Hand

end
-- ==== Proof.RefTerm.lean ====
/-
  The reference's result as one function of its ten argument arrays: the printed @main's operations composed, stage
  by stage and under the names the printed program gives them (w· for the values inside the variance helper).
-/
import proofs.«413316_j77618648973416_1_alg».proof.ReferenceIdeal
import proofs.«413316_j77618648973416_1_alg».proof.Proof.Gen.ReferenceIdeal
import Idealize.ShloMosaic.PureOps.Ideal

noncomputable section

namespace Cert.ReferenceIdeal.Hand

open Cert.ReferenceIdeal
open Cert.ReferenceIdeal.Facts₀ Cert.ReferenceIdeal.Facts
open Idealize.ShloMosaic

/-- h = the leaky ramp of agg + b, as the reference computes it from x = heat · W: stages %0 … %22. -/
def refH (a0 : FVec Ideal S100000x128 .f32) (a1 a2 : IVec S1600000 32) (a3 : FVec Ideal S1600000 .f32)
    (a4 : FVec Ideal S128x128 .f32) (a5 : FVec Ideal S128 .f32) (a6 : FVec Ideal S1 .f32) : FVec Ideal S100000x128 .f32 :=
  let v0 : FVec Ideal S100000x128 .f32 := Host.dotGeneral dot_S100000x128_S128x128_S100000x128_1_0_0_1_n_n none a0 a4
  let v1 : IVec S1600000 32 := broadcastInDim S1600000 ![] bcast_S_S1600000 (constantI S_ 32 0#32)
  let v2 : IVec S1600000 1 := cmpi .slt a1 v1
  let v3 : IVec S1600000 32 := broadcastInDim S1600000 ![] bcast_S_S1600000 (constantI S_ 32 100000#32)
  let v4 : IVec S1600000 32 := addi a1 v3
  let v5 : IVec S1600000 32 := select v2 v4 a1
  let v6 : IVec S1600000x1 32 := broadcastInDim S1600000x1 ![0] bcast_S1600000_S1600000x1_0 v5
  let v7 : FVec Ideal S1600000x128 .f32 := Host.gather gather_S100000x128_S1600000x1_S1600000x128_1_0_n_n_0_1_1128 v0 v6
  let v8 : FVec Ideal S1600000x1 .f32 := broadcastInDim S1600000x1 ![0] bcast_S1600000_S1600000x1_0 a3
  let v9 : FVec Ideal S1600000x128 .f32 := broadcastInDim S1600000x128 ![0, 1] bcast_S1600000x1_S1600000x128_0_1 v8
  let v10 : FVec Ideal S1600000x128 .f32 := mulf v7 v9
  let v11 : FVec Ideal S100000x128 .f32 := broadcastInDim S100000x128 ![] bcast_S_S100000x128 (constant (F := Ideal) S_ .f32 0x00000000#32)
  let v12 : IVec S1600000x1 32 := broadcastInDim S1600000x1 ![0] bcast_S1600000_S1600000x1_0 a2
  let v13 : FVec Ideal S100000x128 .f32 := Host.scatterAdd scatter_S100000x128_S1600000x1_S1600000x128_1_0_0_1 v11 v12 v10
  let v14 : FVec Ideal S1x128 .f32 := broadcastInDim S1x128 ![1] bcast_S128_S1x128_1 a5
  let v15 : FVec Ideal S100000x128 .f32 := broadcastInDim S100000x128 ![0, 1] bcast_S1x128_S100000x128_0_1 v14
  let v16 : FVec Ideal S100000x128 .f32 := addf v13 v15
  let v17 : FVec Ideal S100000x128 .f32 := broadcastInDim S100000x128 ![] bcast_S_S100000x128 (constant (F := Ideal) S_ .f32 0x00000000#32)
  let v18 : IVec S100000x128 1 := cmpf .oge v16 v17
  let v19 : FVec Ideal S1x1 .f32 := broadcastInDim S1x1 ![1] bcast_S1_S1x1_1 a6
  let v20 : FVec Ideal S100000x128 .f32 := broadcastInDim S100000x128 ![0, 1] bcast_S1x1_S100000x128_0_1 v19
  let v21 : FVec Ideal S100000x128 .f32 := mulf v20 v16
  select v18 v16 v21

/-- The column mean of h: stages %23 … %25. -/
def refMean (v22 : FVec Ideal S100000x128 .f32) : FVec Ideal S128 .f32 :=
  let v23 : FVec Ideal S128 .f32 := Host.reduceAdd v22 (constant (F := Ideal) S_ .f32 0x00000000#32) reducesTo_S100000x128_S128_d0 h_S_
  let v24 : FVec Ideal S128 .f32 := broadcastInDim S128 ![] bcast_S_S128 (constant (F := Ideal) S_ .f32 0x47C35000#32)
  Host.divf v23 v24

/-- The biased column variance of h, as the variance helper computes it (its argument %arg1 is the word 0): the mean of
    the squared deviations over N − 0, kept where N − 0 > 0. -/
def refVar (v22 : FVec Ideal S100000x128 .f32) : FVec Ideal S128 .f32 :=
  let w0 : FVec Ideal S128 .f32 := Host.reduceAdd v22 (constant (F := Ideal) S_ .f32 0x00000000#32) reducesTo_S100000x128_S128_d0 h_S_
  let w1 : FVec Ideal S1x128 .f32 := broadcastInDim S1x128 ![1] bcast_S128_S1x128_1 w0
  let w2 : FVec Ideal S1x128 .f32 := broadcastInDim S1x128 ![] bcast_S_S1x128 (constant (F := Ideal) S_ .f32 0x47C35000#32)
  let w3 : FVec Ideal S1x128 .f32 := Host.divf w1 w2
  let w4 : FVec Ideal S100000x128 .f32 := broadcastInDim S100000x128 ![0, 1] bcast_S1x128_S100000x128_0_1 w3
  let w5 : FVec Ideal S100000x128 .f32 := subf v22 w4
  let w6 : FVec Ideal S100000x128 .f32 := mulf w5 w5
  let w7 : FVec Ideal S_ .f32 := sitofp .f32 (constantI S_ 32 0#32)
  let w8 : FVec Ideal S_ .f32 := subf (constant (F := Ideal) S_ .f32 0x47C35000#32) w7
  let w9 : FVec Ideal S128 .f32 := Host.reduceAdd w6 (constant (F := Ideal) S_ .f32 0x00000000#32) reducesTo_S100000x128_S128_d0 h_S_
  let w10 : FVec Ideal S128 .f32 := broadcastInDim S128 ![] bcast_S_S128 w8
  let w11 : FVec Ideal S128 .f32 := Host.divf w9 w10
  let w12 : IVec S_ 1 := cmpf .ogt w8 (constant (F := Ideal) S_ .f32 0x00000000#32)
  let u0 : FVec Ideal S_ .f32 := id (constant (F := Ideal) S_ .f32 0x7FC00000#32)
  let u1 : FVec Ideal S128 .f32 := broadcastInDim S128 ![] bcast_S_S128 u0
  select (broadcastInDim S128 ![] bcast_S_S128 w12) w11 u1

/-- The result from h, its mean and variance and the last three arguments: stages %27 … %47. -/
def refTail (v22 : FVec Ideal S100000x128 .f32) (v25 v26 : FVec Ideal S128 .f32) (a7 a8 : FVec Ideal S128 .f32) (a9 : FVec Ideal S1 .f32) :
    FVec Ideal S100000x128 .f32 :=
  let v27 : FVec Ideal S1x128 .f32 := broadcastInDim S1x128 ![1] bcast_S128_S1x128_1 v25
  let v28 : FVec Ideal S100000x128 .f32 := broadcastInDim S100000x128 ![0, 1] bcast_S1x128_S100000x128_0_1 v27
  let v29 : FVec Ideal S100000x128 .f32 := subf v22 v28
  let v30 : FVec Ideal S128 .f32 := broadcastInDim S128 ![] bcast_S_S128 (constant (F := Ideal) S_ .f32 0x3727C5AC#32)
  let v31 : FVec Ideal S128 .f32 := addf v26 v30
  let v32 : FVec Ideal S128 .f32 := Host.rsqrt v31
  let v33 : FVec Ideal S1x128 .f32 := broadcastInDim S1x128 ![1] bcast_S128_S1x128_1 v32
  let v34 : FVec Ideal S100000x128 .f32 := broadcastInDim S100000x128 ![0, 1] bcast_S1x128_S100000x128_0_1 v33
  let v35 : FVec Ideal S100000x128 .f32 := mulf v29 v34
  let v36 : FVec Ideal S1x128 .f32 := broadcastInDim S1x128 ![1] bcast_S128_S1x128_1 a7
  let v37 : FVec Ideal S100000x128 .f32 := broadcastInDim S100000x128 ![0, 1] bcast_S1x128_S100000x128_0_1 v36
  let v38 : FVec Ideal S100000x128 .f32 := mulf v35 v37
  let v39 : FVec Ideal S1x128 .f32 := broadcastInDim S1x128 ![1] bcast_S128_S1x128_1 a8
  let v40 : FVec Ideal S100000x128 .f32 := broadcastInDim S100000x128 ![0, 1] bcast_S1x128_S100000x128_0_1 v39
  let v41 : FVec Ideal S100000x128 .f32 := addf v38 v40
  let v42 : FVec Ideal S100000x128 .f32 := broadcastInDim S100000x128 ![] bcast_S_S100000x128 (constant (F := Ideal) S_ .f32 0x00000000#32)
  let v43 : IVec S100000x128 1 := cmpf .oge v41 v42
  let v44 : FVec Ideal S1x1 .f32 := broadcastInDim S1x1 ![1] bcast_S1_S1x1_1 a9
  let v45 : FVec Ideal S100000x128 .f32 := broadcastInDim S100000x128 ![0, 1] bcast_S1x1_S100000x128_0_1 v44
  let v46 : FVec Ideal S100000x128 .f32 := mulf v45 v41
  select v43 v41 v46

/-- The reference's result. -/
def refOut (a0 : FVec Ideal S100000x128 .f32) (a1 a2 : IVec S1600000 32) (a3 : FVec Ideal S1600000 .f32)
    (a4 : FVec Ideal S128x128 .f32) (a5 : FVec Ideal S128 .f32) (a6 : FVec Ideal S1 .f32) (a7 a8 : FVec Ideal S128 .f32)
    (a9 : FVec Ideal S1 .f32) : FVec Ideal S100000x128 .f32 :=
  refTail (refH a0 a1 a2 a3 a4 a5 a6) (refMean (refH a0 a1 a2 a3 a4 a5 a6)) (refVar (refH a0 a1 a2 a3 a4 a5 a6)) a7 a8 a9

end Cert.ReferenceIdeal.Hand

end
-- ==== Proof.Algebra.lean ====
/-
  Pure mathematics on the extended reals that relates the two programs' results: the float constants the programs
  spell, as the reals their patterns denote; a finite sum of reals read in the extended reals is the real sum; the
  biased variance written as "mean of squares minus square of the mean" and as "mean of squared deviations" agree on
  real data; a leaky ramp of a real and a masked sum of reals are real; and the reference's divisor, the count
  minus zero degrees of freedom, is the count and is positive.
-/
import Idealize.ShloMosaic.PureOps.Ideal
import Mathlib.Data.EReal.Basic
import Mathlib.Data.EReal.Operations
import Mathlib.Algebra.BigOperators.Group.Finset.Basic
import Mathlib.Algebra.BigOperators.Ring.Finset
import Mathlib.Data.Fintype.Card
import Mathlib.Tactic.FieldSimp
import Mathlib.Tactic.Ring
import Mathlib.Tactic.NormNum

noncomputable section

namespace Cert.Algebra

open Idealize.ShloMosaic
open scoped BigOperators

/-! ### Constants -/

/-- The pattern of `100000.0`: exponent field 143 (so `2 ^ 16`), fraction `0x435000`;
    `(2 ^ 23 + 0x435000) · 2 ^ (16 - 23) = 100000`. -/
theorem ofBits_1e5 : Ideal.ofBits .f32 0x47C35000#32 = ((100000 : ℝ) : EReal) := by
  simp [Ideal.ofBits, Ideal.ieee, -EReal.coe_mul]; norm_num

/-- The pattern of `+0.0` denotes `0`. -/
theorem ofBits_zero : Ideal.ofBits .f32 0x00000000#32 = (0 : EReal) := by
  simp [Ideal.ofBits, Ideal.ieee]

/-! ### Finite sums of reals -/

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A real plus a sum of reals of which a predicate keeps some and replaces the others by zero is real. -/
theorem real_of_sum_ite {ι : Type} [Fintype ι] (x : ℝ) (p : ι → Prop) [DecidablePred p] (u : ι → ℝ) :
    ∃ y : ℝ, (x : EReal) + ∑ e, (if p e then ((u e : ℝ) : EReal) else 0) = (y : EReal) := by
  refine ⟨x + ∑ e, (if p e then u e else 0), ?_⟩
  have hpt : ∀ e, (if p e then ((u e : ℝ) : EReal) else 0) = (((if p e then u e else 0 : ℝ)) : EReal) := by
    intro e
    by_cases hp : p e
    · rw [if_pos hp, if_pos hp]
    · rw [if_neg hp, if_neg hp, EReal.coe_zero]
  rw [Finset.sum_congr rfl (fun e _ => hpt e), coe_sum, ← EReal.coe_add]

/-! ### The leaky ramp -/

/-- The leaky ramp of reals is real: it is `z` where `0 ≤ z` and `a · z` elsewhere. -/
theorem ramp_real (a z : ℝ) :
    ∃ y : ℝ, (if Ideal.cmp .oge (z : EReal) 0 = 1 then (z : EReal) else (a : EReal) * (z : EReal)) = (y : EReal) := by
  by_cases hc : Ideal.cmp .oge (z : EReal) 0 = 1
  · exact ⟨z, by rw [if_pos hc]⟩
  · exact ⟨a * z, by rw [if_neg hc, EReal.coe_mul]⟩

/-! ### The variance, two ways -/

/-- In the reals: with `μ = (∑ h) / n`, `(∑ h²) / n - μ² = (∑ (h - μ)²) / n`, because
    `∑ (h - μ)² = ∑ h² - 2 μ ∑ h + n μ²`. -/
theorem real_var_two_ways (h : Fin 100000 → ℝ) :
    (∑ r, h r * h r) * (1 / 100000) - ((∑ r, h r) * (1 / 100000)) * ((∑ r, h r) * (1 / 100000))
      = (∑ r, (h r - (∑ r', h r') * (1 / 100000)) * (h r - (∑ r', h r') * (1 / 100000))) * (1 / 100000) := by
  have key : ∀ μ : ℝ, ∑ r, (h r - μ) * (h r - μ) = (∑ r, h r * h r) - 2 * μ * (∑ r, h r) + 100000 * (μ * μ) := by
    intro μ
    have hpt : ∀ r, (h r - μ) * (h r - μ) = h r * h r - 2 * μ * h r + μ * μ := fun r => by ring
    rw [Finset.sum_congr rfl (fun r _ => hpt r), Finset.sum_add_distrib, Finset.sum_sub_distrib, ← Finset.mul_sum,
      Finset.sum_const, Finset.card_univ, Fintype.card_fin, nsmul_eq_mul, Nat.cast_ofNat]
  rw [key]
  ring

/-- The biased variance two ways, on real data. -/
theorem var_two_ways (h : Fin 100000 → ℝ) :
    Ideal.div (∑ r, ((h r : ℝ) : EReal) * ((h r : ℝ) : EReal)) ((100000 : ℝ) : EReal)
      - Ideal.div (∑ r, ((h r : ℝ) : EReal)) ((100000 : ℝ) : EReal)
          * Ideal.div (∑ r, ((h r : ℝ) : EReal)) ((100000 : ℝ) : EReal)
    = Ideal.div (∑ r, (((h r : ℝ) : EReal) - Ideal.div (∑ r', ((h r' : ℝ) : EReal)) ((100000 : ℝ) : EReal))
          * (((h r : ℝ) : EReal) - Ideal.div (∑ r', ((h r' : ℝ) : EReal)) ((100000 : ℝ) : EReal)))
        ((100000 : ℝ) : EReal) := by
  have hn : (100000 : ℝ) ≠ 0 := by norm_num
  -- the mean is real
  have hμ : Ideal.div (∑ r, ((h r : ℝ) : EReal)) ((100000 : ℝ) : EReal)
      = (((∑ r, h r) * (1 / 100000) : ℝ) : EReal) := by
    rw [Ideal.div_coe hn, coe_sum, ← EReal.coe_mul]
  -- the mean of the squares is real
  have hsq : Ideal.div (∑ r, ((h r : ℝ) : EReal) * ((h r : ℝ) : EReal)) ((100000 : ℝ) : EReal)
      = (((∑ r, h r * h r) * (1 / 100000) : ℝ) : EReal) := by
    rw [Ideal.div_coe hn, Finset.sum_congr rfl (fun r _ => (EReal.coe_mul (h r) (h r)).symm), coe_sum,
      ← EReal.coe_mul]
  -- a squared deviation from a real mean is real
  have hdev : ∀ (μ : ℝ) (r : Fin 100000), (((h r : ℝ) : EReal) - (μ : EReal)) * (((h r : ℝ) : EReal) - (μ : EReal))
      = ((((h r - μ) * (h r - μ) : ℝ)) : EReal) := by
    intro μ r
    rw [← EReal.coe_sub, ← EReal.coe_mul]
  rw [hsq, hμ, Finset.sum_congr rfl (fun r _ => hdev _ r), coe_sum, Ideal.div_coe hn, ← EReal.coe_mul,
    ← EReal.coe_mul, ← EReal.coe_sub, real_var_two_ways]

/-! ### The reference's divisor -/

/-- The count minus zero degrees of freedom (the integer `0`, converted) is the count. -/
theorem sub_zero_1e5 :
    ((100000 : ℝ) : EReal) - ((((0 : BitVec 32).toInt : ℝ)) : EReal) = ((100000 : ℝ) : EReal) := by
  have h0 : (0 : BitVec 32).toInt = 0 := by rw [BitVec.ofNat_eq_ofNat, BitVec.toInt_zero]
  rw [h0, Int.cast_zero, EReal.coe_zero, sub_zero]

/-- The count is positive, so the reference's guard on its divisor takes the variance's side. -/
theorem cmp_ogt_1e5 : Ideal.cmp .ogt ((100000 : ℝ) : EReal) (0 : EReal) = 1#1 := by
  have hpos : (0 : EReal) < ((100000 : ℝ) : EReal) := EReal.coe_pos.mpr (by norm_num)
  simp [Ideal.cmp, hpos]

end Cert.Algebra

end
-- ==== Proof.RefRead.lean ====
/-
  The reference's term read at an index, in the vocabulary of the specification: h is the leaky ramp of the aggregate plus
  the bias; the mean is the column sum over 100000; the variance helper's value is the mean squared deviation over
  100000 − 0, kept where that count is positive; the result is the ramp of the normalised, scaled and shifted h.
-/
import proofs.«413316_j77618648973416_1_alg».proof.Proof.RefTerm
import proofs.«413316_j77618648973416_1_alg».proof.Proof.Spec
import proofs.«413316_j77618648973416_1_alg».proof.Proof.Algebra
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.Hand

open Cert.ReferenceIdeal
open Cert.ReferenceIdeal.Facts₀ Cert.ReferenceIdeal.Facts
open Idealize.ShloMosaic Idealize.ShloMosaic.ValueIdx

/-! ## Broadcasts read at an index -/

/-- A vector laid as the one row of a 1×n matrix. -/
theorem bcast_vec_row {α : Type} {n : Nat} (h : (⟨1, ![n]⟩ : Shape).BroadcastsInDim ⟨2, ![1, n]⟩ ![1])
    (x : (⟨1, ![n]⟩ : Shape).Idx → α) (q : Fin n) :
    broadcastInDim ⟨2, ![1, n]⟩ ![1] h x (ix2 (0 : Fin 1) q) = x (ix1 q) := by
  refine broadcastInDim_apply ![1] h x (ix2 (0 : Fin 1) q) (ix1 q) ?_
  intro a
  match a with
  | ⟨0, _⟩ =>
    show q.val = if n = 1 then 0 else q.val
    split_ifs with hn
    · have := q.isLt; omega
    · rfl

/-- A 1×1 matrix broadcast to m×n reads its one cell everywhere. -/
theorem bcast_cell {α : Type} {m n : Nat} (h : (⟨2, ![1, 1]⟩ : Shape).BroadcastsInDim ⟨2, ![m, n]⟩ ![0, 1])
    (y : (⟨2, ![1, 1]⟩ : Shape).Idx → α) (r : Fin m) (q : Fin n) :
    broadcastInDim ⟨2, ![m, n]⟩ ![0, 1] h y (ix2 r q) = y (ix2 (0 : Fin 1) (0 : Fin 1)) := by
  refine broadcastInDim_apply ![0, 1] h y (ix2 r q) (ix2 (0 : Fin 1) (0 : Fin 1)) ?_
  intro a
  fin_cases a
  · show (0 : ℕ) = if (1 : ℕ) = 1 then 0 else _
    simp
  · show (0 : ℕ) = if (1 : ℕ) = 1 then 0 else _
    simp

/-- The aggregate as the reference computes it from x: the gather of x's rows at the wrapped src, scaled by the edge
    weights, scatter-added at dst into zeros. -/
def aggR (x : FVec Ideal S100000x128 .f32) (a1 a2 : IVec S1600000 32) (a3 : FVec Ideal S1600000 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a2)
    (mulf (Host.gather gather_S100000x128_S1600000x1_S1600000x128_1_0_n_n_0_1_1128 x
            (broadcastInDim S1600000x1 ![0] bcast_S1600000_S1600000x1_0
              (select (cmpi .slt a1 (broadcastInDim S1600000 ![] bcast_S_S1600000 (constantI S_ 32 0#32)))
                (addi a1 (broadcastInDim S1600000 ![] bcast_S_S1600000 (constantI S_ 32 100000#32))) a1)))
          (broadcastInDim S1600000x128 ![0, 1] bcast_S1600000x1_S1600000x128_0_1 (broadcastInDim S1600000x1 ![0] bcast_S1600000_S1600000x1_0 a3)))

theorem refH_apply (a0 : FVec Ideal S100000x128 .f32) (a1 a2 : IVec S1600000 32) (a3 : FVec Ideal S1600000 .f32)
    (a4 : FVec Ideal S128x128 .f32) (a5 : FVec Ideal S128 .f32) (a6 : FVec Ideal S1 .f32) (r : Fin 100000) (q : Fin 128) :
    refH a0 a1 a2 a3 a4 a5 a6 (ix2 r q)
      = Cert.Spec.hval (aggR (Host.dotGeneral dot_S100000x128_S128x128_S100000x128_1_0_0_1_n_n none a0 a4) a1 a2 a3)
          (fun q => a5 (ix1 q)) (a6 (ix1 (0 : Fin 1))) r q := by
  unfold refH
  dsimp only
  rw [select_apply, cmpf_apply, mulf_apply, addf_apply]
  rw [bcast_cell bcast_S1x1_S100000x128_0_1, bcast_vec_row bcast_S1_S1x1_1,
    broadcastInDim_oneRow_apply bcast_S1x128_S100000x128_0_1, bcast_vec_row bcast_S128_S1x128_1,
    broadcastInDim_scalar_apply bcast_S_S100000x128, constant_apply, Cert.Algebra.ofBits_zero]
  rfl

/-! ## Column sums, the mean, the variance helper, the tail -/

/-- The host's sum over the rows, from zero, at column q. -/
theorem colsum_apply (v : FVec Ideal S100000x128 .f32) (q : Fin 128) :
    Host.reduceAdd v (constant (F := Ideal) S_ .f32 0x00000000#32) reducesTo_S100000x128_S128_d0 h_S_ (ix1 q)
      = ∑ r : Fin 100000, v (ix2 r q) := by
  rw [hostReduceAdd_apply, Ideal.hostReduceAdd_single reducesTo_S100000x128_S128_d0 (by decide : S100000x128.Reduces [0] S128),
    constant_apply, Cert.Algebra.ofBits_zero, zero_add]
  refine Finset.sum_congr rfl fun k _ => congrArg v ?_
  funext a
  match a with
  | ⟨0, _⟩ => rfl
  | ⟨1, _⟩ => rfl

theorem refMean_apply (v : FVec Ideal S100000x128 .f32) (q : Fin 128) :
    refMean v (ix1 q) = Ideal.div (∑ r : Fin 100000, v (ix2 r q)) ((100000 : ℝ) : EReal) := by
  unfold refMean
  dsimp only
  rw [hostDivf_apply, colsum_apply, broadcastInDim_scalar_apply bcast_S_S128, constant_apply, Cert.Algebra.ofBits_1e5]

theorem refVar_apply (v : FVec Ideal S100000x128 .f32) (q : Fin 128) :
    refVar v (ix1 q)
      = Ideal.div (∑ r : Fin 100000,
          (v (ix2 r q) - Ideal.div (∑ r' : Fin 100000, v (ix2 r' q)) ((100000 : ℝ) : EReal))
            * (v (ix2 r q) - Ideal.div (∑ r' : Fin 100000, v (ix2 r' q)) ((100000 : ℝ) : EReal))) ((100000 : ℝ) : EReal) := by
  unfold refVar
  dsimp only
  rw [select_apply, broadcastInDim_scalar_apply bcast_S_S128, cmpf_apply, subf_apply, constant_apply, constant_apply,
    Cert.Algebra.ofBits_1e5, Cert.Algebra.ofBits_zero, sitofp_apply]
  have h0 : (FloatOps.sitofp (F := Ideal) .f32 ((constantI S_ 32 0#32 : IVec S_ 32) ix0) : EReal)
      = ((((0 : BitVec 32).toInt : ℝ)) : EReal) := rfl
  rw [h0, Cert.Algebra.sub_zero_1e5]
  rw [show FloatOps.cmpf (F := Ideal) .ogt ((100000 : ℝ) : EReal) (0 : EReal) = Ideal.cmp .ogt ((100000 : ℝ) : EReal) (0 : EReal) from rfl,
    Cert.Algebra.cmp_ogt_1e5, select_one]
  rw [hostDivf_apply, colsum_apply, broadcastInDim_scalar_apply bcast_S_S128, subf_apply, constant_apply, Cert.Algebra.ofBits_1e5,
    sitofp_apply, h0, Cert.Algebra.sub_zero_1e5]
  refine congrArg (fun z => Ideal.div z ((100000 : ℝ) : EReal)) (Finset.sum_congr rfl fun r _ => ?_)
  rw [mulf_apply, subf_apply, broadcastInDim_oneRow_apply bcast_S1x128_S100000x128_0_1, hostDivf_apply,
    bcast_vec_row bcast_S128_S1x128_1, colsum_apply, broadcastInDim_scalar_apply bcast_S_S1x128, constant_apply,
    Cert.Algebra.ofBits_1e5]

theorem refTail_apply (v22 : FVec Ideal S100000x128 .f32) (v25 v26 a7 a8 : FVec Ideal S128 .f32) (a9 : FVec Ideal S1 .f32)
    (r : Fin 100000) (q : Fin 128) :
    refTail v22 v25 v26 a7 a8 a9 (ix2 r q)
      = Cert.Spec.outv (fun r q => v22 (ix2 r q)) (fun q => v25 (ix1 q)) (fun q => v26 (ix1 q)) (fun q => a7 (ix1 q)) (fun q => a8 (ix1 q))
          (Ideal.ofBits .f32 0x3727C5AC#32) (a9 (ix1 (0 : Fin 1))) r q := by
  unfold refTail
  dsimp only
  rw [select_apply, cmpf_apply, mulf_apply, addf_apply, mulf_apply, mulf_apply, subf_apply]
  rw [bcast_cell bcast_S1x1_S100000x128_0_1, bcast_vec_row bcast_S1_S1x1_1,
    broadcastInDim_oneRow_apply bcast_S1x128_S100000x128_0_1, bcast_vec_row bcast_S128_S1x128_1,
    broadcastInDim_oneRow_apply bcast_S1x128_S100000x128_0_1, bcast_vec_row bcast_S128_S1x128_1,
    broadcastInDim_oneRow_apply bcast_S1x128_S100000x128_0_1, bcast_vec_row bcast_S128_S1x128_1,
    broadcastInDim_oneRow_apply bcast_S1x128_S100000x128_0_1, bcast_vec_row bcast_S128_S1x128_1,
    broadcastInDim_scalar_apply bcast_S_S100000x128, constant_apply, Cert.Algebra.ofBits_zero]
  rfl

/-- The reference's result at (r, q). -/
theorem refOut_apply (a0 : FVec Ideal S100000x128 .f32) (a1 a2 : IVec S1600000 32) (a3 : FVec Ideal S1600000 .f32)
    (a4 : FVec Ideal S128x128 .f32) (a5 : FVec Ideal S128 .f32) (a6 : FVec Ideal S1 .f32) (a7 a8 : FVec Ideal S128 .f32)
    (a9 : FVec Ideal S1 .f32) (r : Fin 100000) (q : Fin 128) :
    refOut a0 a1 a2 a3 a4 a5 a6 a7 a8 a9 (ix2 r q)
      = Cert.Spec.outv (fun r q => refH a0 a1 a2 a3 a4 a5 a6 (ix2 r q))
          (fun q => refMean (refH a0 a1 a2 a3 a4 a5 a6) (ix1 q)) (fun q => refVar (refH a0 a1 a2 a3 a4 a5 a6) (ix1 q))
          (fun q => a7 (ix1 q)) (fun q => a8 (ix1 q)) (Ideal.ofBits .f32 0x3727C5AC#32) (a9 (ix1 (0 : Fin 1))) r q := by
  unfold refOut
  exact refTail_apply _ _ _ _ _ _ r q

end Cert.ReferenceIdeal.Hand

end
-- ==== Proof.RefDot.lean ====
/-
  The reference's matrix product read at an index: entry (r, q) of x = heat · W is the sum, over the one contracted
  coordinate k, of heat (r, k) · W (k, q).

  The product's dimension numbers contract the left operand's axis 1 with the right operand's axis 0 and keep the
  left's axis 0 and the right's axis 1 as the result's rows and columns; there is no batch axis. So at result index
  i = (r, q) and contraction index c the left operand is read at (r, c) and the right one at (c, q): one statement per
  operand axis below, then the sum over the contraction index set is carried to the sum over Fin 128 along the
  bijection between a one-axis index and its coordinate.
-/
import proofs.«413316_j77618648973416_1_alg».proof.Proof.RefTerm
import proofs.«413316_j77618648973416_1_alg».proof.Proof.Spec
import Idealize.ShloMosaic.Lib.ValueIdx
import Idealize.ShloMosaic.PureOps.Ideal.Laws

noncomputable section

namespace Cert.ReferenceIdeal.Hand

open Cert.ReferenceIdeal
open Cert.ReferenceIdeal.Facts₀ Cert.ReferenceIdeal.Facts
open Idealize.ShloMosaic Idealize.ShloMosaic.ValueIdx

/-! ## The operand indices, axis by axis -/

/-- The left operand's row is the result's row: axis 0 of the left operand is its kept (non-contracted) axis. -/
theorem lhs_xmat_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The left operand's column is the contraction coordinate: axis 1 of the left operand is the contracted one. -/
theorem lhs_xmat_1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c

/-- The right operand's row is the contraction coordinate: axis 0 of the right operand is the contracted one. -/
theorem rhs_xmat_0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c

/-- The right operand's column is the result's column: axis 1 of the right operand is its kept axis, and it follows
    the left operand's kept axis in the result. -/
theorem rhs_xmat_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-! ## The product at an index -/

/-- Entry (r, q) of the reference's product of a0 (100000 × 128) with a4 (128 × 128) is ∑ k, a0 (r, k) · a4 (k, q). -/
theorem dot_apply (a0 : FVec Ideal S100000x128 .f32) (a4 : FVec Ideal S128x128 .f32) (r : Fin 100000) (q : Fin 128) :
    Host.dotGeneral dot_S100000x128_S128x128_S100000x128_1_0_0_1_n_n none a0 a4 (ValueIdx.ix2 r q) = Cert.Spec.xmat a0 a4 r q := by
  unfold Cert.Spec.xmat
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  -- the left operand is read at (r, k)
  have el : dot_S100000x128_S128x128_S100000x128_1_0_0_1_n_n.lhsIdx (ix2 r q)
      ((contrEquiv1 dot_S100000x128_S128x128_S100000x128_1_0_0_1_n_n 128 rfl rfl).symm k) = ix2 r k :=
    funext fun a => Fin.ext (by
      match a with
      | ⟨0, _⟩ => exact lhs_xmat_0 _ _
      | ⟨1, _⟩ => exact (lhs_xmat_1 _ _).trans hk)
  -- the right operand is read at (k, q)
  have er : dot_S100000x128_S128x128_S100000x128_1_0_0_1_n_n.rhsIdx (ix2 r q)
      ((contrEquiv1 dot_S100000x128_S128x128_S100000x128_1_0_0_1_n_n 128 rfl rfl).symm k) = ix2 k q :=
    funext fun a => Fin.ext (by
      match a with
      | ⟨0, _⟩ => exact (rhs_xmat_0 _ _).trans hk
      | ⟨1, _⟩ => exact rhs_xmat_1 _ _)
  rw [el, er]

end Cert.ReferenceIdeal.Hand

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.AggReal.lean ====
/-
  The aggregate, h and x = heat · W take real values (neither infinity) when their inputs do.

  The aggregate at (r, q) is the zero the scatter starts from plus the sum, over the edges whose destination word is r,
  of a gathered entry of x times an edge weight: a masked finite sum of products of reals. h is the leaky ramp of a sum
  of two reals. x at (r, q) is a finite sum of products of reals.
-/
import proofs.«413316_j77618648973416_1_alg».proof.Proof.RefRead
import proofs.«413316_j77618648973416_1_alg».proof.Proof.LibRows
import proofs.«413316_j77618648973416_1_alg».proof.Proof.Algebra
import proofs.«413316_j77618648973416_1_alg».proof.Proof.Spec
import Idealize.ShloMosaic.Lib.ValueIdx
import Idealize.ShloMosaic.Lib.IdealHost
import Idealize.ShloMosaic.PureOps.Ideal.Laws

noncomputable section

namespace Cert.ReferenceIdeal.Hand

open Cert.ReferenceIdeal
open Cert.ReferenceIdeal.Facts₀ Cert.ReferenceIdeal.Facts
open Idealize.ShloMosaic Idealize.ShloMosaic.ValueIdx

/-- A product of two reals is real. -/
theorem real_mul {a b : EReal} (ha : ∃ y : ℝ, a = (y : EReal)) (hb : ∃ y : ℝ, b = (y : EReal)) :
    ∃ y : ℝ, a * b = (y : EReal) := by
  obtain ⟨ya, rfl⟩ := ha
  obtain ⟨yb, rfl⟩ := hb
  exact ⟨ya * yb, (EReal.coe_mul ya yb).symm⟩

/-- A sum of two reals is real. -/
theorem real_add {a b : EReal} (ha : ∃ y : ℝ, a = (y : EReal)) (hb : ∃ y : ℝ, b = (y : EReal)) :
    ∃ y : ℝ, a + b = (y : EReal) := by
  obtain ⟨ya, rfl⟩ := ha
  obtain ⟨yb, rfl⟩ := hb
  exact ⟨ya + yb, (EReal.coe_add ya yb).symm⟩

/-- The accumulating scatter of rows into a real operand, of real updates, is real at every entry: the operand's entry
    plus a masked finite sum of reals. -/
theorem scatterAdd_real (z : FVec Ideal S100000x128 .f32) (idx : IVec S1600000x1 32) (u : FVec Ideal S1600000x128 .f32)
    (hz : ∀ r q, ∃ y : ℝ, z (ix2 r q) = (y : EReal)) (hu : ∀ e q, ∃ y : ℝ, u (ix2 e q) = (y : EReal))
    (r : Fin 100000) (q : Fin 128) :
    ∃ y : ℝ, Host.scatterAdd scatter_S100000x128_S1600000x1_S1600000x128_1_0_0_1 z idx u (ix2 r q) = (y : EReal) := by
  change ∃ y : ℝ, Ideal.hostScatterAdd scatter_S100000x128_S1600000x1_S1600000x128_1_0_0_1 z idx u (ix2 r q) = (y : EReal)
  rw [Gcn.Rows.scatterAdd_rows scatter_S100000x128_S1600000x1_S1600000x128_1_0_0_1 rfl rfl rfl rfl z idx u r q]
  obtain ⟨z0, hz0⟩ := hz r q
  choose uu huu using hu
  rw [hz0, Finset.sum_congr rfl (fun e _ => by rw [huu e q])]
  exact Cert.Algebra.real_of_sum_ite z0 (fun e => (idx (ix2 e (0 : Fin 1))).toInt = ((r.val : ℕ) : ℤ)) (fun e => uu e q)

theorem aggR_real (x : FVec Ideal S100000x128 .f32) (a1 a2 : IVec S1600000 32) (a3 : FVec Ideal S1600000 .f32)
    (hx : ∀ i, ∃ y : ℝ, x i = (y : EReal)) (h3 : ∀ i, ∃ y : ℝ, a3 i = (y : EReal)) (r : Fin 100000) (q : Fin 128) :
    ∃ y : ℝ, aggR x a1 a2 a3 (ValueIdx.ix2 r q) = (y : EReal) := by
  unfold aggR
  refine scatterAdd_real _ _ _ ?_ ?_ r q
  · -- the operand is the zero literal everywhere
    intro r' q'
    refine ⟨0, ?_⟩
    rw [broadcastInDim_scalar_apply bcast_S_S100000x128, constant_apply, Cert.Algebra.ofBits_zero, EReal.coe_zero]
  · -- an update entry is a gathered entry of x times an entry of the edge weights
    intro e q'
    rw [mulf_apply]
    refine real_mul ?_ ?_
    · rw [Gcn.Rows.gather_rows gather_S100000x128_S1600000x1_S1600000x128_1_0_n_n_0_1_1128 rfl rfl rfl rfl rfl rfl x _ e q'
        (by norm_num)]
      exact hx _
    · exact h3 _

theorem hval_real (agg : (⟨2, ![100000, 128]⟩ : Shape).Idx → EReal) (b : Fin 128 → EReal) (a1 : EReal)
    (hagg : ∀ r q, ∃ y : ℝ, agg (ValueIdx.ix2 r q) = (y : EReal)) (hb : ∀ q, ∃ y : ℝ, b q = (y : EReal)) (ha : ∃ y : ℝ, a1 = (y : EReal)) (r : Fin 100000) (q : Fin 128) :
    ∃ y : ℝ, Cert.Spec.hval agg b a1 r q = (y : EReal) := by
  unfold Cert.Spec.hval Cert.Spec.ramp
  obtain ⟨s, hs⟩ := real_add (hagg r q) (hb q)
  obtain ⟨a, rfl⟩ := ha
  rw [hs]
  exact Cert.Algebra.ramp_real a s

theorem xmat_real (heat : (⟨2, ![100000, 128]⟩ : Shape).Idx → EReal) (w : (⟨2, ![128, 128]⟩ : Shape).Idx → EReal)
    (hh : ∀ i, ∃ y : ℝ, heat i = (y : EReal)) (hw : ∀ i, ∃ y : ℝ, w i = (y : EReal)) (r : Fin 100000) (q : Fin 128) : ∃ y : ℝ, Cert.Spec.xmat heat w r q = (y : EReal) := by
  unfold Cert.Spec.xmat
  choose p hp using fun k : Fin 128 => real_mul (hh (ix2 r k)) (hw (ix2 k q))
  refine ⟨∑ k : Fin 128, p k, ?_⟩
  rw [Finset.sum_congr rfl (fun k _ => hp k), Cert.Algebra.coe_sum]

end Cert.ReferenceIdeal.Hand

end
-- ==== Proof.Bridge.lean ====
/-
  The bridge: the kernel program's result, read in the vocabulary of the specification (h from the aggregate of
  x = heat · W; the mean as a column sum over 100000; the variance as the mean square minus the squared mean), is the
  reference's result. The one law that is not a regrouping is the variance identity
      (∑ h²)/N − ((∑ h)/N)² = (∑ (h − (∑ h)/N)²)/N,
  an identity of real numbers: it is used on h, which is real because every float input is (the matrix product, the
  gathered and scaled rows, their segment sums, the bias and the ramp all keep reals real).
-/
import proofs.«413316_j77618648973416_1_alg».proof.Proof.RefRead
import proofs.«413316_j77618648973416_1_alg».proof.Proof.RefDot
import proofs.«413316_j77618648973416_1_alg».proof.Proof.AggReal
import proofs.«413316_j77618648973416_1_alg».proof.Proof.Algebra
import proofs.«413316_j77618648973416_1_alg».proof.Proof.Spec

noncomputable section

namespace Cert.ReferenceIdeal.Hand

open Cert.ReferenceIdeal
open Cert.ReferenceIdeal.Facts₀ Cert.ReferenceIdeal.Facts
open Idealize.ShloMosaic Idealize.ShloMosaic.ValueIdx

section
variable (a0 : FVec Ideal S100000x128 .f32) (a1 a2 : IVec S1600000 32) (a3 : FVec Ideal S1600000 .f32)
  (a4 : FVec Ideal S128x128 .f32) (a5 : FVec Ideal S128 .f32) (a6 : FVec Ideal S1 .f32) (a7 a8 : FVec Ideal S128 .f32)
  (a9 : FVec Ideal S1 .f32)

/-- h as the kernel program computes it, from an array X that holds heat · W. -/
abbrev hOf (X : FVec Ideal S100000x128 .f32) : Fin 100000 → Fin 128 → EReal :=
  Cert.Spec.hval (aggR X a1 a2 a3) (fun q => a5 (ix1 q)) (a6 (ix1 (0 : Fin 1)))

/-- An array that holds heat · W entry by entry is the reference's product. -/
theorem X_eq (X : FVec Ideal S100000x128 .f32) (hX : ∀ r q, X (ix2 r q) = Cert.Spec.xmat a0 a4 r q) :
    X = Host.dotGeneral dot_S100000x128_S128x128_S100000x128_1_0_0_1_n_n none a0 a4 := by
  funext i
  obtain ⟨r, q, rfl⟩ : ∃ (r : Fin 100000) (q : Fin 128), i = ix2 r q := ⟨i 0, i 1, eq_ix2 i⟩
  rw [hX, dot_apply]

/-- The kernel program's result in the specification's words is the reference's result. -/
theorem bridge (h0 : ∀ i, ∃ x : ℝ, a0 i = (x : EReal)) (h3 : ∀ i, ∃ x : ℝ, a3 i = (x : EReal))
    (h4 : ∀ i, ∃ x : ℝ, a4 i = (x : EReal)) (h5 : ∀ i, ∃ x : ℝ, a5 i = (x : EReal)) (h6 : ∀ i, ∃ x : ℝ, a6 i = (x : EReal))
    (X : FVec Ideal S100000x128 .f32) (hX : ∀ r q, X (ix2 r q) = Cert.Spec.xmat a0 a4 r q) (r : Fin 100000) (q : Fin 128) :
    Cert.Spec.outv (hOf a1 a2 a3 a5 a6 X)
        (fun q => Ideal.div (Cert.Spec.colSum (hOf a1 a2 a3 a5 a6 X) q) (Ideal.ofBits .f32 0x47C35000#32))
        (fun q => Ideal.div (Cert.Spec.colSumSq (hOf a1 a2 a3 a5 a6 X) q) (Ideal.ofBits .f32 0x47C35000#32)
                    - Ideal.div (Cert.Spec.colSum (hOf a1 a2 a3 a5 a6 X) q) (Ideal.ofBits .f32 0x47C35000#32)
                      * Ideal.div (Cert.Spec.colSum (hOf a1 a2 a3 a5 a6 X) q) (Ideal.ofBits .f32 0x47C35000#32))
        (fun q => a7 (ix1 q)) (fun q => a8 (ix1 q)) (Ideal.ofBits .f32 0x3727C5AC#32) (a9 (ix1 (0 : Fin 1))) r q
      = refOut a0 a1 a2 a3 a4 a5 a6 a7 a8 a9 (ix2 r q) := by
  rw [refOut_apply]
  have hXe := X_eq a0 a4 X hX
  -- h agrees
  have hH : (fun r q => refH a0 a1 a2 a3 a4 a5 a6 (ix2 r q)) = hOf a1 a2 a3 a5 a6 X := by
    funext r q
    rw [refH_apply, hXe]
  -- h is real
  have hXr : ∀ i, ∃ y : ℝ, X i = (y : EReal) := by
    intro i
    obtain ⟨r, q, rfl⟩ : ∃ (r : Fin 100000) (q : Fin 128), i = ix2 r q := ⟨i 0, i 1, eq_ix2 i⟩
    rw [hX]
    exact xmat_real a0 a4 h0 h4 r q
  have hreal : ∀ r q, ∃ y : ℝ, hOf a1 a2 a3 a5 a6 X r q = (y : EReal) := fun r q =>
    hval_real _ _ _ (fun r q => aggR_real X a1 a2 a3 hXr h3 r q) (fun q => h5 _) (h6 _) r q
  choose hr hhr using hreal
  have hHp : ∀ r q, refH a0 a1 a2 a3 a4 a5 a6 (ix2 r q) = hOf a1 a2 a3 a5 a6 X r q :=
    fun r q => congrFun (congrFun hH r) q
  rw [hH]
  -- the mean and the variance agree
  have hmean : (fun q => refMean (refH a0 a1 a2 a3 a4 a5 a6) (ix1 q))
      = fun q => Ideal.div (Cert.Spec.colSum (hOf a1 a2 a3 a5 a6 X) q) (Ideal.ofBits .f32 0x47C35000#32) := by
    funext q
    rw [refMean_apply, Cert.Algebra.ofBits_1e5]
    unfold Cert.Spec.colSum
    simp only [hHp]
  have hvar : (fun q => refVar (refH a0 a1 a2 a3 a4 a5 a6) (ix1 q))
      = fun q => Ideal.div (Cert.Spec.colSumSq (hOf a1 a2 a3 a5 a6 X) q) (Ideal.ofBits .f32 0x47C35000#32)
                    - Ideal.div (Cert.Spec.colSum (hOf a1 a2 a3 a5 a6 X) q) (Ideal.ofBits .f32 0x47C35000#32)
                      * Ideal.div (Cert.Spec.colSum (hOf a1 a2 a3 a5 a6 X) q) (Ideal.ofBits .f32 0x47C35000#32) := by
    funext q
    rw [refVar_apply, Cert.Algebra.ofBits_1e5]
    unfold Cert.Spec.colSum Cert.Spec.colSumSq
    simp only [hHp, hhr]
    exact (Cert.Algebra.var_two_ways (fun r => hr r q)).symm
  rw [hmean, hvar]

end

end Cert.ReferenceIdeal.Hand

end
-- ==== Proof.Chain.lean ====
/-
  The kernel program's result, followed through @main: x out of region 0; the aggregate, bias and slope out of the host
  stretch; h and its two column sums out of region 1; mean, variance and the affine rows out of the next stretch; the
  result out of region 2 — each read in the specification's words, and the whole equal to the reference's result by
  the bridge.
-/
import proofs.«413316_j77618648973416_1_alg».proof.Defs
import proofs.«413316_j77618648973416_1_alg».proof.Proof.Gen.Pre_finite_inputs
import proofs.«413316_j77618648973416_1_alg».proof.Proof.Gen.KernelIdeal.Launch
import proofs.«413316_j77618648973416_1_alg».proof.Proof.Gen.KernelIdeal.Skeleton
import proofs.«413316_j77618648973416_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413316_j77618648973416_1_alg».proof.Proof.Run
import proofs.«413316_j77618648973416_1_alg».proof.Proof.Val0
import proofs.«413316_j77618648973416_1_alg».proof.Proof.Val1
import proofs.«413316_j77618648973416_1_alg».proof.Proof.Val2
import proofs.«413316_j77618648973416_1_alg».proof.Proof.HostK
import proofs.«413316_j77618648973416_1_alg».proof.Proof.HostK2
import proofs.«413316_j77618648973416_1_alg».proof.Proof.PreDecode
import proofs.«413316_j77618648973416_1_alg».proof.Proof.Bridge
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (m : (ℓ : Loc nD τ sig) → Buf (Elt Ideal) ℓ) (ρ : Dev nD → PrngReg)

/-- The ten arguments on core c, at their literal types. -/
abbrev ar0 (c : Dev nD) : FVec Ideal S100000x128 .f32 := m ((c : Thread nD τ).loc main_arg0)
abbrev ar1 (c : Dev nD) : IVec S1600000 32 := m ((c : Thread nD τ).loc main_arg1)
abbrev ar2 (c : Dev nD) : IVec S1600000 32 := m ((c : Thread nD τ).loc main_arg2)
abbrev ar3 (c : Dev nD) : FVec Ideal S1600000 .f32 := m ((c : Thread nD τ).loc main_arg3)
abbrev ar4 (c : Dev nD) : FVec Ideal S128x128 .f32 := m ((c : Thread nD τ).loc main_arg4)
abbrev ar5 (c : Dev nD) : FVec Ideal S128 .f32 := m ((c : Thread nD τ).loc main_arg5)
abbrev ar6 (c : Dev nD) : FVec Ideal S1 .f32 := m ((c : Thread nD τ).loc main_arg6)
abbrev ar7 (c : Dev nD) : FVec Ideal S128 .f32 := m ((c : Thread nD τ).loc main_arg7)
abbrev ar8 (c : Dev nD) : FVec Ideal S128 .f32 := m ((c : Thread nD τ).loc main_arg8)
abbrev ar9 (c : Dev nD) : FVec Ideal S1 .f32 := m ((c : Thread nD τ).loc main_arg9)

/-- x as region 0 leaves it. -/
abbrev xArr (c : Dev nD) : FVec Ideal S100000x128 .f32 := W1 m ρ c (Proc.devRef .tc main_v0)

/-- x is heat · W. -/
theorem x_val (c : Dev nD) (r : Fin 100000) (q : Fin 128) :
    xArr m ρ c (ix2 r q) = Cert.Spec.xmat (ar0 m c) (ar4 m c) r q := by
  have h := W1_arr m ρ c (2 : Fin cfg0.W)
  rw [show xArr m ρ c = (dat0 (V0 m ρ) c).arrAt 2 cfg0.N from h]
  exact arr0_2 (V0 m ρ) c r q

/-- h as the program computes it, in the bridge's words. -/
abbrev hArrK (c : Dev nD) : Fin 100000 → Fin 128 → EReal :=
  Cert.Spec.hval (aggK (xArr m ρ c) (ar1 m c) (ar2 m c) (ar3 m c)) (fun q => ar5 m c (ix1 q)) (ar6 m c (ix1 (0 : Fin 1)))

section
variable (hsrc : ∀ (c : Dev nD) (e : Fin 1600000), -100000 ≤ (ar1 m c (ix1 e)).toInt ∧ (ar1 m c (ix1 e)).toInt < 100000)
include hsrc

/-- The aggregate that region 1 is entered with. -/
theorem agg_val (c : Dev nD) :
    (W3 m ρ c (Proc.devRef .tc main_v7) : S100000x128.Idx → EReal) = aggK (xArr m ρ c) (ar1 m c) (ar2 m c) (ar3 m c) := by
  have h := host1_v7 (W1 m ρ c) (by rw [W1_main_arg1]; exact hsrc c)
  rw [W1_main_arg1, W1_main_arg2, W1_main_arg3] at h
  exact h

/-- h, as region 1's proof data read it, is the bridge's h. -/
theorem hK_eq (c : Dev nD) : hK (V3 m ρ) c = hArrK m ρ c := by
  have e7 := agg_val m ρ hsrc c
  have e8 : (fun q => (W3 m ρ c (Proc.devRef .tc main_v8) : S1x128.Idx → EReal) (ix2 (0 : Fin 1) q)) = fun q => ar5 m c (ix1 q) :=
    funext fun q => (host1_v8 (W1 m ρ c) q).trans (by rw [W1_main_arg5])
  have e9 : (W3 m ρ c (Proc.devRef .tc main_v9) : S1x1.Idx → EReal) (ix2 (0 : Fin 1) (0 : Fin 1)) = ar6 m c (ix1 (0 : Fin 1)) :=
    (host1_v9 (W1 m ρ c)).trans (by rw [W1_main_arg6])
  show Cert.Spec.hval (W3 m ρ c (Proc.devRef .tc main_v7)) (fun q => (W3 m ρ c (Proc.devRef .tc main_v8) : S1x128.Idx → EReal) (ix2 (0 : Fin 1) q))
      ((W3 m ρ c (Proc.devRef .tc main_v9) : S1x1.Idx → EReal) (ix2 (0 : Fin 1) (0 : Fin 1))) = _
  rw [e7, e8, e9]

/-- What region 2 is entered with: h, the mean, the variance, the two affine rows and the slope. -/
theorem v10_0_val (c : Dev nD) (r : Fin 100000) (q : Fin 128) :
    (W5 m ρ c (Proc.devRef .tc main_v10_0) : S100000x128.Idx → EReal) (ix2 r q) = hArrK m ρ c r q := by
  rw [W5_of m ρ c main_v10_0 (by decide)]
  have h := W4_arr m ρ c (3 : Fin cfg1.W)
  rw [show (W4 m ρ c (Proc.devRef .tc main_v10_0)) = (dat1 (V3 m ρ) c).arrAt 3 cfg1.N from h, arr1_3, hK_eq m ρ hsrc c]

theorem sum_val (c : Dev nD) (q : Fin 128) :
    (W4 m ρ c (Proc.devRef .tc main_v10_1) : S1x128.Idx → EReal) (ix2 (0 : Fin 1) q) = Cert.Spec.colSum (hArrK m ρ c) q := by
  have h := W4_arr m ρ c (4 : Fin cfg1.W)
  rw [show (W4 m ρ c (Proc.devRef .tc main_v10_1)) = (dat1 (V3 m ρ) c).arrAt 4 cfg1.N from h, arr1_4, hK_eq m ρ hsrc c]

theorem sumsq_val (c : Dev nD) (q : Fin 128) :
    (W4 m ρ c (Proc.devRef .tc main_v10_2) : S1x128.Idx → EReal) (ix2 (0 : Fin 1) q) = Cert.Spec.colSumSq (hArrK m ρ c) q := by
  have h := W4_arr m ρ c (5 : Fin cfg1.W)
  rw [show (W4 m ρ c (Proc.devRef .tc main_v10_2)) = (dat1 (V3 m ρ) c).arrAt 5 cfg1.N from h, arr1_5, hK_eq m ρ hsrc c]

/-- The program's result at (r, q), in the bridge's words. -/
theorem out_val (c : Dev nD) (r : Fin 100000) (q : Fin 128) :
    (W6 m ρ c (Proc.devRef .tc main_v20) : S100000x128.Idx → EReal) (ix2 r q)
      = Cert.Spec.outv (hArrK m ρ c)
          (fun q => Ideal.div (Cert.Spec.colSum (hArrK m ρ c) q) (Ideal.ofBits .f32 0x47C35000#32))
          (fun q => Ideal.div (Cert.Spec.colSumSq (hArrK m ρ c) q) (Ideal.ofBits .f32 0x47C35000#32)
                      - Ideal.div (Cert.Spec.colSum (hArrK m ρ c) q) (Ideal.ofBits .f32 0x47C35000#32)
                        * Ideal.div (Cert.Spec.colSum (hArrK m ρ c) q) (Ideal.ofBits .f32 0x47C35000#32))
          (fun q => ar7 m c (ix1 q)) (fun q => ar8 m c (ix1 q)) (Ideal.ofBits .f32 0x3727C5AC#32) (ar9 m c (ix1 (0 : Fin 1))) r q := by
  have h := W6_arr m ρ c (6 : Fin cfg2.W)
  rw [show (W6 m ρ c (Proc.devRef .tc main_v20)) = (dat2 (V5 m ρ) c).arrAt 6 cfg2.N from h, arr2_6]
  have eh : (fun r q => (W5 m ρ c (Proc.devRef .tc main_v10_0) : S100000x128.Idx → EReal) (ix2 r q)) = hArrK m ρ c :=
    funext fun r => funext fun q => v10_0_val m ρ hsrc c r q
  have em : (fun q => (W5 m ρ c (Proc.devRef .tc main_v12) : S1x128.Idx → EReal) (ix2 (0 : Fin 1) q))
      = fun q => Ideal.div (Cert.Spec.colSum (hArrK m ρ c) q) (Ideal.ofBits .f32 0x47C35000#32) :=
    funext fun q => (host2_v12 (W4 m ρ c) q).trans (by rw [sum_val m ρ hsrc c q])
  have ev : (fun q => (W5 m ρ c (Proc.devRef .tc main_v16) : S1x128.Idx → EReal) (ix2 (0 : Fin 1) q))
      = fun q => Ideal.div (Cert.Spec.colSumSq (hArrK m ρ c) q) (Ideal.ofBits .f32 0x47C35000#32)
                      - Ideal.div (Cert.Spec.colSum (hArrK m ρ c) q) (Ideal.ofBits .f32 0x47C35000#32)
                        * Ideal.div (Cert.Spec.colSum (hArrK m ρ c) q) (Ideal.ofBits .f32 0x47C35000#32) :=
    funext fun q => (host2_v16 (W4 m ρ c) q).trans (by rw [sum_val m ρ hsrc c q, sumsq_val m ρ hsrc c q])
  have eg : (fun q => (W5 m ρ c (Proc.devRef .tc main_v17) : S1x128.Idx → EReal) (ix2 (0 : Fin 1) q)) = fun q => ar7 m c (ix1 q) :=
    funext fun q => (host2_v17 (W4 m ρ c) q).trans (by rw [W4_main_arg7])
  have eb : (fun q => (W5 m ρ c (Proc.devRef .tc main_v18) : S1x128.Idx → EReal) (ix2 (0 : Fin 1) q)) = fun q => ar8 m c (ix1 q) :=
    funext fun q => (host2_v18 (W4 m ρ c) q).trans (by rw [W4_main_arg8])
  have ea : (W5 m ρ c (Proc.devRef .tc main_v19) : S1x1.Idx → EReal) (ix2 (0 : Fin 1) (0 : Fin 1)) = ar9 m c (ix1 (0 : Fin 1)) :=
    (host2_v19 (W4 m ρ c)).trans (by rw [W4_main_arg9])
  show Cert.Spec.outv (fun r q => (W5 m ρ c (Proc.devRef .tc main_v10_0) : S100000x128.Idx → EReal) (ix2 r q))
      (fun q => (W5 m ρ c (Proc.devRef .tc main_v12) : S1x128.Idx → EReal) (ix2 (0 : Fin 1) q))
      (fun q => (W5 m ρ c (Proc.devRef .tc main_v16) : S1x128.Idx → EReal) (ix2 (0 : Fin 1) q))
      (fun q => (W5 m ρ c (Proc.devRef .tc main_v17) : S1x128.Idx → EReal) (ix2 (0 : Fin 1) q))
      (fun q => (W5 m ρ c (Proc.devRef .tc main_v18) : S1x128.Idx → EReal) (ix2 (0 : Fin 1) q))
      (Ideal.ofBits .f32 0x3727C5AC#32) ((W5 m ρ c (Proc.devRef .tc main_v19) : S1x1.Idx → EReal) (ix2 (0 : Fin 1) (0 : Fin 1))) r q = _
  rw [eh, em, ev, eg, eb, ea]

end

/-- The kernel program's aggregate is the reference's: the same operations on the same records. -/
theorem aggK_eq_aggR (x : S100000x128.Idx → EReal) (src dst : IVec S1600000 32) (ew : S1600000.Idx → EReal) :
    aggK x src dst ew = Cert.ReferenceIdeal.Hand.aggR x src dst ew := rfl

/-- THE VALUE: under the precondition the program's result array is the reference's result of the same arguments. -/
theorem out_eq (hpre : Cert.Pre_KernelIdeal m) (c : Dev nD) :
    (W6 m ρ c (Proc.devRef .tc main_v20) : S100000x128.Idx → EReal)
      = Cert.ReferenceIdeal.Hand.refOut (ar0 m c) (ar1 m c) (ar2 m c) (ar3 m c) (ar4 m c) (ar5 m c) (ar6 m c) (ar7 m c) (ar8 m c) (ar9 m c) := by
  funext i
  obtain ⟨r, q, rfl⟩ : ∃ (r : Fin 100000) (q : Fin 128), i = ix2 r q := ⟨i 0, i 1, eq_ix2 i⟩
  have hsrc : ∀ (c : Dev nD) (e : Fin 1600000), -100000 ≤ (ar1 m c (ix1 e)).toInt ∧ (ar1 m c (ix1 e)).toInt < 100000 := fun c e =>
    Cert.Pre_finite_inputs.Hand.src_range (ar0 m c) (ar1 m c) (ar2 m c) (ar3 m c) (ar4 m c) (ar5 m c) (ar6 m c) (ar7 m c) (ar8 m c) (ar9 m c) (hpre c) e
  rw [out_val m ρ hsrc c r q]
  have hb := Cert.ReferenceIdeal.Hand.bridge (ar0 m c) (ar1 m c) (ar2 m c) (ar3 m c) (ar4 m c) (ar5 m c) (ar6 m c) (ar7 m c) (ar8 m c) (ar9 m c)
    (Cert.Pre_finite_inputs.Hand.fin0 (ar0 m c) (ar1 m c) (ar2 m c) (ar3 m c) (ar4 m c) (ar5 m c) (ar6 m c) (ar7 m c) (ar8 m c) (ar9 m c) (hpre c))
    (Cert.Pre_finite_inputs.Hand.fin3 (ar0 m c) (ar1 m c) (ar2 m c) (ar3 m c) (ar4 m c) (ar5 m c) (ar6 m c) (ar7 m c) (ar8 m c) (ar9 m c) (hpre c))
    (Cert.Pre_finite_inputs.Hand.fin4 (ar0 m c) (ar1 m c) (ar2 m c) (ar3 m c) (ar4 m c) (ar5 m c) (ar6 m c) (ar7 m c) (ar8 m c) (ar9 m c) (hpre c))
    (Cert.Pre_finite_inputs.Hand.fin5 (ar0 m c) (ar1 m c) (ar2 m c) (ar3 m c) (ar4 m c) (ar5 m c) (ar6 m c) (ar7 m c) (ar8 m c) (ar9 m c) (hpre c))
    (Cert.Pre_finite_inputs.Hand.fin6 (ar0 m c) (ar1 m c) (ar2 m c) (ar3 m c) (ar4 m c) (ar5 m c) (ar6 m c) (ar7 m c) (ar8 m c) (ar9 m c) (hpre c))
    (xArr m ρ c) (x_val m ρ c) r q
  exact hb

end

end Cert.KernelIdeal.Hand

end
-- ==== Proof.RefRun.lean ====
/-
  The reference's run. The reference is a program of host operations only: its @main is a straight line once the
  three calls it makes (the select helper twice, the variance helper once, which itself calls a select helper) are
  replaced by their bodies at the calls' own buffers. Seventy-eight operations, read in four consecutive stretches
  (27, 5, 23 and 23 of them): the aggregation and first ramp (to h), the column mean of h, the variance helper's body
  with the word it is called on, and the normalisation and second ramp. Each stretch is read from ANY contents of the buffers: the buffer it is read for ends at the stretch's
  stage function of the buffers it reads, and a buffer the stretch does not write keeps its contents. Composed, the
  result buffer ends at refOut of the ten argument buffers' launch contents, and the arguments, which no operation
  writes, end as they began.
-/
import proofs.«413316_j77618648973416_1_alg».proof.ReferenceIdeal
import proofs.«413316_j77618648973416_1_alg».proof.Proof.Gen.ReferenceIdeal
import proofs.«413316_j77618648973416_1_alg».proof.Proof.RefTerm
import Idealize.ShloMosaic.Lib.StableHlo.Run

noncomputable section

namespace Cert.ReferenceIdeal.Hand

open Cert.ReferenceIdeal
open Cert.ReferenceIdeal.Facts₀ Cert.ReferenceIdeal.Facts
open Idealize.ShloMosaic Idealize.SL.Sem Idealize.ShloMosaic.StableHlo

variable {F : FTy → Type} [FloatOps F]

/-! ## The operations, in four stretches -/

/-- Operations 1 … 27: x = heat · W, the gathered rows scaled by the edge weights and summed at their targets, the bias
    added, and the first ramp (the select helper's one operation, into its call's buffer): they end with h in %22. -/
abbrev opsA : List (HloOp τ sig (Elt F)) :=
  [ binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v7 main_v9 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v17 (broadcastInDim S100000x128 ![] bcast_S_S100000x128 : (⟨S_, .f32⟩ : BufTy).Contents (Elt F) → (⟨S100000x128, .f32⟩ : BufTy).Contents (Elt F)),
    binary main_v16 main_v17 main_v18 (cmpf .oge : (⟨S100000x128, .f32⟩ : BufTy).Contents (Elt F) → (⟨S100000x128, .f32⟩ : BufTy).Contents (Elt F) → (⟨S100000x128, .i1⟩ : BufTy).Contents (Elt F)),
    unary main_arg6 main_v19 (broadcastInDim S1x1 ![1] bcast_S1_S1x1_1 : (⟨S1, .f32⟩ : BufTy).Contents (Elt F) → (⟨S1x1, .f32⟩ : BufTy).Contents (Elt F)),
    unary main_v19 main_v20 (broadcastInDim S100000x128 ![0, 1] bcast_S1x1_S100000x128_0_1 : (⟨S1x1, .f32⟩ : BufTy).Contents (Elt F) → (⟨S100000x128, .f32⟩ : BufTy).Contents (Elt F)),
    binary main_v20 main_v16 main_v21 (mulf : (⟨S100000x128, .f32⟩ : BufTy).Contents (Elt F) → (⟨S100000x128, .f32⟩ : BufTy).Contents (Elt F) → (⟨S100000x128, .f32⟩ : BufTy).Contents (Elt F)),
    ternary main_v18 main_v16 main_v21 main_v22 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- Operations 28 … 32: the column sums of h over the row count. -/
abbrev opsB : List (HloOp τ sig (Elt F)) :=
  [ nullary main_cst_2 (constant S_ .f32 0x00000000#32),
    binary main_v22 main_cst_2 main_v23 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v24 (broadcastInDim S128 ![] bcast_S_S128 : (⟨S_, .f32⟩ : BufTy).Contents (Elt F) → (⟨S128, .f32⟩ : BufTy).Contents (Elt F)),
    binary main_v23 main_v24 main_v25 (Host.divf : (⟨S128, .f32⟩ : BufTy).Contents (Elt F) → (⟨S128, .f32⟩ : BufTy).Contents (Elt F) → (⟨S128, .f32⟩ : BufTy).Contents (Elt F)) ]

/-- Operations 33 … 55: the word 0 the variance helper is called with, the helper's nineteen operations at its call's
    buffers (its arguments are h in %22 and that word in %c_4), then the three of the select helper it calls, whose result
    is %26. -/
abbrev opsC : List (HloOp τ sig (Elt F)) :=
  [ nullary main_c_4 (constantI S_ 32 0#32),
    nullary main_call1_cst (constant S_ .f32 0x00000000#32),
    binary main_v22 main_call1_cst main_call1_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v0 main_call1_v1 (broadcastInDim S1x128 ![1] bcast_S128_S1x128_1 : (⟨S128, .f32⟩ : BufTy).Contents (Elt F) → (⟨S1x128, .f32⟩ : BufTy).Contents (Elt F)),
    nullary main_call1_cst_0 (constant S_ .f32 0x47C35000#32),
    unary main_call1_cst_0 main_call1_v2 (broadcastInDim S1x128 ![] bcast_S_S1x128 : (⟨S_, .f32⟩ : BufTy).Contents (Elt F) → (⟨S1x128, .f32⟩ : BufTy).Contents (Elt F)),
    binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    unary main_call1_v3 main_call1_v4 (broadcastInDim S100000x128 ![0, 1] bcast_S1x128_S100000x128_0_1 : (⟨S1x128, .f32⟩ : BufTy).Contents (Elt F) → (⟨S100000x128, .f32⟩ : BufTy).Contents (Elt F)),
    binary main_v22 main_call1_v4 main_call1_v5 (subf : (⟨S100000x128, .f32⟩ : BufTy).Contents (Elt F) → (⟨S100000x128, .f32⟩ : BufTy).Contents (Elt F) → (⟨S100000x128, .f32⟩ : BufTy).Contents (Elt F)),
    binary main_call1_v5 main_call1_v5 main_call1_v6 (mulf : (⟨S100000x128, .f32⟩ : BufTy).Contents (Elt F) → (⟨S100000x128, .f32⟩ : BufTy).Contents (Elt F) → (⟨S100000x128, .f32⟩ : BufTy).Contents (Elt F)),
    unary main_c_4 main_call1_v7 (sitofp .f32 : (⟨S_, .i32⟩ : BufTy).Contents (Elt F) → (⟨S_, .f32⟩ : BufTy).Contents (Elt F)),
    nullary main_call1_cst_1 (constant S_ .f32 0x47C35000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v8 main_call1_v10 (broadcastInDim S128 ![] bcast_S_S128 : (⟨S_, .f32⟩ : BufTy).Contents (Elt F) → (⟨S128, .f32⟩ : BufTy).Contents (Elt F)),
    binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S128 ![] bcast_S_S128 : (⟨S_, .f32⟩ : BufTy).Contents (Elt F) → (⟨S128, .f32⟩ : BufTy).Contents (Elt F)),
    ternary main_call1_v12 main_call1_v11 main_call1_call0_v1 main_v26 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- Operations 56 … 78: h centred, scaled by the reciprocal root of the variance plus ε, by γ, shifted by β, and the
    second ramp (the select helper's one operation again, into the result buffer %47). -/
abbrev opsD : List (HloOp τ sig (Elt F)) :=
  [ unary main_v25 main_v27 (broadcastInDim S1x128 ![1] bcast_S128_S1x128_1 : (⟨S128, .f32⟩ : BufTy).Contents (Elt F) → (⟨S1x128, .f32⟩ : BufTy).Contents (Elt F)),
    unary main_v27 main_v28 (broadcastInDim S100000x128 ![0, 1] bcast_S1x128_S100000x128_0_1 : (⟨S1x128, .f32⟩ : BufTy).Contents (Elt F) → (⟨S100000x128, .f32⟩ : BufTy).Contents (Elt F)),
    binary main_v22 main_v28 main_v29 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v30 (broadcastInDim S128 ![] bcast_S_S128 : (⟨S_, .f32⟩ : BufTy).Contents (Elt F) → (⟨S128, .f32⟩ : BufTy).Contents (Elt F)),
    binary main_v26 main_v30 main_v31 (addf : (⟨S128, .f32⟩ : BufTy).Contents (Elt F) → (⟨S128, .f32⟩ : BufTy).Contents (Elt F) → (⟨S128, .f32⟩ : BufTy).Contents (Elt F)),
    unary main_v31 main_v32 (Host.rsqrt : (⟨S128, .f32⟩ : BufTy).Contents (Elt F) → (⟨S128, .f32⟩ : BufTy).Contents (Elt F)),
    unary main_v32 main_v33 (broadcastInDim S1x128 ![1] bcast_S128_S1x128_1 : (⟨S128, .f32⟩ : BufTy).Contents (Elt F) → (⟨S1x128, .f32⟩ : BufTy).Contents (Elt F)),
    unary main_v33 main_v34 (broadcastInDim S100000x128 ![0, 1] bcast_S1x128_S100000x128_0_1 : (⟨S1x128, .f32⟩ : BufTy).Contents (Elt F) → (⟨S100000x128, .f32⟩ : BufTy).Contents (Elt F)),
    binary main_v29 main_v34 main_v35 (mulf : (⟨S100000x128, .f32⟩ : BufTy).Contents (Elt F) → (⟨S100000x128, .f32⟩ : BufTy).Contents (Elt F) → (⟨S100000x128, .f32⟩ : BufTy).Contents (Elt F)),
    unary main_arg7 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (mulf : (⟨S100000x128, .f32⟩ : BufTy).Contents (Elt F) → (⟨S100000x128, .f32⟩ : BufTy).Contents (Elt F) → (⟨S100000x128, .f32⟩ : BufTy).Contents (Elt F)),
    unary main_arg8 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    unary main_cst_6 main_v42 (broadcastInDim S100000x128 ![] bcast_S_S100000x128 : (⟨S_, .f32⟩ : BufTy).Contents (Elt F) → (⟨S100000x128, .f32⟩ : BufTy).Contents (Elt F)),
    binary main_v41 main_v42 main_v43 (cmpf .oge : (⟨S100000x128, .f32⟩ : BufTy).Contents (Elt F) → (⟨S100000x128, .f32⟩ : BufTy).Contents (Elt F) → (⟨S100000x128, .i1⟩ : BufTy).Contents (Elt F)),
    unary main_arg9 main_v44 (broadcastInDim S1x1 ![1] bcast_S1_S1x1_1 : (⟨S1, .f32⟩ : BufTy).Contents (Elt F) → (⟨S1x1, .f32⟩ : BufTy).Contents (Elt F)),
    unary main_v44 main_v45 (broadcastInDim S100000x128 ![0, 1] bcast_S1x1_S100000x128_0_1 : (⟨S1x1, .f32⟩ : BufTy).Contents (Elt F) → (⟨S100000x128, .f32⟩ : BufTy).Contents (Elt F)),
    binary main_v45 main_v41 main_v46 (mulf : (⟨S100000x128, .f32⟩ : BufTy).Contents (Elt F) → (⟨S100000x128, .f32⟩ : BufTy).Contents (Elt F) → (⟨S100000x128, .f32⟩ : BufTy).Contents (Elt F)),
    ternary main_v43 main_v41 main_v46 main_v47 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- @main's seventy-eight operations, in order. -/
abbrev ops : List (HloOp τ sig (Elt F)) := opsA ++ opsB ++ opsC ++ opsD

/-! ## @main is that line -/

-- seventy-eight binds re-associated: the rewriting under the chain recurses once per statement
set_option maxRecDepth 2048 in
/-- @main is that straight line: the three helpers' definitions unfolded at their calls and the calls' records at
    their fields, both sides are one chain of operation steps once sequencing is re-associated. -/
theorem main_eq (c : Dev nD) : main (F := F) c = seq ops := by
  simp only [main, fn_where.body, fn_var.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- The fold over two stretches in a row is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Every operation touches TensorCore buffers only, and determines its result -/

theorem opsA_sub : (opsA : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., binary_bufs_sub .., ternary_bufs_sub ..⟩
theorem opsB_sub : (opsB : List (HloOp τ sig (Elt F))).Forall fun op => op.bufs ⊆ tcRefs τ sig :=
  ⟨nullary_bufs_sub .., binary_bufs_sub .., nullary_bufs_sub .., unary_bufs_sub .., binary_bufs_sub ..⟩
theorem opsC_sub : (opsC : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., binary_bufs_sub .., ternary_bufs_sub ..⟩

theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · rcases List.mem_append.mp h with h | h
        · exact List.forall_iff_forall_mem.mp opsA_sub op h
        · exact List.forall_iff_forall_mem.mp opsB_sub op h
      · exact List.forall_iff_forall_mem.mp opsC_sub op h
    · exact List.forall_iff_forall_mem.mp opsD_sub op h

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.mp h with h | h
  · rcases List.mem_append.mp h with h | h
    · rcases List.mem_append.mp h with h | h
      · exact opsA_fresh op h
      · exact opsB_fresh op h
    · exact opsC_fresh op h
  · exact opsD_fresh op h

/-! ## What each stretch writes, and that it leaves the other buffers alone -/

/-- Closes "this operation writes only buffers of the list": its one result buffer is in the list, by inspection. -/
local macro "writes_in_list" : tactic =>
  `(tactic| (simp only [nullary_writes, unary_writes, binary_writes, ternary_writes, Finset.singleton_subset_iff, List.mem_toFinset]
             exact List.mem_map_of_mem (by decide)))

/-- The buffers the first stretch writes. -/
abbrev WA : List (Ref sig .tc) :=
  [main_v0, main_c, main_v1, main_v2, main_c_0, main_v3, main_v4, main_v5, main_v6, main_v7, main_v8, main_v9, main_v10, main_cst,
    main_v11, main_v12, main_v13, main_v14, main_v15, main_v16, main_cst_1, main_v17, main_v18, main_v19, main_v20, main_v21, main_v22]
/-- The buffers the second stretch writes. -/
abbrev WB : List (Ref sig .tc) := [main_cst_2, main_v23, main_cst_3, main_v24, main_v25]
/-- The buffers the third stretch writes. -/
abbrev WC : List (Ref sig .tc) :=
  [main_c_4, main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10, main_call1_v11,
    main_call1_cst_3, main_call1_v12, main_call1_cst_4, main_call1_call0_v0, main_call1_call0_v1, main_v26]
/-- The buffers the fourth stretch writes. -/
abbrev WD : List (Ref sig .tc) :=
  [main_v27, main_v28, main_v29, main_cst_5, main_v30, main_v31, main_v32, main_v33, main_v34, main_v35, main_v36, main_v37, main_v38,
    main_v39, main_v40, main_v41, main_cst_6, main_v42, main_v43, main_v44, main_v45, main_v46, main_v47]

theorem opsA_writes : (opsA : List (HloOp τ sig (Elt F))).Forall fun op => op.writes ⊆ (WA.map (Proc.devRef (τ := τ) .tc)).toFinset := by
  simp only [List.Forall]
  repeat' apply And.intro
  all_goals writes_in_list
theorem opsB_writes : (opsB : List (HloOp τ sig (Elt F))).Forall fun op => op.writes ⊆ (WB.map (Proc.devRef (τ := τ) .tc)).toFinset := by
  simp only [List.Forall]
  repeat' apply And.intro
  all_goals writes_in_list
theorem opsC_writes : (opsC : List (HloOp τ sig (Elt F))).Forall fun op => op.writes ⊆ (WC.map (Proc.devRef (τ := τ) .tc)).toFinset := by
  simp only [List.Forall]
  repeat' apply And.intro
  all_goals writes_in_list
theorem opsD_writes : (opsD : List (HloOp τ sig (Elt F))).Forall fun op => op.writes ⊆ (WD.map (Proc.devRef (τ := τ) .tc)).toFinset := by
  simp only [List.Forall]
  repeat' apply And.intro
  all_goals writes_in_list

section Keep
variable (V : Valuation τ sig (Elt F)) (r : Ref sig .tc)
theorem keepA (h : r ∉ WA) : after opsA V (Proc.devRef .tc r) = V (Proc.devRef .tc r) := after_of_writes_sub opsA V opsA_writes h
theorem keepB (h : r ∉ WB) : after opsB V (Proc.devRef .tc r) = V (Proc.devRef .tc r) := after_of_writes_sub opsB V opsB_writes h
theorem keepC (h : r ∉ WC) : after opsC V (Proc.devRef .tc r) = V (Proc.devRef .tc r) := after_of_writes_sub opsC V opsC_writes h
theorem keepD (h : r ∉ WD) : after opsD V (Proc.devRef .tc r) = V (Proc.devRef .tc r) := after_of_writes_sub opsD V opsD_writes h

/-- A buffer none of the four stretches writes ends the line as it began. -/
theorem keep (hA : r ∉ WA) (hB : r ∉ WB) (hC : r ∉ WC) (hD : r ∉ WD) : after ops V (Proc.devRef .tc r) = V (Proc.devRef .tc r) := by
  rw [show (ops : List (HloOp τ sig (Elt F))) = opsA ++ opsB ++ opsC ++ opsD from rfl, after_app, after_app, after_app,
    keepD _ _ hD, keepC _ _ hC, keepB _ _ hB, keepA _ _ hA]
end Keep

/-! ## Each stretch read from any contents

The buffer a stretch is read for, after the stretch from any contents V: the fold unrolled, each operation's result
read at its own buffer and every other buffer passed through (the references told apart by inspection), which leaves
the stretch's operations composed over V at the buffers the stretch reads and does not write: the stage function. -/

section Read
variable (V : Valuation τ sig (Elt Ideal))

theorem A_v22 :
    after opsA V (Proc.devRef .tc main_v22)
      = refH (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  after_results_simp
  simp only [refH]

theorem B_v25 : after opsB V (Proc.devRef .tc main_v25) = refMean (V (Proc.devRef .tc main_v22)) := by
  after_results_simp
  simp only [refMean]

theorem C_v26 : after opsC V (Proc.devRef .tc main_v26) = refVar (V (Proc.devRef .tc main_v22)) := by
  after_results_simp
  simp only [refVar]

theorem D_v47 :
    after opsD V (Proc.devRef .tc main_v47)
      = refTail (V (Proc.devRef .tc main_v22)) (V (Proc.devRef .tc main_v25)) (V (Proc.devRef .tc main_v26)) (V (Proc.devRef .tc main_arg7)) (V (Proc.devRef .tc main_arg8)) (V (Proc.devRef .tc main_arg9)) := by
  after_results_simp
  simp only [refTail]

/-- The result buffer after the whole line, from any contents: refOut of the argument buffers' contents. The last
    stretch reads h, the mean, the variance and the last three arguments; the variance is the third stretch's of h,
    the mean the second's of h, h the first's of the first seven arguments; every other buffer read is one the
    stretches in between do not write. -/
theorem out_eq :
    after ops V (Proc.devRef .tc main_v47)
      = refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9)) := by
  rw [show (ops : List (HloOp τ sig (Elt Ideal))) = opsA ++ opsB ++ opsC ++ opsD from rfl, after_app, after_app, after_app, D_v47,
    keepC _ main_v22 (by decide), keepB _ main_v22 (by decide), A_v22,
    keepC _ main_v25 (by decide), B_v25, A_v22,
    C_v26, keepB _ main_v22 (by decide), A_v22,
    keepC _ main_arg7 (by decide), keepB _ main_arg7 (by decide), keepA _ main_arg7 (by decide),
    keepC _ main_arg8 (by decide), keepB _ main_arg8 (by decide), keepA _ main_arg8 (by decide),
    keepC _ main_arg9 (by decide), keepB _ main_arg9 (by decide), keepA _ main_arg9 (by decide)]
  rfl
end Read

/-! ## The run -/

/-- At the compiled mesh, from any memory with zero counters: every weakly fair execution of the reference's @main on
    the TensorCores terminates, with the result buffer at refOut of the arguments' launch contents and the ten
    argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v47).trans (out_eq _),
      (h c main_arg0).trans (keep _ _ (by decide) (by decide) (by decide) (by decide)),
      (h c main_arg1).trans (keep _ _ (by decide) (by decide) (by decide) (by decide)),
      (h c main_arg2).trans (keep _ _ (by decide) (by decide) (by decide) (by decide)),
      (h c main_arg3).trans (keep _ _ (by decide) (by decide) (by decide) (by decide)),
      (h c main_arg4).trans (keep _ _ (by decide) (by decide) (by decide) (by decide)),
      (h c main_arg5).trans (keep _ _ (by decide) (by decide) (by decide) (by decide)),
      (h c main_arg6).trans (keep _ _ (by decide) (by decide) (by decide) (by decide)),
      (h c main_arg7).trans (keep _ _ (by decide) (by decide) (by decide) (by decide)),
      (h c main_arg8).trans (keep _ _ (by decide) (by decide) (by decide) (by decide)),
      (h c main_arg9).trans (keep _ _ (by decide) (by decide) (by decide) (by decide))⟩)
    (run_seq scopedRefs_eq scopedSems_eq defs main (fun _ => ops) main_eq (fun _ => ops_sub) m ρ (fun _ => ops_fresh))

end Cert.ReferenceIdeal.Hand

end
-- ==== Proof.lean ====
/-
  The certificate: the kernel program — x = heat · W by a blocked matrix product; the edge-weighted segment sum of x's
  gathered rows; h = the leaky ramp of that plus the bias, with its column sums and sums of squares accumulated over the
  row blocks; the batch normalisation from mean = Σh/N and var = Σh²/N − mean², the affine map and the outer ramp —
  against the reference, which computes the same with the variance as the mean squared deviation.

  Frames: the word-level and the idealized program run as three pipelined regions among host stretches, each region's
  body proved once for every float instance (the middle one carries its two accumulator rows from point to point); the
  reference is a straight line of host operations. Value: each region's output array is read as one function of what the
  region was entered with, the host stretches as their operations' terms, and the two results agree entry by entry: the
  products and sums are regroupings, and the two variance formulas agree on real data, which h is because every float
  input is finite. The gather's index is in range by the precondition on src, so the kernel program's fill of
  out-of-range rows never applies and its gather is the reference's.
-/
import proofs.«413316_j77618648973416_1_alg».proof.Defs
import proofs.«413316_j77618648973416_1_alg».proof.Proof.Gen.Kernel
import proofs.«413316_j77618648973416_1_alg».proof.Proof.Gen.KernelIdeal
import proofs.«413316_j77618648973416_1_alg».proof.Proof.Gen.ReferenceIdeal
import proofs.«413316_j77618648973416_1_alg».proof.Proof.Gen.Pre_finite_inputs
import proofs.«413316_j77618648973416_1_alg».proof.Proof.KRun
import proofs.«413316_j77618648973416_1_alg».proof.Proof.Run
import proofs.«413316_j77618648973416_1_alg».proof.Proof.Chain
import proofs.«413316_j77618648973416_1_alg».proof.Proof.RefRun

noncomputable section

namespace Cert.Proof

open Idealize.ShloMosaic Idealize.SL.Sem

/-- The word-level program runs to the end and leaves its arguments as launched. -/
theorem frame_k : Cert.frame_Kernel := fun m g _ => Cert.Kernel.Hand.frame m g

/-- So does the idealized program. -/
theorem frame_ki : Cert.frame_KernelIdeal := fun m g _ => Cert.KernelIdeal.Hand.frame m g

/-- And the reference: its run with the result dropped. -/
theorem frame_ri : Cert.frame_ReferenceIdeal := fun m g _ =>
  (θ_run (Cert.ReferenceIdeal.defs (F := Ideal)) _ _).mono (fun _ h c => (h c).2) (Cert.ReferenceIdeal.Hand.run m g)

/-- The idealized program's run with its result array named and its arguments unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = Cert.KernelIdeal.Hand.W6 m g c (Proc.devRef .tc Cert.KernelIdeal.main_v20)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run (Cert.KernelIdeal.defs (F := Ideal)) _ _).mono (fun r h c =>
    ⟨h c _ (Cert.KernelIdeal.Hand.mem_uc Cert.KernelIdeal.main_v20 (by decide)),
     (h c _ (Cert.KernelIdeal.Hand.mem_uc Cert.KernelIdeal.main_arg0 (by decide))).trans (Cert.KernelIdeal.Hand.W6_main_arg0 m g c),
     (h c _ (Cert.KernelIdeal.Hand.mem_uc Cert.KernelIdeal.main_arg1 (by decide))).trans (Cert.KernelIdeal.Hand.W6_main_arg1 m g c),
     (h c _ (Cert.KernelIdeal.Hand.mem_uc Cert.KernelIdeal.main_arg2 (by decide))).trans (Cert.KernelIdeal.Hand.W6_main_arg2 m g c),
     (h c _ (Cert.KernelIdeal.Hand.mem_uc Cert.KernelIdeal.main_arg3 (by decide))).trans (Cert.KernelIdeal.Hand.W6_main_arg3 m g c),
     (h c _ (Cert.KernelIdeal.Hand.mem_uc Cert.KernelIdeal.main_arg4 (by decide))).trans (Cert.KernelIdeal.Hand.W6_main_arg4 m g c),
     (h c _ (Cert.KernelIdeal.Hand.mem_uc Cert.KernelIdeal.main_arg5 (by decide))).trans (Cert.KernelIdeal.Hand.W6_main_arg5 m g c),
     (h c _ (Cert.KernelIdeal.Hand.mem_uc Cert.KernelIdeal.main_arg6 (by decide))).trans (Cert.KernelIdeal.Hand.W6_main_arg6 m g c),
     (h c _ (Cert.KernelIdeal.Hand.mem_uc Cert.KernelIdeal.main_arg7 (by decide))).trans (Cert.KernelIdeal.Hand.W6_main_arg7 m g c),
     (h c _ (Cert.KernelIdeal.Hand.mem_uc Cert.KernelIdeal.main_arg8 (by decide))).trans (Cert.KernelIdeal.Hand.W6_main_arg8 m g c),
     (h c _ (Cert.KernelIdeal.Hand.mem_uc Cert.KernelIdeal.main_arg9 (by decide))).trans (Cert.KernelIdeal.Hand.W6_main_arg9 m g c)⟩)
    (Cert.KernelIdeal.Hand.run_all m g)

/-- The two idealized programs, run from memories that agree on the arguments, end with equal results. -/
theorem algebraic : Cert.algebraic_KernelIdeal_ReferenceIdeal := by
  intro m g m' g' hpre hagree
  refine ⟨fun c => Cert.KernelIdeal.Hand.W6 m g c (Proc.devRef .tc Cert.KernelIdeal.main_v20), kernel_run m g, ?_⟩
  refine (θ_run (Cert.ReferenceIdeal.defs (F := Ideal)) _ _).mono (fun r h c => ⟨(h c).1.trans ?_, (h c).2⟩) (Cert.ReferenceIdeal.Hand.run m' g')
  obtain ⟨e0, e1, e2, e3, e4, e5, e6, e7, e8, e9⟩ := hagree c
  rw [e0, e1, e2, e3, e4, e5, e6, e7, e8, e9]
  exact (Cert.KernelIdeal.Hand.out_eq m g hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
